-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S2x1280000 : Shape := ⟨2, ![2, 1280000]⟩
abbrev S80000 : Shape := ⟨1, ![80000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S_ : Shape := ⟨0, ![]⟩
abbrev S1x1280000 : Shape := ⟨2, ![1, 1280000]⟩
abbrev S1280000 : Shape := ⟨1, ![1280000]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1280000_S1x1280000_0_0 : S2x1280000.Slices ![0, 0] S1x1280000
  shapeCasts_S1x1280000_S1280000 : S1x1280000.ShapeCasts S1280000
  bcast_S_S1280000 : S_.BroadcastsInDim S1280000 (![] : Fin 0 → Fin S1280000.rank)
  reducesTo_S1280000_S_d0 : S1280000.ReducesTo [0] S_

variable [Facts]

def fn_part4 {F : FTy → Type} [FloatOps F] (main_arg1 : IVec S2x1280000 32) (main_v67 : IVec S_ 1) : IVec S_ 1 :=
  let main_v68 : IVec S1x1280000 32 := (extractStridedSlice S1x1280000 ![0, 0] · slices_S2x1280000_S1x1280000_0_0) main_arg1
  let main_v69 : IVec S1280000 32 := shapeCast S1280000 main_v68 shapeCasts_S1x1280000_S1280000
  let main_c_26 : IVec S_ 32 := constantI S_ 32 0#32
  let main_v70 : IVec S1280000 32 := broadcastInDim S1280000 ![] bcast_S_S1280000 main_c_26
  let main_v71 : IVec S1280000 1 := cmpi .sge main_v69 main_v70
  let main_v72 : IVec S1x1280000 32 := (extractStridedSlice S1x1280000 ![0, 0] · slices_S2x1280000_S1x1280000_0_0) main_arg1
  let main_v73 : IVec S1280000 32 := shapeCast S1280000 main_v72 shapeCasts_S1x1280000_S1280000
  let main_c_27 : IVec S_ 32 := constantI S_ 32 80000#32
  let main_v74 : IVec S1280000 32 := broadcastInDim S1280000 ![] bcast_S_S1280000 main_c_27
  let main_v75 : IVec S1280000 1 := cmpi .slt main_v73 main_v74
  let main_v76 : IVec S1280000 1 := andi main_v71 main_v75
  let main_c_28 : IVec S_ 1 := constantI S_ 1 1#1
  let main_v77 : IVec S_ 1 := (fun x v => Host.reduce IntOp.andi x v reducesTo_S1280000_S_d0 h_S_) main_v76 main_c_28
  let main_v78 : IVec S_ 1 := andi main_v67 main_v77
  main_v78

def fn_part3 {F : FTy → Type} [FloatOps F] (main_arg1 : IVec S2x1280000 32) (main_arg8 : FVec F S3x64 .f32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_cst_24 : FVec F S_ .f32 := constant S_ .f32 0x00000000#32
  let main_v64 : FVec F S3x64 .f32 := broadcastInDim S3x64 ![] bcast_S_S3x64 main_cst_24
  let main_v65 : IVec S3x64 1 := cmpf .oge main_arg8 main_v64
  let main_c_25 : IVec S_ 1 := constantI S_ 1 1#1
  let main_v66 : IVec S_ 1 := (fun x v => Host.reduce IntOp.andi x v reducesTo_S3x64_S_d0_1 h_S_) main_v65 main_c_25
  let main_v67 : IVec S_ 1 := andi main_v63 main_v66
  fn_part4 (F := F) main_arg1 main_v67

def fn_part2 {F : FTy → Type} [FloatOps F] (main_arg1 : IVec S2x1280000 32) (main_arg8 : FVec F S3x64 .f32) (main_arg9 : FVec F S3x64x64 .f32) (main_arg10 : FVec F S3x64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg8 main_arg13 main_arg14 main_v48 main_v49 main_v50

def fn_part1 {F : FTy → Type} [FloatOps F] (main_arg1 : IVec S2x1280000 32) (main_arg6 : FVec F S3x64 .f32) (main_arg7 : FVec F S3x64 .f32) (main_arg8 : FVec F S3x64 .f32) (main_arg9 : FVec F S3x64x64 .f32) (main_arg10 : FVec F S3x64 .f32) (main_arg11 : FVec F S64x64 .f32) (main_arg12 : FVec F S64 .f32) (main_arg13 : FVec F S64x64 .f32) (main_arg14 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S80000x64 .f32) (main_arg1 : IVec S2x1280000 32) (main_arg2 : IVec S80000 32) (main_arg3 : FVec F S3x64x64 .f32) (main_arg4 : FVec F S3x64 .f32) (main_arg5 : FVec F S3x64 .f32) (main_arg6 : FVec F S3x64 .f32) (main_arg7 : FVec F S3x64 .f32) (main_arg8 : FVec F S3x64 .f32) (main_arg9 : FVec F S3x64x64 .f32) (main_arg10 : FVec F S3x64 .f32) (main_arg11 : FVec F S64x64 .f32) (main_arg12 : FVec F S64 .f32) (main_arg13 : FVec F S64x64 .f32) (main_arg14 : FVec F S64 .f32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg6 main_arg7 main_arg8 main_arg9 main_arg10 main_arg11 main_arg12 main_arg13 main_arg14 main_v13 main_v16
-- ==== Kernel.lean ====
abbrev S80000x64 : Shape := ⟨2, ![80000, 64]⟩
abbrev S2x1280000 : Shape := ⟨2, ![2, 1280000]⟩
abbrev S80000 : Shape := ⟨1, ![80000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S80000x1 : Shape := ⟨2, ![80000, 1]⟩
abbrev S_ : Shape := ⟨0, ![]⟩
abbrev S1280000x1 : Shape := ⟨2, ![1280000, 1]⟩
abbrev S1 : Shape := ⟨1, ![1]⟩
abbrev S1x1 : Shape := ⟨2, ![1, 1]⟩
abbrev S1280000x64 : Shape := ⟨2, ![1280000, 64]⟩
abbrev S1x64x64 : Shape := ⟨3, ![1, 64, 64]⟩
abbrev S1x64 : Shape := ⟨2, ![1, 64]⟩
abbrev S3200x64 : Shape := ⟨2, ![3200, 64]⟩
abbrev S128x64 : Shape := ⟨2, ![128, 64]⟩
abbrev S3200x1 : Shape := ⟨2, ![3200, 1]⟩
abbrev S3200x128 : Shape := ⟨2, ![3200, 128]⟩

abbrev nBuf : Space → Nat
  | .hbm => 163
  | .vmem => 49
  | .smem => 0
  | _ => 0

abbrev hbmTy0_0 (i : Nat) : BufTy := match i % 128 with
  | 0 => ⟨S80000x64, .f32⟩
  | 1 => ⟨S2x1280000, .i32⟩
  | 2 => ⟨S80000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S64x64, .f32⟩
  | 12 => ⟨S64, .f32⟩
  | 13 => ⟨S64x64, .f32⟩
  | 14 => ⟨S64, .f32⟩
  | 15 => ⟨S1x1280000, .i32⟩
  | 16 => ⟨S1280000, .i32⟩
  | 17 => ⟨S1x1280000, .i32⟩
  | 18 => ⟨S1280000, .i32⟩
  | 19 => ⟨S80000x1, .i32⟩
  | 20 => ⟨S_, .f32⟩
  | 21 => ⟨S3x64, .f32⟩
  | 22 => ⟨S3x64, .f32⟩
  | 23 => ⟨S3x64, .f32⟩
  | 24 => ⟨S3x64, .f32⟩
  | 25 => ⟨S3x64, .f32⟩
  | 26 => ⟨S3x64, .f32⟩
  | 27 => ⟨S_, .i32⟩
  | 28 => ⟨S1280000, .i32⟩
  | 29 => ⟨S1280000, .i1⟩
  | 30 => ⟨S_, .i32⟩
  | 31 => ⟨S1280000, .i32⟩
  | 32 => ⟨S1280000, .i32⟩
  | 33 => ⟨S1280000, .i32⟩
  | 34 => ⟨S1280000x1, .i32⟩
  | 35 => ⟨S1, .i32⟩
  | 36 => ⟨S_, .i32⟩
  | 37 => ⟨S1280000x1, .i32⟩
  | 38 => ⟨S1280000x1, .i1⟩
  | 39 => ⟨S1x1, .i32⟩
  | 40 => ⟨S1280000x1, .i32⟩
  | 41 => ⟨S1280000x1, .i1⟩
  | 42 => ⟨S1280000x1, .i1⟩
  | 43 => ⟨S_, .i1⟩
  | 44 => ⟨S1280000, .i1⟩
  | 45 => ⟨S1280000x64, .f32⟩
  | 46 => ⟨S1280000x64, .i1⟩
  | 47 => ⟨S_, .f32⟩
  | 48 => ⟨S1280000x64, .f32⟩
  | 49 => ⟨S1280000x64, .f32⟩
  | 50 => ⟨S_, .f32⟩
  | 51 => ⟨S80000x64, .f32⟩
  | 52 => ⟨S1280000x1, .i32⟩
  | 53 => ⟨S80000x64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S1x64, .f32⟩
  | 60 => ⟨S64, .f32⟩
  | 61 => ⟨S1x64, .f32⟩
  | 62 => ⟨S1x64, .f32⟩
  | 63 => ⟨S64, .f32⟩
  | 64 => ⟨S1x64, .f32⟩
  | 65 => ⟨S1x64x64, .f32⟩
  | 66 => ⟨S64x64, .f32⟩
  | 67 => ⟨S1x64, .f32⟩
  | 68 => ⟨S64, .f32⟩
  | 69 => ⟨S1x64, .f32⟩
  | 70 => ⟨S80000x64, .f32⟩
  | 71 => ⟨S_, .i32⟩
  | 72 => ⟨S1280000, .i32⟩
  | 73 => ⟨S1280000, .i1⟩
  | 74 => ⟨S_, .i32⟩
  | 75 => ⟨S1280000, .i32⟩
  | 76 => ⟨S1280000, .i32⟩
  | 77 => ⟨S1280000, .i32⟩
  | 78 => ⟨S1280000x1, .i32⟩
  | 79 => ⟨S1, .i32⟩
  | 80 => ⟨S_, .i32⟩
  | 81 => ⟨S1280000x1, .i32⟩
  | 82 => ⟨S1280000x1, .i1⟩
  | 83 => ⟨S1x1, .i32⟩
  | 84 => ⟨S1280000x1, .i32⟩
  | 85 => ⟨S1280000x1, .i1⟩
  | 86 => ⟨S1280000x1, .i1⟩
  | 87 => ⟨S_, .i1⟩
  | 88 => ⟨S1280000, .i1⟩
  | 89 => ⟨S1280000x64, .f32⟩
  | 90 => ⟨S1280000x64, .i1⟩
  | 91 => ⟨S_, .f32⟩
  | 92 => ⟨S1280000x64, .f32⟩
  | 93 => ⟨S1280000x64, .f32⟩
  | 94 => ⟨S_, .f32⟩
  | 95 => ⟨S80000x64, .f32⟩
  | 96 => ⟨S1280000x1, .i32⟩
  | 97 => ⟨S80000x64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S1x64, .f32⟩
  | 104 => ⟨S64, .f32⟩
  | 105 => ⟨S1x64, .f32⟩
  | 106 => ⟨S1x64, .f32⟩
  | 107 => ⟨S64, .f32⟩
  | 108 => ⟨S1x64, .f32⟩
  | 109 => ⟨S1x64x64, .f32⟩
  | 110 => ⟨S64x64, .f32⟩
  | 111 => ⟨S1x64, .f32⟩
  | 112 => ⟨S64, .f32⟩
  | 113 => ⟨S1x64, .f32⟩
  | 114 => ⟨S80000x64, .f32⟩
  | 115 => ⟨S_, .i32⟩
  | 116 => ⟨S1280000, .i32⟩
  | 117 => ⟨S1280000, .i1⟩
  | 118 => ⟨S_, .i32⟩
  | 119 => ⟨S1280000, .i32⟩
  | 120 => ⟨S1280000, .i32⟩
  | 121 => ⟨S1280000, .i32⟩
  | 122 => ⟨S1280000x1, .i32⟩
  | 123 => ⟨S1, .i32⟩
  | 124 => ⟨S_, .i32⟩
  | 125 => ⟨S1280000x1, .i32⟩
  | 126 => ⟨S1280000x1, .i1⟩
  | 127 => ⟨S1x1, .i32⟩
  | _ => ⟨S80000x64, .f32⟩

abbrev hbmTy0_1 (i : Nat) : BufTy := match i % 128 with
  | 0 => ⟨S1280000x1, .i32⟩
  | 1 => ⟨S1280000x1, .i1⟩
  | 2 => ⟨S1280000x1, .i1⟩
  | 3 => ⟨S_, .i1⟩
  | 4 => ⟨S1280000, .i1⟩
  | 5 => ⟨S1280000x64, .f32⟩
  | 6 => ⟨S1280000x64, .i1⟩
  | 7 => ⟨S_, .f32⟩
  | 8 => ⟨S1280000x64, .f32⟩
  | 9 => ⟨S1280000x64, .f32⟩
  | 10 => ⟨S_, .f32⟩
  | 11 => ⟨S80000x64, .f32⟩
  | 12 => ⟨S1280000x1, .i32⟩
  | 13 => ⟨S80000x64, .f32⟩
  | 14 => ⟨S1x64x64, .f32⟩
  | 15 => ⟨S64x64, .f32⟩
  | 16 => ⟨S1x64, .f32⟩
  | 17 => ⟨S64, .f32⟩
  | 18 => ⟨S1x64, .f32⟩
  | 19 => ⟨S1x64, .f32⟩
  | 20 => ⟨S64, .f32⟩
  | 21 => ⟨S1x64, .f32⟩
  | 22 => ⟨S1x64, .f32⟩
  | 23 => ⟨S64, .f32⟩
  | 24 => ⟨S1x64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S80000x64, .f32⟩
  | 31 => ⟨S1x64, .f32⟩
  | 32 => ⟨S1x64, .f32⟩
  | 33 => ⟨S80000x64, .f32⟩
  | 34 => ⟨S128x64, .f32⟩
  | _ => ⟨S80000x64, .f32⟩

abbrev hbmTy (i : Nat) : BufTy := match i / 128 with
  | 0 => hbmTy0_0 i
  | 1 => hbmTy0_1 i
  | _ => ⟨S80000x64, .f32⟩

abbrev bufTy : (tb : Table) → Fin (tcTables nBuf tb) → BufTy
  | .hbm, ⟨i, _⟩ => hbmTy i
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S3200x64, .f32⟩
  | .local _ .vmem, ⟨11, _⟩ => ⟨S3200x64, .f32⟩
  | .local _ .vmem, ⟨12, _⟩ => ⟨S3200x64, .f32⟩
  | .local _ .vmem, ⟨13, _⟩ => ⟨S3200x64, .f32⟩
  | .local _ .vmem, ⟨14, _⟩ => ⟨S3200x64, .f32⟩
  | .local _ .vmem, ⟨15, _⟩ => ⟨S3200x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S3200x64, .f32⟩
  | .local _ .vmem, ⟨23, _⟩ => ⟨S3200x64, .f32⟩
  | .local _ .vmem, ⟨24, _⟩ => ⟨S3200x64, .f32⟩
  | .local _ .vmem, ⟨25, _⟩ => ⟨S3200x64, .f32⟩
  | .local _ .vmem, ⟨26, _⟩ => ⟨S3200x64, .f32⟩
  | .local _ .vmem, ⟨27, _⟩ => ⟨S3200x64, .f32⟩
  | .local _ .vmem, ⟨28, _⟩ => ⟨S64x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S3200x64, .f32⟩
  | .local _ .vmem, ⟨35, _⟩ => ⟨S3200x64, .f32⟩
  | .local _ .vmem, ⟨36, _⟩ => ⟨S3200x64, .f32⟩
  | .local _ .vmem, ⟨37, _⟩ => ⟨S3200x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S3200x64, .f32⟩
  | .local _ .vmem, ⟨43, _⟩ => ⟨S3200x64, .f32⟩
  | .local _ .vmem, ⟨44, _⟩ => ⟨S3200x64, .f32⟩
  | .local _ .vmem, ⟨45, _⟩ => ⟨S3200x64, .f32⟩
  | .local _ .vmem, ⟨46, _⟩ => ⟨S3200x1, .i32⟩
  | .local _ .vmem, ⟨47, _⟩ => ⟨S3200x1, .i32⟩
  | .local _ .vmem, ⟨48, _⟩ => ⟨S128x64, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v11 : Ref sig .tc := ⟨.hbm, 49, rfl⟩
abbrev main_cst_0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_cst : Ref sig .tc := ⟨.hbm, 91, rfl⟩
abbrev main_call1_v15 : Ref sig .tc := ⟨.hbm, 92, rfl⟩
abbrev main_v32 : Ref sig .tc := ⟨.hbm, 93, rfl⟩
abbrev main_cst_1 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v53 : Ref sig .tc := ⟨.hbm, 137, rfl⟩
abbrev main_cst_2 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S3200x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S3200x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S3200x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S3200x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3200x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  shapeCasts_S80000_S80000x1 : S80000.ShapeCasts S80000x1
  bcast_S_S3x64 : S_.BroadcastsInDim S3x64 (![] : Fin 0 → Fin S3x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x64_0 : S1280000.BroadcastsInDim S1280000x64 (![0] : Fin 1 → Fin S1280000x64.rank)
  bcast_S_S1280000x64 : S_.BroadcastsInDim S1280000x64 (![] : Fin 0 → Fin S1280000x64.rank)
  bcast_S_S80000x64 : S_.BroadcastsInDim S80000x64 (![] : Fin 0 → Fin S80000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S128x64_S128x64_0_0 : ∀ a, (![0, 0] : Fin 2 → Nat) a + S128x64.size a ≤ S128x64.size a
  h_S128x64 : 0 < S128x64.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  iota_S3200x128_d1_w32 : S3200x128.Iotas .tc 32 [1]
  broadcasts_S3200x1_S3200x128 : S3200x1.Broadcasts S3200x128
  natLt_1_32 : 1 < 32
  shapeCasts_S128x64_S128x64 : S128x64.ShapeCasts S128x64
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S3200x64_S64x64_S3200x64_1_0_0_1_n_n_wf : DotDims.WF S3200x64 S64x64 S3200x64 [1] [0] [0] [1] [] []
  dot_S3200x128_S3200x64_S128x64_0_0_1_1_n_n_wf : DotDims.WF S3200x128 S3200x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S80000x64.size a
  hwx0_0 : ∀ i : grid0.Coords, EltTy.bits .f32 = 32 ∨ (Rect.block (s := S80000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S80000x64.size a
  hwx0_1 : ∀ i : grid0.Coords, EltTy.bits .f32 = 32 ∨ (Rect.block (s := S80000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x64.size a ≤ S80000x64.size a
  hwx0_8 : ∀ i : grid0.Coords, EltTy.bits .f32 = 32 ∨ (Rect.block (s := S80000x64) S3200x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S80000x64.size a
  hwx1_0 : ∀ i : grid1.Coords, EltTy.bits .f32 = 32 ∨ (Rect.block (s := S80000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S80000x64.size a
  hwx1_1 : ∀ i : grid1.Coords, EltTy.bits .f32 = 32 ∨ (Rect.block (s := S80000x64) S3200x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3200x64.size a ≤ S80000x64.size a
  hwx1_8 : ∀ i : grid1.Coords, EltTy.bits .f32 = 32 ∨ (Rect.block (s := S80000x64) S3200x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x64.size a ≤ S80000x64.size a
  hwx2_0 : ∀ i : grid2.Coords, EltTy.bits .f32 = 32 ∨ (Rect.block (s := S80000x64) S3200x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x64.size a ≤ S80000x64.size a
  hwx2_1 : ∀ i : grid2.Coords, EltTy.bits .f32 = 32 ∨ (Rect.block (s := S80000x64) S3200x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S3200x64.size a ≤ S80000x64.size a
  hwx2_8 : ∀ i : grid2.Coords, EltTy.bits .f32 = 32 ∨ (Rect.block (s := S80000x64) S3200x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x64.size a ≤ S80000x64.size a
  hwx3_0 : ∀ i : grid3.Coords, EltTy.bits .f32 = 32 ∨ (Rect.block (s := S80000x64) S3200x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S3200x64.size a ≤ S80000x64.size a
  hwx3_5 : ∀ i : grid3.Coords, EltTy.bits .f32 = 32 ∨ (Rect.block (s := S80000x64) S3200x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3200x64.size a ≤ S80000x64.size a
  hwx4_0 : ∀ i : grid4.Coords, EltTy.bits .f32 = 32 ∨ (Rect.block (s := S80000x64) S3200x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x1.size a ≤ S80000x1.size a
  hwx4_1 : ∀ i : grid4.Coords, EltTy.bits .i32 = 32 ∨ (Rect.block (s := S80000x1) S3200x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x128_S3200x64_S128x64_0_0_1_1_n_n : DotDims S3200x128 S3200x64 S128x64 where
  lhsContracting := [0]
  rhsContracting := [0]
  lhsNonContracting := [1]
  rhsNonContracting := [1]
  lhsBatch := []
  rhsBatch := []
  wf := dot_S3200x128_S3200x64_S128x64_0_0_1_1_n_n_wf

abbrev win0_0 : Pipeline.Window sig grid0 :=
  Pipeline.Window.ofSpec (Memref.whole main_arg0) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S3200x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v31) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S3200x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v52) S3200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S3200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v72) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v73) S3200x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v73) S3200x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S3200x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S3200x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S3200x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S128x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S80000x64 : Shape := ⟨2, ![80000, 64]⟩
abbrev S2x1280000 : Shape := ⟨2, ![2, 1280000]⟩
abbrev S80000 : Shape := ⟨1, ![80000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S1x64x64 : Shape := ⟨3, ![1, 64, 64]⟩
abbrev S1x64 : Shape := ⟨2, ![1, 64]⟩
abbrev S128x64 : Shape := ⟨2, ![128, 64]⟩
abbrev S80000x1 : Shape := ⟨2, ![80000, 1]⟩

abbrev nBuf : Space → Nat
  | .hbm => 208
  | .vmem => 0
  | .smem => 0
  | _ => 0

abbrev hbmTy0_0 (i : Nat) : BufTy := match i % 128 with
  | 0 => ⟨S80000x64, .f32⟩
  | 1 => ⟨S2x1280000, .i32⟩
  | 2 => ⟨S80000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S64x64, .f32⟩
  | 12 => ⟨S64, .f32⟩
  | 13 => ⟨S64x64, .f32⟩
  | 14 => ⟨S64, .f32⟩
  | 15 => ⟨S1x1280000, .i32⟩
  | 16 => ⟨S1280000, .i32⟩
  | 17 => ⟨S1x1280000, .i32⟩
  | 18 => ⟨S1280000, .i32⟩
  | 19 => ⟨S_, .i32⟩
  | 20 => ⟨S1280000, .i32⟩
  | 21 => ⟨S1280000, .i1⟩
  | 22 => ⟨S_, .i32⟩
  | 23 => ⟨S1280000, .i32⟩
  | 24 => ⟨S1280000, .i32⟩
  | 25 => ⟨S1280000, .i32⟩
  | 26 => ⟨S1280000x1, .i32⟩
  | 27 => ⟨S1280000x64, .f32⟩
  | 28 => ⟨S_, .f32⟩
  | 29 => ⟨S80000x64, .f32⟩
  | 30 => ⟨S1280000x1, .i32⟩
  | 31 => ⟨S80000x64, .f32⟩
  | 32 => ⟨S80000x64, .f32⟩
  | 33 => ⟨S1x64x64, .f32⟩
  | 34 => ⟨S64x64, .f32⟩
  | 35 => ⟨S80000x64, .f32⟩
  | 36 => ⟨S1x64, .f32⟩
  | 37 => ⟨S64, .f32⟩
  | 38 => ⟨S1x64, .f32⟩
  | 39 => ⟨S80000x64, .f32⟩
  | 40 => ⟨S80000x64, .f32⟩
  | 41 => ⟨S1x64, .f32⟩
  | 42 => ⟨S64, .f32⟩
  | 43 => ⟨S1x64, .f32⟩
  | 44 => ⟨S80000x64, .f32⟩
  | 45 => ⟨S80000x64, .f32⟩
  | 46 => ⟨S1x64, .f32⟩
  | 47 => ⟨S64, .f32⟩
  | 48 => ⟨S1x64, .f32⟩
  | 49 => ⟨S64, .f32⟩
  | 50 => ⟨S_, .f32⟩
  | 51 => ⟨S64, .f32⟩
  | 52 => ⟨S64, .f32⟩
  | 53 => ⟨S64, .f32⟩
  | 54 => ⟨S64, .f32⟩
  | 55 => ⟨S1x64, .f32⟩
  | 56 => ⟨S80000x64, .f32⟩
  | 57 => ⟨S80000x64, .f32⟩
  | 58 => ⟨S1x64, .f32⟩
  | 59 => ⟨S64, .f32⟩
  | 60 => ⟨S1x64, .f32⟩
  | 61 => ⟨S80000x64, .f32⟩
  | 62 => ⟨S80000x64, .f32⟩
  | 63 => ⟨S_, .f32⟩
  | 64 => ⟨S80000x64, .f32⟩
  | 65 => ⟨S80000x64, .f32⟩
  | 66 => ⟨S1x64x64, .f32⟩
  | 67 => ⟨S64x64, .f32⟩
  | 68 => ⟨S80000x64, .f32⟩
  | 69 => ⟨S1x64, .f32⟩
  | 70 => ⟨S64, .f32⟩
  | 71 => ⟨S1x64, .f32⟩
  | 72 => ⟨S80000x64, .f32⟩
  | 73 => ⟨S80000x64, .f32⟩
  | 74 => ⟨S_, .f32⟩
  | 75 => ⟨S80000x64, .f32⟩
  | 76 => ⟨S80000x64, .f32⟩
  | 77 => ⟨S_, .i32⟩
  | 78 => ⟨S1280000, .i32⟩
  | 79 => ⟨S1280000, .i1⟩
  | 80 => ⟨S_, .i32⟩
  | 81 => ⟨S1280000, .i32⟩
  | 82 => ⟨S1280000, .i32⟩
  | 83 => ⟨S1280000, .i32⟩
  | 84 => ⟨S1280000x1, .i32⟩
  | 85 => ⟨S1280000x64, .f32⟩
  | 86 => ⟨S_, .f32⟩
  | 87 => ⟨S80000x64, .f32⟩
  | 88 => ⟨S1280000x1, .i32⟩
  | 89 => ⟨S80000x64, .f32⟩
  | 90 => ⟨S80000x64, .f32⟩
  | 91 => ⟨S1x64x64, .f32⟩
  | 92 => ⟨S64x64, .f32⟩
  | 93 => ⟨S80000x64, .f32⟩
  | 94 => ⟨S1x64, .f32⟩
  | 95 => ⟨S64, .f32⟩
  | 96 => ⟨S1x64, .f32⟩
  | 97 => ⟨S80000x64, .f32⟩
  | 98 => ⟨S80000x64, .f32⟩
  | 99 => ⟨S1x64, .f32⟩
  | 100 => ⟨S64, .f32⟩
  | 101 => ⟨S1x64, .f32⟩
  | 102 => ⟨S80000x64, .f32⟩
  | 103 => ⟨S80000x64, .f32⟩
  | 104 => ⟨S1x64, .f32⟩
  | 105 => ⟨S64, .f32⟩
  | 106 => ⟨S1x64, .f32⟩
  | 107 => ⟨S64, .f32⟩
  | 108 => ⟨S_, .f32⟩
  | 109 => ⟨S64, .f32⟩
  | 110 => ⟨S64, .f32⟩
  | 111 => ⟨S64, .f32⟩
  | 112 => ⟨S64, .f32⟩
  | 113 => ⟨S1x64, .f32⟩
  | 114 => ⟨S80000x64, .f32⟩
  | 115 => ⟨S80000x64, .f32⟩
  | 116 => ⟨S1x64, .f32⟩
  | 117 => ⟨S64, .f32⟩
  | 118 => ⟨S1x64, .f32⟩
  | 119 => ⟨S80000x64, .f32⟩
  | 120 => ⟨S80000x64, .f32⟩
  | 121 => ⟨S_, .f32⟩
  | 122 => ⟨S80000x64, .f32⟩
  | 123 => ⟨S80000x64, .f32⟩
  | 124 => ⟨S1x64x64, .f32⟩
  | 125 => ⟨S64x64, .f32⟩
  | 126 => ⟨S80000x64, .f32⟩
  | 127 => ⟨S1x64, .f32⟩
  | _ => ⟨S80000x64, .f32⟩

abbrev hbmTy0_1 (i : Nat) : BufTy := match i % 128 with
  | 0 => ⟨S64, .f32⟩
  | 1 => ⟨S1x64, .f32⟩
  | 2 => ⟨S80000x64, .f32⟩
  | 3 => ⟨S80000x64, .f32⟩
  | 4 => ⟨S_, .f32⟩
  | 5 => ⟨S80000x64, .f32⟩
  | 6 => ⟨S80000x64, .f32⟩
  | 7 => ⟨S_, .i32⟩
  | 8 => ⟨S1280000, .i32⟩
  | 9 => ⟨S1280000, .i1⟩
  | 10 => ⟨S_, .i32⟩
  | 11 => ⟨S1280000, .i32⟩
  | 12 => ⟨S1280000, .i32⟩
  | 13 => ⟨S1280000, .i32⟩
  | 14 => ⟨S1280000x1, .i32⟩
  | 15 => ⟨S1280000x64, .f32⟩
  | 16 => ⟨S_, .f32⟩
  | 17 => ⟨S80000x64, .f32⟩
  | 18 => ⟨S1280000x1, .i32⟩
  | 19 => ⟨S80000x64, .f32⟩
  | 20 => ⟨S80000x64, .f32⟩
  | 21 => ⟨S1x64x64, .f32⟩
  | 22 => ⟨S64x64, .f32⟩
  | 23 => ⟨S80000x64, .f32⟩
  | 24 => ⟨S1x64, .f32⟩
  | 25 => ⟨S64, .f32⟩
  | 26 => ⟨S1x64, .f32⟩
  | 27 => ⟨S80000x64, .f32⟩
  | 28 => ⟨S80000x64, .f32⟩
  | 29 => ⟨S1x64, .f32⟩
  | 30 => ⟨S64, .f32⟩
  | 31 => ⟨S1x64, .f32⟩
  | 32 => ⟨S80000x64, .f32⟩
  | 33 => ⟨S80000x64, .f32⟩
  | 34 => ⟨S1x64, .f32⟩
  | 35 => ⟨S64, .f32⟩
  | 36 => ⟨S1x64, .f32⟩
  | 37 => ⟨S64, .f32⟩
  | 38 => ⟨S_, .f32⟩
  | 39 => ⟨S64, .f32⟩
  | 40 => ⟨S64, .f32⟩
  | 41 => ⟨S64, .f32⟩
  | 42 => ⟨S64, .f32⟩
  | 43 => ⟨S1x64, .f32⟩
  | 44 => ⟨S80000x64, .f32⟩
  | 45 => ⟨S80000x64, .f32⟩
  | 46 => ⟨S1x64, .f32⟩
  | 47 => ⟨S64, .f32⟩
  | 48 => ⟨S1x64, .f32⟩
  | 49 => ⟨S80000x64, .f32⟩
  | 50 => ⟨S80000x64, .f32⟩
  | 51 => ⟨S_, .f32⟩
  | 52 => ⟨S80000x64, .f32⟩
  | 53 => ⟨S80000x64, .f32⟩
  | 54 => ⟨S1x64x64, .f32⟩
  | 55 => ⟨S64x64, .f32⟩
  | 56 => ⟨S80000x64, .f32⟩
  | 57 => ⟨S1x64, .f32⟩
  | 58 => ⟨S64, .f32⟩
  | 59 => ⟨S1x64, .f32⟩
  | 60 => ⟨S80000x64, .f32⟩
  | 61 => ⟨S80000x64, .f32⟩
  | 62 => ⟨S_, .f32⟩
  | 63 => ⟨S80000x64, .f32⟩
  | 64 => ⟨S80000x64, .f32⟩
  | 65 => ⟨S80000x64, .f32⟩
  | 66 => ⟨S1x64, .f32⟩
  | 67 => ⟨S80000x64, .f32⟩
  | 68 => ⟨S80000x64, .f32⟩
  | 69 => ⟨S_, .f32⟩
  | 70 => ⟨S80000x64, .f32⟩
  | 71 => ⟨S80000x64, .f32⟩
  | 72 => ⟨S80000x64, .f32⟩
  | 73 => ⟨S1x64, .f32⟩
  | 74 => ⟨S80000x64, .f32⟩
  | 75 => ⟨S80000x64, .f32⟩
  | 76 => ⟨S_, .f32⟩
  | 77 => ⟨S128x64, .f32⟩
  | 78 => ⟨S80000x1, .i32⟩
  | 79 => ⟨S128x64, .f32⟩
  | _ => ⟨S80000x64, .f32⟩

abbrev hbmTy (i : Nat) : BufTy := match i / 128 with
  | 0 => hbmTy0_0 i
  | 1 => hbmTy0_1 i
  | _ => ⟨S80000x64, .f32⟩

abbrev bufTy : (tb : Table) → Fin (tcTables nBuf tb) → BufTy
  | .hbm, ⟨i, _⟩ => hbmTy i
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_c_2 : Ref sig .tc := ⟨.hbm, 77, rfl⟩
abbrev main_v54 : Ref sig .tc := ⟨.hbm, 78, rfl⟩
abbrev main_v55 : Ref sig .tc := ⟨.hbm, 79, rfl⟩
abbrev main_c_3 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_5 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call2_cst : Ref sig .tc := ⟨.hbm, 121, rfl⟩
abbrev main_call2_v0 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call3_cst : Ref sig .tc := ⟨.hbm, 132, rfl⟩
abbrev main_call3_v0 : Ref sig .tc := ⟨.hbm, 133, rfl⟩
abbrev main_v103 : Ref sig .tc := ⟨.hbm, 134, rfl⟩
abbrev main_c_6 : Ref sig .tc := ⟨.hbm, 135, rfl⟩
abbrev main_v104 : Ref sig .tc := ⟨.hbm, 136, rfl⟩
abbrev main_v105 : Ref sig .tc := ⟨.hbm, 137, rfl⟩
abbrev main_c_7 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_8 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_9 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_call4_cst : Ref sig .tc := ⟨.hbm, 179, rfl⟩
abbrev main_call4_v0 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_call5_cst : Ref sig .tc := ⟨.hbm, 190, rfl⟩
abbrev main_call5_v0 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_call6_cst : Ref sig .tc := ⟨.hbm, 197, rfl⟩
abbrev main_call6_v0 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_10 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S80000x64 : S_.BroadcastsInDim S80000x64 (![] : Fin 0 → Fin S80000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S80000_S80000x1_0 : S80000.BroadcastsInDim S80000x1 (![0] : Fin 1 → Fin S80000x1.rank)
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x64_S80000x64_1_0_0_1_n_n_wf : DotDims.WF S80000x64 S64x64 S80000x64 [1] [0] [0] [1] [] []
  scatter_S128x64_S80000x1_S80000x64_1_0_0_1_wf : ScatterDims.WF S128x64 S80000x1 S80000x64 [1] [0] [0] 1

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def scatter_S128x64_S80000x1_S80000x64_1_0_0_1 : ScatterDims S128x64 S80000x1 S80000x64 where
  updateWindowDims := [1]
  insertedWindowDims := [0]
  scatterDimsToOperandDims := [0]
  indexVectorDim := 1
  wf := scatter_S128x64_S80000x1_S80000x64_1_0_0_1_wf

class Facts : Prop extends Facts₀ where

variable [Facts]
-- ==== Proof.Spec.lean ====
/-
  The mathematics both programs compute, with no program in sight.

  A graph of 80000 nodes with 64 features each. One GIN layer sends a node's row `h` and the sum `a` of its
  in-neighbours' rows to
      relu( relu( ((h + a) · W₁ + b₁) ⊙ sc + sh ) · W₂ + b₂ ),
  a row at a time: the two products contract the 64 features, so a node's new row depends on its own row and its own
  aggregate only. Three such layers, then a two-layer perceptron (again a row at a time), then a pooling that sums the
  rows of each of 128 graphs: entry (g, j) of the result is the sum of column j over the nodes whose graph id is g.

  The neighbour sum itself (a gather along the edges' sources, a scatter-add along their targets) is the same host
  operation chain in both programs; here it is a PARAMETER `agg`, a function from a feature array to a feature array,
  and nothing below opens it.

  The batch-norm step is written as the affine map `z ↦ z * sc + sh`. One program computes it so, with
  `sc = γ / √(v + ε)` and `sh = β - μ * sc` folded beforehand; the other computes `(z - μ) * sc + β`. On the extended
  reals the two agree for EVERY `z` as soon as `μ`, `β` and `sc` are real numbers (`affine_fold`); `sc` is real when
  `γ` and `v` are and `v ≥ 0`, since then `v + ε > 0` (`scale_real`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Node features: 80000 rows of 64. -/
abbrev SN : Shape := ⟨2, ![80000, 64]⟩
/-- Pooled features: 128 graphs by 64. -/
abbrev SG : Shape := ⟨2, ![128, 64]⟩

/-- A row through a 64×64 matrix plus a bias: `(x · W + b) j = ∑ k, x k * W k j + b j`. -/
def dense (x : Fin 64 → EReal) (w : Fin 64 → Fin 64 → EReal) (b : Fin 64 → EReal) : Fin 64 → EReal :=
  fun j => (∑ k, x k * w k j) + b j

/-- One node's GIN update from its row `h` and its aggregate `a`. -/
def ginRow (h a : Fin 64 → EReal) (w1 : Fin 64 → Fin 64 → EReal) (b1 sc sh : Fin 64 → EReal)
    (w2 : Fin 64 → Fin 64 → EReal) (b2 : Fin 64 → EReal) : Fin 64 → EReal :=
  fun j => max (dense (fun k => max (dense (fun k' => h k' + a k') w1 b1 k * sc k + sh k) 0) w2 b2 j) 0

/-- One node's row through the two-layer perceptron. -/
def mlpRow (h : Fin 64 → EReal) (w1 : Fin 64 → Fin 64 → EReal) (b1 : Fin 64 → EReal)
    (w2 : Fin 64 → Fin 64 → EReal) (b2 : Fin 64 → EReal) : Fin 64 → EReal :=
  fun j => dense (fun k => max (dense h w1 b1 k) 0) w2 b2 j

/-- A GIN layer on the whole feature array, a row at a time. -/
def ginArr (w1 : Fin 64 → Fin 64 → EReal) (b1 sc sh : Fin 64 → EReal) (w2 : Fin 64 → Fin 64 → EReal) (b2 : Fin 64 → EReal)
    (h a : SN.Idx → EReal) : SN.Idx → EReal :=
  fun i => ginRow (fun k => h (ix2 (i 0) k)) (fun k => a (ix2 (i 0) k)) w1 b1 sc sh w2 b2 (i 1)

/-- The perceptron on the whole feature array, a row at a time. -/
def mlpArr (w1 : Fin 64 → Fin 64 → EReal) (b1 : Fin 64 → EReal) (w2 : Fin 64 → Fin 64 → EReal) (b2 : Fin 64 → EReal)
    (h : SN.Idx → EReal) : SN.Idx → EReal :=
  fun i => mlpRow (fun k => h (ix2 (i 0) k)) w1 b1 w2 b2 (i 1)

/-- Sum pooling by graph id: entry (g, j) is the sum of column j over the nodes whose id is the word `g`. An id that
    is no graph's (negative, or 128 and above) contributes nowhere. -/
def pool (h : SN.Idx → EReal) (bid : Fin 80000 → BitVec 32) : SG.Idx → EReal :=
  fun i => ∑ r : Fin 80000, if bid r = BitVec.ofNat 32 (i 0).val then h (ix2 r (i 1)) else 0

/-- The whole network: three GIN layers over the aggregation `agg`, the perceptron, the pooling. -/
def out (agg : (SN.Idx → EReal) → (SN.Idx → EReal)) (x : SN.Idx → EReal)
    (w1 : Fin 3 → Fin 64 → Fin 64 → EReal) (b1 sc sh : Fin 3 → Fin 64 → EReal)
    (w2 : Fin 3 → Fin 64 → Fin 64 → EReal) (b2 : Fin 3 → Fin 64 → EReal)
    (wm1 : Fin 64 → Fin 64 → EReal) (bm1 : Fin 64 → EReal) (wm2 : Fin 64 → Fin 64 → EReal) (bm2 : Fin 64 → EReal)
    (bid : Fin 80000 → BitVec 32) : SG.Idx → EReal :=
  let layer (l : Fin 3) (h : SN.Idx → EReal) : SN.Idx → EReal :=
    ginArr (w1 l) (b1 l) (sc l) (sh l) (w2 l) (b2 l) h (agg h)
  pool (mlpArr wm1 bm1 wm2 bm2 (layer 2 (layer 1 (layer 0 x)))) bid

/-- A 64×64 matrix as a function of (row, column). -/
def mat (w : (⟨2, ![64, 64]⟩ : Shape).Idx → EReal) : Fin 64 → Fin 64 → EReal := fun k j => w (ix2 k j)
/-- A [1, 64] row as a function of its column. -/
def row (b : (⟨2, ![1, 64]⟩ : Shape).Idx → EReal) : Fin 64 → EReal := fun k => b (ix2 0 k)
/-- The graph ids off an [80000, 1] column. -/
def col (b : (⟨2, ![80000, 1]⟩ : Shape).Idx → BitVec 32) : Fin 80000 → BitVec 32 := fun r => b (ix2 r 0)

theorem ginArr_ix2 (w1 : Fin 64 → Fin 64 → EReal) (b1 sc sh : Fin 64 → EReal) (w2 : Fin 64 → Fin 64 → EReal) (b2 : Fin 64 → EReal)
    (h a : SN.Idx → EReal) (r : Fin 80000) (j : Fin 64) :
    ginArr w1 b1 sc sh w2 b2 h a (ix2 r j) = ginRow (fun k => h (ix2 r k)) (fun k => a (ix2 r k)) w1 b1 sc sh w2 b2 j := rfl

theorem mlpArr_ix2 (w1 : Fin 64 → Fin 64 → EReal) (b1 : Fin 64 → EReal) (w2 : Fin 64 → Fin 64 → EReal) (b2 : Fin 64 → EReal)
    (h : SN.Idx → EReal) (r : Fin 80000) (j : Fin 64) :
    mlpArr w1 b1 w2 b2 h (ix2 r j) = mlpRow (fun k => h (ix2 r k)) w1 b1 w2 b2 j := rfl

theorem pool_ix2 (h : SN.Idx → EReal) (bid : Fin 80000 → BitVec 32) (g : Fin 128) (j : Fin 64) :
    pool h bid (ix2 g j) = ∑ r : Fin 80000, if bid r = BitVec.ofNat 32 g.val then h (ix2 r j) else 0 := rfl

/-! ## The batch-norm step, folded or not -/

/-- The variance guard `ε`: the word both programs carry, a positive real. -/
def eps : EReal := Ideal.ofBits .f32 0x3727C5AC#32

/-- `ε` is a positive real number. -/
theorem eps_real : ∃ e : ℝ, 0 < e ∧ eps = (e : EReal) := by
  -- sign 0, exponent field 110, fraction field 2606508: the normal number (2^23 + 2606508) · 2^(110 - 127 - 23)
  refine ⟨(10995116 : ℝ) * (2 : ℝ) ^ (-40 : ℤ), by positivity, ?_⟩
  simp [eps, Ideal.ofBits, Ideal.ieee, -EReal.coe_mul]

/-- With a real numerator and a real non-negative variance the scale `γ / √(v + ε)` is a real number. -/
theorem scale_real (g v : ℝ) (hv : 0 ≤ v) : ∃ s : ℝ, Ideal.div (g : EReal) (Ideal.sqrt ((v : EReal) + eps)) = (s : EReal) := by
  obtain ⟨e, he, hE⟩ := eps_real
  have hpos : 0 < v + e := by linarith
  have hs : 0 < Real.sqrt (v + e) := Real.sqrt_pos.2 hpos
  refine ⟨g * (1 / Real.sqrt (v + e)), ?_⟩
  rw [hE, ← EReal.coe_add, Ideal.sqrt_coe, if_neg (not_lt.2 hpos.le), Ideal.div_coe hs.ne', ← EReal.coe_mul]

/-- Subtracting the mean before the scale or folding it into the shift is one map of `z`, for EVERY extended real
    `z`, when the mean, the shift and the scale are real: on a real `z` it is distributivity in ℝ, and an infinite
    `z` is sent to the same infinity (or to `β`, when the scale is zero) by both. -/
theorem affine_fold (z : EReal) (mu be s : ℝ) :
    (z - (mu : EReal)) * (s : EReal) + (be : EReal) = z * (s : EReal) + ((be : EReal) - (mu : EReal) * (s : EReal)) := by
  have hR : (be : EReal) - (mu : EReal) * (s : EReal) = ((be - mu * s : ℝ) : EReal) := by
    rw [← EReal.coe_mul, ← EReal.coe_sub]
  rw [hR]
  induction z using EReal.rec with
  | bot =>
    rw [EReal.bot_sub]
    rcases lt_trichotomy s 0 with hs | hs | hs
    · rw [EReal.bot_mul_coe_of_neg hs, EReal.top_add_coe, EReal.top_add_coe]
    · subst hs
      rw [EReal.coe_zero, mul_zero, zero_add, zero_add, mul_zero, sub_zero]
    · rw [EReal.bot_mul_coe_of_pos hs, EReal.bot_add, EReal.bot_add]
  | coe x =>
    rw [← EReal.coe_sub, ← EReal.coe_mul, ← EReal.coe_add, ← EReal.coe_mul, ← EReal.coe_add, EReal.coe_eq_coe_iff]
    ring
  | top =>
    rw [EReal.top_sub_coe]
    rcases lt_trichotomy s 0 with hs | hs | hs
    · rw [EReal.top_mul_coe_of_neg hs, EReal.bot_add, EReal.bot_add]
    · subst hs
      rw [EReal.coe_zero, mul_zero, zero_add, zero_add, mul_zero, sub_zero]
    · rw [EReal.top_mul_coe_of_pos hs, EReal.top_add_coe, EReal.top_add_coe]

/-- The batch-norm parameters of the three layers (scale numerator `γ`, shift `β`, running mean `μ`, running variance
    `v`, each [3, 64]) are real numbers and no variance is negative. -/
def BNReal (ga be mu va : (⟨2, ![3, 64]⟩ : Shape).Idx → EReal) : Prop :=
  ∀ i, ∃ g b u v : ℝ, ga i = (g : EReal) ∧ be i = (b : EReal) ∧ mu i = (u : EReal) ∧ va i = (v : EReal) ∧ 0 ≤ v

/-- The folded scale of layer `l`, feature `k`: `γ / √(v + ε)`. -/
def scaleAt (ga va : (⟨2, ![3, 64]⟩ : Shape).Idx → EReal) (l : Fin 3) (k : Fin 64) : EReal :=
  Ideal.div (ga (ix2 l k)) (Ideal.sqrt (va (ix2 l k) + eps))
/-- The folded shift of layer `l`, feature `k`: `β - μ * scale`. -/
def shiftAt (ga be mu va : (⟨2, ![3, 64]⟩ : Shape).Idx → EReal) (l : Fin 3) (k : Fin 64) : EReal :=
  be (ix2 l k) - mu (ix2 l k) * scaleAt ga va l k

/-- Under `BNReal` the unfolded batch-norm step is the folded one, for every extended real `z`. -/
theorem bn_fold {ga be mu va : (⟨2, ![3, 64]⟩ : Shape).Idx → EReal} (h : BNReal ga be mu va) (l : Fin 3) (k : Fin 64) (z : EReal) :
    (z - mu (ix2 l k)) * scaleAt ga va l k + be (ix2 l k) = z * scaleAt ga va l k + shiftAt ga be mu va l k := by
  obtain ⟨g, b, u, v, hg, hb, hu, hva, hv⟩ := h (ix2 l k)
  obtain ⟨s, hs⟩ := scale_real g v hv
  have hsc : scaleAt ga va l k = (s : EReal) := by rw [scaleAt, hg, hva, hs]
  rw [shiftAt, hsc, hb, hu]
  exact affine_fold z u b s

end Cert.Spec

end
-- ==== Proof.KSkip.lean ====
import proofs.«427193_j25417616458217_1_alg».proof.Proof.Gen.KernelIdeal.Launch

/-! # A buffer steps unchanged through a stretch of host operations that does not write it

Each host operation rewrites exactly one buffer, its result, and leaves every other buffer as it was.
So the contents after a whole stretch, read at a buffer that is the result of none of its operations,
are the contents before it.  The tactic below proves this for a concrete buffer and any of the eight
stretches of the program: it lists the stretch's result buffers, one singleton per operation, and tells
the given buffer apart from each of them as a reference (which reference is which is decidable). -/

noncomputable section

namespace Cert.KernelIdeal.Host

open Cert.KernelIdeal Cert.KernelIdeal.Gen
open Idealize.ShloMosaic Idealize.ShloMosaic.TcCoe

/-- Closes `StableHlo.after ops W (Proc.devRef .tc b) = W (Proc.devRef .tc b)` for `ops` one of the eight
    stretches and `b` a concrete buffer that is the result of none of the stretch's operations. -/
macro "stretch_skip" : tactic =>
  `(tactic|
    (refine Idealize.ShloMosaic.StableHlo.after_of_forall_not_mem _ _ (List.forall_iff_forall_mem.mp ?_)
     simp only [Cert.KernelIdeal.Gen.hostOps0, Cert.KernelIdeal.Gen.hostOps0_1, Cert.KernelIdeal.Gen.hostOps0_2,
       Cert.KernelIdeal.Gen.hostOps1, Cert.KernelIdeal.Gen.hostOps1_1, Cert.KernelIdeal.Gen.hostOps2,
       Cert.KernelIdeal.Gen.hostOps2_1, Cert.KernelIdeal.Gen.hostOps3,
       List.flatten_cons, List.flatten_nil, List.append_nil, List.cons_append, List.nil_append, List.Forall,
       Idealize.ShloMosaic.StableHlo.nullary_writes, Idealize.ShloMosaic.StableHlo.unary_writes,
       Idealize.ShloMosaic.StableHlo.binary_writes, Idealize.ShloMosaic.StableHlo.ternary_writes,
       Idealize.ShloMosaic.StableHlo.quaternary_writes, Idealize.ShloMosaic.StableHlo.reshape_writes,
       Idealize.ShloMosaic.StableHlo.binaryIndexed_writes, Finset.mem_singleton]
     repeat' apply And.intro
     all_goals exact Idealize.ShloMosaic.StableHlo.devRef_ne_of_ne (by decide)))

section Tests

variable {F : FTy → Type} [FloatOps F] (W : Valuation τ sig (Elt F))

-- an edge-source buffer made before the first gather, through the second layer's gather stretch
example : StableHlo.after (hostOps1 (F := F)) W (Proc.devRef .tc main_v1) = W (Proc.devRef .tc main_v1) := by
  stretch_skip

-- the graph-id column, through the first layer's scatter-and-slice stretch
example : StableHlo.after (hostOps0_2 (F := F)) W (Proc.devRef .tc main_v4) = W (Proc.devRef .tc main_v4) := by
  stretch_skip

-- a perceptron weight argument, through the third layer's scatter-and-slice stretch
example : StableHlo.after (hostOps2_1 (F := F)) W (Proc.devRef .tc main_arg11) = W (Proc.devRef .tc main_arg11) := by
  stretch_skip

end Tests

end Cert.KernelIdeal.Host

end
-- ==== Proof.KFold.lean ====
/-
  The buffer contents at the boundaries of the kernel program's run form a fold through its host stretches and
  regions. A buffer that a stretch does not write, and that is no array of a region's windows, holds after the step
  what it held before; so each array a later step reads is stepped back here to the boundary where it was made
  (the index and batch-norm arrays: after the first stretch; an argument: the launch memory; a region's result:
  that region's exit).
-/
import proofs.«427193_j25417616458217_1_alg».proof.Proof.Gen.KernelIdeal.Frame
import proofs.«427193_j25417616458217_1_alg».proof.Proof.KSkip
import Idealize.ShloMosaic.PureOps.Ideal

set_option maxRecDepth 16384
set_option Elab.async false

noncomputable section

namespace Cert.KernelIdeal.Fold

open Cert.KernelIdeal Cert.KernelIdeal.Gen Cert.KernelIdeal.Host
open Idealize.ShloMosaic Idealize.ShloMosaic.TcCoe Idealize.SL.Sem

variable (m : (ℓ : Loc nD τ sig) → Buf (Elt Ideal) ℓ) (ρ : Dev nD → PrngReg) (c : Dev nD)

/-- One boundary back across a region: the buffer is none of that region's windows' arrays. -/
macro "r13" : tactic => `(tactic| refine (Cert.KernelIdeal.Gen.W13_of_ne _ _ _ _ (by decide)).trans ?_)
macro "r12" : tactic => `(tactic| refine (Cert.KernelIdeal.Gen.W12_of_ne _ _ _ _ (by decide)).trans ?_)
macro "r10" : tactic => `(tactic| refine (Cert.KernelIdeal.Gen.W10_of_ne _ _ _ _ (by decide)).trans ?_)
macro "r7" : tactic => `(tactic| refine (Cert.KernelIdeal.Gen.W7_of_ne _ _ _ _ (by decide)).trans ?_)
macro "r4" : tactic => `(tactic| refine (Cert.KernelIdeal.Gen.W4_of_ne _ _ _ _ (by decide)).trans ?_)
/-- One boundary back across a host stretch: no operation of it writes the buffer. -/
macro "sk" : tactic => `(tactic| refine Eq.trans (by stretch_skip) ?_)

theorem v1_4 : W4 (F := Ideal) m ρ c (Proc.devRef .tc main_v1) = W1 (F := Ideal) m ρ c (Proc.devRef .tc main_v1) := by r4; sk; sk; rfl
theorem v1_7 : W7 (F := Ideal) m ρ c (Proc.devRef .tc main_v1) = W1 (F := Ideal) m ρ c (Proc.devRef .tc main_v1) := by r7; sk; sk; r4; sk; sk; rfl
theorem v3_2 : W2 (F := Ideal) m ρ c (Proc.devRef .tc main_v3) = W1 (F := Ideal) m ρ c (Proc.devRef .tc main_v3) := by sk; rfl
theorem v3_5 : W5 (F := Ideal) m ρ c (Proc.devRef .tc main_v3) = W1 (F := Ideal) m ρ c (Proc.devRef .tc main_v3) := by sk; r4; sk; sk; rfl
theorem v3_8 : W8 (F := Ideal) m ρ c (Proc.devRef .tc main_v3) = W1 (F := Ideal) m ρ c (Proc.devRef .tc main_v3) := by sk; r7; sk; sk; r4; sk; sk; rfl
theorem v4_12 : W12 (F := Ideal) m ρ c (Proc.devRef .tc main_v4) = W1 (F := Ideal) m ρ c (Proc.devRef .tc main_v4) := by r12; sk; r10; sk; sk; r7; sk; sk; r4; sk; sk; rfl
theorem v8_2 : W2 (F := Ideal) m ρ c (Proc.devRef .tc main_v8) = W1 (F := Ideal) m ρ c (Proc.devRef .tc main_v8) := by sk; rfl
theorem v8_5 : W5 (F := Ideal) m ρ c (Proc.devRef .tc main_v8) = W1 (F := Ideal) m ρ c (Proc.devRef .tc main_v8) := by sk; r4; sk; sk; rfl
theorem v8_8 : W8 (F := Ideal) m ρ c (Proc.devRef .tc main_v8) = W1 (F := Ideal) m ρ c (Proc.devRef .tc main_v8) := by sk; r7; sk; sk; r4; sk; sk; rfl
theorem v10_2 : W2 (F := Ideal) m ρ c (Proc.devRef .tc main_v10) = W1 (F := Ideal) m ρ c (Proc.devRef .tc main_v10) := by sk; rfl
theorem v10_5 : W5 (F := Ideal) m ρ c (Proc.devRef .tc main_v10) = W1 (F := Ideal) m ρ c (Proc.devRef .tc main_v10) := by sk; r4; sk; sk; rfl
theorem v10_8 : W8 (F := Ideal) m ρ c (Proc.devRef .tc main_v10) = W1 (F := Ideal) m ρ c (Proc.devRef .tc main_v10) := by sk; r7; sk; sk; r4; sk; sk; rfl
theorem a0_1 : W1 (F := Ideal) m ρ c (Proc.devRef .tc main_arg0) = m ((c : Thread nD τ).loc main_arg0) := by sk; rfl
theorem a0_3 : W3 (F := Ideal) m ρ c (Proc.devRef .tc main_arg0) = m ((c : Thread nD τ).loc main_arg0) := by sk; sk; sk; rfl
theorem a3_2 : W2 (F := Ideal) m ρ c (Proc.devRef .tc main_arg3) = m ((c : Thread nD τ).loc main_arg3) := by sk; sk; rfl
theorem a3_5 : W5 (F := Ideal) m ρ c (Proc.devRef .tc main_arg3) = m ((c : Thread nD τ).loc main_arg3) := by sk; r4; sk; sk; sk; rfl
theorem a3_8 : W8 (F := Ideal) m ρ c (Proc.devRef .tc main_arg3) = m ((c : Thread nD τ).loc main_arg3) := by sk; r7; sk; sk; r4; sk; sk; sk; rfl
theorem a4_2 : W2 (F := Ideal) m ρ c (Proc.devRef .tc main_arg4) = m ((c : Thread nD τ).loc main_arg4) := by sk; sk; rfl
theorem a4_5 : W5 (F := Ideal) m ρ c (Proc.devRef .tc main_arg4) = m ((c : Thread nD τ).loc main_arg4) := by sk; r4; sk; sk; sk; rfl
theorem a4_8 : W8 (F := Ideal) m ρ c (Proc.devRef .tc main_arg4) = m ((c : Thread nD τ).loc main_arg4) := by sk; r7; sk; sk; r4; sk; sk; sk; rfl
theorem a9_2 : W2 (F := Ideal) m ρ c (Proc.devRef .tc main_arg9) = m ((c : Thread nD τ).loc main_arg9) := by sk; sk; rfl
theorem a9_5 : W5 (F := Ideal) m ρ c (Proc.devRef .tc main_arg9) = m ((c : Thread nD τ).loc main_arg9) := by sk; r4; sk; sk; sk; rfl
theorem a9_8 : W8 (F := Ideal) m ρ c (Proc.devRef .tc main_arg9) = m ((c : Thread nD τ).loc main_arg9) := by sk; r7; sk; sk; r4; sk; sk; sk; rfl
theorem a10_2 : W2 (F := Ideal) m ρ c (Proc.devRef .tc main_arg10) = m ((c : Thread nD τ).loc main_arg10) := by sk; sk; rfl
theorem a10_5 : W5 (F := Ideal) m ρ c (Proc.devRef .tc main_arg10) = m ((c : Thread nD τ).loc main_arg10) := by sk; r4; sk; sk; sk; rfl
theorem a10_8 : W8 (F := Ideal) m ρ c (Proc.devRef .tc main_arg10) = m ((c : Thread nD τ).loc main_arg10) := by sk; r7; sk; sk; r4; sk; sk; sk; rfl
theorem a12_10 : W10 (F := Ideal) m ρ c (Proc.devRef .tc main_arg12) = m ((c : Thread nD τ).loc main_arg12) := by r10; sk; sk; r7; sk; sk; r4; sk; sk; sk; rfl
theorem a14_10 : W10 (F := Ideal) m ρ c (Proc.devRef .tc main_arg14) = m ((c : Thread nD τ).loc main_arg14) := by r10; sk; sk; r7; sk; sk; r4; sk; sk; sk; rfl
theorem a11_11 : W11 (F := Ideal) m ρ c (Proc.devRef .tc main_arg11) = m ((c : Thread nD τ).loc main_arg11) := by sk; r10; sk; sk; r7; sk; sk; r4; sk; sk; sk; rfl
theorem a13_11 : W11 (F := Ideal) m ρ c (Proc.devRef .tc main_arg13) = m ((c : Thread nD τ).loc main_arg13) := by sk; r10; sk; sk; r7; sk; sk; r4; sk; sk; sk; rfl
theorem v31_6 : W6 (F := Ideal) m ρ c (Proc.devRef .tc main_v31) = W4 (F := Ideal) m ρ c (Proc.devRef .tc main_v31) := by sk; sk; rfl
theorem v52_9 : W9 (F := Ideal) m ρ c (Proc.devRef .tc main_v52) = W7 (F := Ideal) m ρ c (Proc.devRef .tc main_v52) := by sk; sk; rfl
theorem v73_11 : W11 (F := Ideal) m ρ c (Proc.devRef .tc main_v73) = W10 (F := Ideal) m ρ c (Proc.devRef .tc main_v73) := by sk; rfl

end Cert.KernelIdeal.Fold

end
-- ==== Proof.KHost0.lean ====
import proofs.«427193_j25417616458217_1_alg».proof.Proof.Gen.KernelIdeal.Launch
import proofs.«427193_j25417616458217_1_alg».proof.Proof.Spec
import Idealize.ShloMosaic.Lib.StableHlo.Run
import Idealize.ShloMosaic.Lib.Pipeline.Value
import Idealize.ShloMosaic.Lib.ValueLayout

/-! # The first host stretch: the edge lists, the graph-id column and the folded batch-norm parameters

Before any kernel runs, host operations prepare, from the program's arguments:

* the edges' SOURCES and TARGETS: row 0 and row 1 of the [2, 1280000] edge array, each cut out as a [1, 1280000] slice
  and flattened, so entry e of the result is entry (0, e), respectively (1, e), of the edge array;
* the GRAPH IDS as a column: the [80000] id vector written as [80000, 1]; a reshape keeps the row-major position of
  every entry, and position r of the vector is position (r, 0) of the column;
* the folded batch-norm SCALE of all three layers at once, γ / √(v + ε) entry by entry on the [3, 64] stacks, with ε
  the one word broadcast to every entry; and the folded SHIFT β - μ · scale.

Each result below is the contents of one buffer after the stretch, as a function of the contents before it, whatever
those are. -/

noncomputable section

namespace Cert.KernelIdeal.Host

open Cert.KernelIdeal Cert.KernelIdeal.Gen
open Idealize.ShloMosaic Idealize.ShloMosaic.TcCoe Idealize.ShloMosaic.ValueIdx

section Shared

/-- Row `p` of a [2, n] array, cut out as a [1, n] slice from offset `o = p` and flattened to [n]: entry e is entry
    (p, e) of the array. -/
theorem edge_row {α : Type} {n : Nat} (o : Nat) (x : (⟨2, ![2, n]⟩ : Shape).Idx → α)
    (h1 : (⟨2, ![2, n]⟩ : Shape).Slices ![o, 0] ⟨2, ![1, n]⟩) (h2 : (⟨2, ![1, n]⟩ : Shape).ShapeCasts ⟨1, ![n]⟩)
    (p : Fin 2) (hp : p.val = o) (e : Fin n) :
    shapeCast ⟨1, ![n]⟩ (extractStridedSlice ⟨2, ![1, n]⟩ ![o, 0] x h1) h2 (ix1 e) = x (ix2 p e) := by
  rw [shapeCast_1a_a_apply]
  exact slice2_axis0_apply o x h1 0 e p (by rw [hp]; rfl)

/-- An [a] vector written as an [a, 1] column reads, at (i, u), the vector at i: the row-major position of (i, u) in
    [a, 1] is i · 1 + u = i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The id column of a vector written as a column is the vector. -/
theorem col_of_vec (x : (⟨1, ![80000]⟩ : Shape).Idx → BitVec 32)
    (h : (⟨1, ![80000]⟩ : Shape).ShapeCasts ⟨2, ![80000, 1]⟩) :
    Cert.Spec.col (shapeCast ⟨2, ![80000, 1]⟩ x h) = fun r => x (ix1 r) := by
  funext r
  show shapeCast ⟨2, ![80000, 1]⟩ x h (ix2 r 0) = x (ix1 r)
  exact shapeCast_a_a1_apply x h r 0

/-- The folded scale at one entry: the quotient of γ by the root of v plus the broadcast ε, read at (l, k), is
    γ(l, k) / √(v(l, k) + ε). -/
theorem scale_point (ga va : Vec Ideal S3x64 .f32) (h : S_.BroadcastsInDim S3x64 (![] : Fin 0 → Fin S3x64.rank))
    (l : Fin 3) (k : Fin 64) :
    Host.divf ga (Host.sqrt (addf va (broadcastInDim S3x64 ![] h (constant (F := Ideal) S_ .f32 0x3727C5AC#32))))
      (ix2 l k) = Cert.Spec.scaleAt ga va l k := by
  have hb : broadcastInDim S3x64 ![] h (constant (F := Ideal) S_ .f32 0x3727C5AC#32) (ix2 l k) = Cert.Spec.eps :=
    broadcastInDim_apply _ h _ (ix2 l k) ix0 (fun a => a.elim0)
  show Ideal.div (ga (ix2 l k))
    (Ideal.sqrt (va (ix2 l k) + broadcastInDim S3x64 ![] h (constant (F := Ideal) S_ .f32 0x3727C5AC#32) (ix2 l k))) = _
  rw [hb]
  rfl

/-- The folded shift at one entry: β(l, k) - μ(l, k) · scale(l, k). -/
theorem shift_point (ga be mu va : Vec Ideal S3x64 .f32) (h : S_.BroadcastsInDim S3x64 (![] : Fin 0 → Fin S3x64.rank))
    (l : Fin 3) (k : Fin 64) :
    subf be (mulf mu
      (Host.divf ga (Host.sqrt (addf va (broadcastInDim S3x64 ![] h (constant (F := Ideal) S_ .f32 0x3727C5AC#32))))))
      (ix2 l k) = Cert.Spec.shiftAt ga be mu va l k := by
  show be (ix2 l k) - mu (ix2 l k) *
    (Host.divf ga (Host.sqrt (addf va (broadcastInDim S3x64 ![] h (constant (F := Ideal) S_ .f32 0x3727C5AC#32))))
      (ix2 l k)) = _
  rw [scale_point]
  rfl

end Shared

section Stretch

variable (W : Valuation τ sig (Elt Ideal))

/-- The edges' sources: row 0 of the edge array. -/
theorem src0 (e : Fin 1280000) :
    (StableHlo.after (hostOps0 (F := Ideal)) W (Proc.devRef .tc main_v1) : IVec S1280000 32) (ix1 e)
      = (W (Proc.devRef .tc main_arg1) : IVec S2x1280000 32) (ix2 0 e) := by
  after_results
  exact edge_row 0 _ _ _ (0 : Fin 2) rfl e

/-- The edges' targets: row 1 of the edge array. -/
theorem dst0 (e : Fin 1280000) :
    (StableHlo.after (hostOps0 (F := Ideal)) W (Proc.devRef .tc main_v3) : IVec S1280000 32) (ix1 e)
      = (W (Proc.devRef .tc main_arg1) : IVec S2x1280000 32) (ix2 1 e) := by
  after_results
  exact edge_row 1 _ _ _ (1 : Fin 2) rfl e

/-- The graph ids off the column the stretch writes are the id vector's entries. -/
theorem bid0 :
    Cert.Spec.col (StableHlo.after (hostOps0 (F := Ideal)) W (Proc.devRef .tc main_v4) : IVec S80000x1 32)
      = fun r => (W (Proc.devRef .tc main_arg2) : IVec S80000 32) (ix1 r) := by
  after_results
  exact col_of_vec _ _

/-- The folded scales of the three layers. -/
theorem scale0 (l : Fin 3) (k : Fin 64) :
    (StableHlo.after (hostOps0 (F := Ideal)) W (Proc.devRef .tc main_v8) : Vec Ideal S3x64 .f32) (ix2 l k)
      = Cert.Spec.scaleAt (W (Proc.devRef .tc main_arg5)) (W (Proc.devRef .tc main_arg8)) l k := by
  after_results
  exact scale_point _ _ _ l k

/-- The folded shifts of the three layers. -/
theorem shift0 (l : Fin 3) (k : Fin 64) :
    (StableHlo.after (hostOps0 (F := Ideal)) W (Proc.devRef .tc main_v10) : Vec Ideal S3x64 .f32) (ix2 l k)
      = Cert.Spec.shiftAt (W (Proc.devRef .tc main_arg5)) (W (Proc.devRef .tc main_arg6))
          (W (Proc.devRef .tc main_arg7)) (W (Proc.devRef .tc main_arg8)) l k := by
  after_results
  exact shift_point _ _ _ _ _ l k

end Stretch

end Cert.KernelIdeal.Host

end
-- ==== Proof.KTake0.lean ====
/-
  The gather of feature rows along the edges' sources, as the host computes it before a layer.

  The host is handed a feature array `h` (80000 rows of 64) and the edges' sources `src` (1280000 words). It wraps a
  negative source by adding the number of rows, lays the wrapped sources out as a column, gathers the row each one
  names, and at the end keeps a gathered row only where the wrapped source passes the range test `0 ≤ i ≤ 79999`
  (elsewhere the row is filled with a not-a-number word). The range test is two signed comparisons joined by `and`,
  then reduced by `and` over the column's one entry per row, then laid along the 64 features.

  When every source already lies in [0, 80000) none is negative, so the wrap keeps it; it passes both comparisons, so
  the mask is 1 at every row; so the last select returns the gathered rows everywhere and the fill word is never seen.
  The result is then exactly the gather `gatherK h src`, whose wrap is kept as the program writes it.
-/
import proofs.«427193_j25417616458217_1_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Reduce

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL.Sem

/-- The rows of `h` named by the sources `src`, a negative source wrapped by the number of rows first: row `e` of the
    result is row `src e` of `h` (row `src e + 80000` when `src e` is negative). -/
def gatherK (h : Vec Ideal S80000x64 .f32) (src : IVec S1280000 32) : Vec Ideal S1280000x64 .f32 :=
  Host.gather gather_S80000x64_S1280000x1_S1280000x64_1_0_n_n_0_1_164 h
    (broadcastInDim S1280000x1 ![0] bcast_S1280000_S1280000x1_0
      (select (cmpi .slt src (broadcastInDim S1280000 ![] bcast_S_S1280000 (constantI S_ 32 0#32)))
        (addi src (broadcastInDim S1280000 ![] bcast_S_S1280000 (constantI S_ 32 80000#32))) src))

/-! ## One word in range -/

/-- A word whose signed value lies in [0, 80000) is not below zero, is at least zero and is at most 79999. -/
theorem inrange_bits (x : BitVec 32) (h0 : 0 ≤ x.toInt) (h1 : x.toInt < 80000) :
    IntOp.cmpi .slt x 0#32 = 0#1 ∧ IntOp.cmpi .sge x 0#32 = 1#1 ∧ IntOp.cmpi .sle x 79999#32 = 1#1 := by
  have e0 : (0#32 : BitVec 32).toInt = 0 := by decide
  have e1 : (79999#32 : BitVec 32).toInt = 79999 := by decide
  refine ⟨?_, ?_, ?_⟩
  · show BitVec.ofBool (x.slt 0#32) = 0#1
    rw [BitVec.slt, e0, decide_eq_false (by omega)]; rfl
  · show BitVec.ofBool ((0#32 : BitVec 32).sle x) = 1#1
    rw [BitVec.sle, e0, decide_eq_true (by omega)]; rfl
  · show BitVec.ofBool (x.sle 79999#32) = 1#1
    rw [BitVec.sle, e1, decide_eq_true (by omega)]; rfl

/-! ## Arrays of one-bit words that are 1 everywhere -/

/-- A left fold by `and` over one-bit words that are all 1 returns what it started from. -/
theorem foldl_andi_ones {ι : Type} (f : ι → BitVec 1) (hf : ∀ n, f n = 1#1) :
    ∀ (l : List ι) (r : BitVec 1), l.foldl (fun r n => IntOp.andi r (f n)) r = r
  | [], r => rfl
  | a :: l, r => by
    rw [List.foldl_cons, hf a, foldl_andi_ones f hf l]
    rcases BitVec.eq_zero_or_eq_one r with rfl | rfl <;> rfl

/-- A reduction by `and`, from 1, of an array of one-bit words that are all 1 is 1 everywhere: whatever entries reduce
    into a result entry, each leaves the running value as it was. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, foldl_andi_ones x hx, hi]

/-- A broadcast of an array of one-bit words that are all 1 is 1 everywhere: every entry of it is some entry of the
    operand. -/
theorem bcast_ones {s t : Shape} (dims : Fin s.rank → Fin t.rank) (h : s.BroadcastsInDim t dims) (x : s.Idx → BitVec 1)
    (hx : ∀ k, x k = 1#1) (j : t.Idx) : broadcastInDim t dims h x j = 1#1 := by
  unfold broadcastInDim; exact hx _

/-- A select whose condition is 1 everywhere is its first branch. -/
theorem select_ones {α : Type} {s : Shape} (c : IVec s 1) (a b : s.Idx → α) (hc : ∀ i, c i = 1#1) : select c a b = a := by
  funext i; rw [select_apply, hc i, select_one]

/-! ## The wrap and the range mask at one entry -/

/-- The range mask at one entry: an index whose signed value lies in [0, 80000) passes both comparisons, against an
    array that is 0 there and an array that is 79999 there. -/
theorem mask_elem {s : Shape} (idx z n : IVec s 32) (k : s.Idx) (hz : z k = 0#32) (hn : n k = 79999#32)
    (h0 : 0 ≤ (idx k).toInt) (h1 : (idx k).toInt < 80000) : andi (cmpi .sge idx z) (cmpi .sle idx n) k = 1#1 := by
  show IntOp.andi (IntOp.cmpi .sge (idx k) (z k)) (IntOp.cmpi .sle (idx k) (n k)) = 1#1
  obtain ⟨-, h2, h3⟩ := inrange_bits _ h0 h1
  rw [hz, hn, h2, h3]; rfl

/-- The wrap at one entry: a source that is not negative is kept, whatever would have been added to it. -/
theorem wrap_elem {s : Shape} (src z n : IVec s 32) (e : s.Idx) (hz : z e = 0#32) (h0 : 0 ≤ (src e).toInt)
    (h1 : (src e).toInt < 80000) : select (cmpi .slt src z) (addi src n) src e = src e := by
  rw [select_apply]
  show Scalar.select (IntOp.cmpi .slt (src e) (z e)) _ _ = _
  rw [hz, (inrange_bits _ h0 h1).1, select_zero]

/-- The column of wrapped sources read at a row: the column's row `i` is the wrapped vector's entry `i`, and under the
    range hypothesis that is the source itself. -/
theorem wrap_apply (src : IVec S1280000 32)
    (hin : ∀ e : Fin 1280000, 0 ≤ (src (ix1 e)).toInt ∧ (src (ix1 e)).toInt < 80000) (i : S1280000x1.Idx) :
    broadcastInDim S1280000x1 ![0] bcast_S1280000_S1280000x1_0
      (select (cmpi .slt src (broadcastInDim S1280000 ![] bcast_S_S1280000 (constantI S_ 32 0#32)))
        (addi src (broadcastInDim S1280000 ![] bcast_S_S1280000 (constantI S_ 32 80000#32))) src) i
      = src (ix1 (i 0)) := by
  rw [broadcastInDim_apply _ bcast_S1280000_S1280000x1_0 _ i (ix1 (i 0)) (fun a => match a with
    | ⟨0, _⟩ => by show (i 0).val = if (1280000 : Nat) = 1 then 0 else (i 0).val; rw [if_neg (by decide)])]
  exact wrap_elem src _ _ (ix1 (i 0)) rfl (hin (i 0)).1 (hin (i 0)).2

/-! ## The masked gather is the gather -/

/-- With every source in [0, 80000) the range mask is 1 at every row (each row's wrapped source is the source, which
    passes both comparisons; the `and` over the row's one entry, from 1, is then 1; laid along the features it is 1 at
    every entry), so the select over it returns the gathered rows. -/
theorem take_pure (h : Vec Ideal S80000x64 .f32) (src : IVec S1280000 32)
    (hin : ∀ e : Fin 1280000, 0 ≤ (src (ix1 e)).toInt ∧ (src (ix1 e)).toInt < 80000) :
    select (broadcastInDim S1280000x64 ![0] bcast_S1280000_S1280000x64_0
        (Host.reduce IntOp.andi
          (andi
            (cmpi .sge
              (broadcastInDim S1280000x1 ![0] bcast_S1280000_S1280000x1_0
                (select (cmpi .slt src (broadcastInDim S1280000 ![] bcast_S_S1280000 (constantI S_ 32 0#32)))
                  (addi src (broadcastInDim S1280000 ![] bcast_S_S1280000 (constantI S_ 32 80000#32))) src))
              (broadcastInDim S1280000x1 ![] bcast_S_S1280000x1 (constantI S_ 32 0#32)))
            (cmpi .sle
              (broadcastInDim S1280000x1 ![0] bcast_S1280000_S1280000x1_0
                (select (cmpi .slt src (broadcastInDim S1280000 ![] bcast_S_S1280000 (constantI S_ 32 0#32)))
                  (addi src (broadcastInDim S1280000 ![] bcast_S_S1280000 (constantI S_ 32 80000#32))) src))
              (broadcastInDim S1280000x1 ![0, 1] bcast_S1x1_S1280000x1_0_1
                (broadcastInDim S1x1 ![1] bcast_S1_S1x1_1 (constantI S1 32 79999#32)))))
          (constantI S_ 1 1#1) reducesTo_S1280000x1_S1280000_d1 h_S_))
      (gatherK h src)
      (broadcastInDim S1280000x64 ![] bcast_S_S1280000x64 (constant (F := Ideal) S_ .f32 0x7FC00000#32))
    = gatherK h src := by
  refine select_ones _ _ _ fun i => bcast_ones _ _ _ (fun e => reduce_andi_ones _ _ _ _ (fun k => ?_) (fun _ => rfl) e) i
  refine mask_elem _ _ _ k rfl rfl ?_ ?_
  · rw [wrap_apply src hin k]; exact (hin (k 0)).1
  · rw [wrap_apply src hin k]; exact (hin (k 0)).2

/-! ## Values held at their own type -/

section Held

variable (W : Valuation τ sig (Elt Ideal))

/-- A value stored at its own array type and read back at that type is the value. -/
theorem ofBuf_toBuf {T : BufTy} (x : StableHlo.TRef sig T) (v : T.Contents (Elt Ideal)) : x.ofBuf (x.toBuf v) = v := by
  obtain ⟨r, rfl, _, _⟩ := x; rfl

/-- The sources, read at their array type, are what the valuation holds. -/
theorem ofBuf_v1 : ((.of main_v1 : StableHlo.TRef sig ⟨S1280000, .i32⟩)).ofBuf (W (Proc.devRef .tc main_v1))
    = (W (Proc.devRef .tc main_v1) : IVec S1280000 32) := rfl

end Held

/-! ## The stretch's result -/

section Stretch

variable (W : Valuation τ sig (Elt Ideal))

/-- The features, read at their array type, are what the valuation holds. -/
theorem ofBuf_arg0 : ((.of main_arg0 : StableHlo.TRef sig ⟨S80000x64, .f32⟩)).ofBuf (W (Proc.devRef .tc main_arg0))
    = (W (Proc.devRef .tc main_arg0) : Vec Ideal S80000x64 .f32) := rfl

/-- The gathered rows, stored at their array type, are the rows. -/
theorem toBuf_v11 (v : Vec Ideal S1280000x64 .f32) :
    ((.of main_v11 : StableHlo.TRef sig ⟨S1280000x64, .f32⟩)).toBuf v = v := rfl

set_option maxHeartbeats 1000000 in
/-- From any valuation whose sources all lie in [0, 80000), the stretch leaves in its result the gather of the
    features it was handed along those sources: each operation's value is read off in order, every intermediate is
    read back at the type it was stored at, and what remains is the masked gather of `take_pure`. -/
theorem take0
    (hin : ∀ e : Fin 1280000, 0 ≤ ((W (Proc.devRef .tc main_v1) : IVec S1280000 32) (ix1 e)).toInt
      ∧ ((W (Proc.devRef .tc main_v1) : IVec S1280000 32) (ix1 e)).toInt < 80000) :
    (StableHlo.after (hostOps0_1 (F := Ideal)) W (Proc.devRef .tc main_v11) : Vec Ideal S1280000x64 .f32)
      = gatherK (W (Proc.devRef .tc main_arg0)) (W (Proc.devRef .tc main_v1)) := by
  open StableHlo in after_results_simp
  repeat rw [ofBuf_toBuf]
  rw [ofBuf_v1 W, ofBuf_arg0 W, toBuf_v11]
  exact take_pure _ _ hin

end Stretch

end Cert.KernelIdeal.Host
-- ==== Proof.KScat0.lean ====
import proofs.«427193_j25417616458217_1_alg».proof.Proof.Gen.KernelIdeal.Launch
import proofs.«427193_j25417616458217_1_alg».proof.Proof.Spec
import Idealize.ShloMosaic.Lib.StableHlo.Run
import Idealize.ShloMosaic.Lib.Pipeline.Value
import Idealize.ShloMosaic.Lib.ValueLayout

/-! # The host stretch before GIN layer 0: the neighbour sum and the layer's parameters

Before the layer's kernel runs, host operations prepare its operands from what is already in the buffers:

* the NEIGHBOUR SUM: an all-zero [80000, 64] array into which row `e` of the gathered edge rows [1280000, 64] is
  added at the row named by the edge's target `dst e` (a scatter-add along the targets, the target vector first
  written as a column [1280000, 1]);
* the layer's PARAMETERS: block 0 of each stacked parameter array. A weight stack [3, 64, 64] is cut to [1, 64, 64]
  and its unit axis dropped, so entry (k, j) of the result is entry (0, k, j) of the stack. A bias or batch-norm
  stack [3, 64] is cut to [1, 64], flattened to [64] and written as a row [1, 64] again, so column k of the result is
  entry (0, k) of the stack.

Each result below is the contents of one buffer after the stretch, as a function of the contents before it, whatever
those are. The scatter-add is never opened: it is kept as one named function of the targets and the edge rows. -/

noncomputable section

namespace Cert.KernelIdeal.Host

open Cert.KernelIdeal Cert.KernelIdeal.Gen
open Idealize.ShloMosaic Idealize.ShloMosaic.TcCoe Idealize.ShloMosaic.ValueIdx

section Shared

/-- The neighbour sum as the host computes it: the edge rows `upd` added, row by row, into an all-zero node array at
    the rows the target vector `dst` names. -/
def scatterK (dst : IVec S1280000 32) (upd : Vec Ideal S1280000x64 .f32) : Vec Ideal S80000x64 .f32 :=
  Host.scatterAdd (F := Ideal) (φ := .f32) scatter_S80000x64_S1280000x1_S1280000x64_1_0_0_1
    (broadcastInDim S80000x64 ![] bcast_S_S80000x64 (constant (F := Ideal) S_ .f32 0x00000000#32))
    (broadcastInDim S1280000x1 ![0] bcast_S1280000_S1280000x1_0 dst) upd

/-- A rank-3 array cut along its leading axis from `o` reads, at `(j, a, e)`, the source at `(k, a, e)` with
    `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Block `l` of a stack of three 64×64 matrices, cut out as a [1, 64, 64] slice from offset `o = l` and its unit axis
    dropped: entry (k, j) is entry (l, k, j) of the stack. -/
theorem mat_block (o : Nat) (x : (⟨3, ![3, 64, 64]⟩ : Shape).Idx → EReal)
    (h1 : (⟨3, ![3, 64, 64]⟩ : Shape).Slices ![o, 0, 0] ⟨3, ![1, 64, 64]⟩)
    (h2 : (⟨3, ![1, 64, 64]⟩ : Shape).ShapeCasts ⟨2, ![64, 64]⟩) (l : Fin 3) (hl : l.val = o) :
    Cert.Spec.mat (shapeCast ⟨2, ![64, 64]⟩ (extractStridedSlice ⟨3, ![1, 64, 64]⟩ ![o, 0, 0] x h1) h2)
      = fun k j => x (ix3 l k j) := by
  funext k j
  show shapeCast ⟨2, ![64, 64]⟩ (extractStridedSlice ⟨3, ![1, 64, 64]⟩ ![o, 0, 0] x h1) h2 (ix2 k j) = x (ix3 l k j)
  rw [shapeCast_1ab_ab_apply]
  exact slice3_axis0_apply o x h1 0 k j l (by rw [hl]; rfl)

/-- Row `l` of a stack of three 64-vectors, cut out as a [1, 64] slice from offset `o = l`, flattened to [64] and
    written as a [1, 64] row again: column k is entry (l, k) of the stack. -/
theorem row_block (o : Nat) (x : (⟨2, ![3, 64]⟩ : Shape).Idx → EReal)
    (h1 : (⟨2, ![3, 64]⟩ : Shape).Slices ![o, 0] ⟨2, ![1, 64]⟩)
    (h2 : (⟨2, ![1, 64]⟩ : Shape).ShapeCasts ⟨1, ![64]⟩) (h3 : (⟨1, ![64]⟩ : Shape).ShapeCasts ⟨2, ![1, 64]⟩)
    (l : Fin 3) (hl : l.val = o) :
    Cert.Spec.row (shapeCast ⟨2, ![1, 64]⟩ (shapeCast ⟨1, ![64]⟩ (extractStridedSlice ⟨2, ![1, 64]⟩ ![o, 0] x h1) h2) h3)
      = fun k => x (ix2 l k) := by
  funext k
  show shapeCast ⟨2, ![1, 64]⟩ (shapeCast ⟨1, ![64]⟩ (extractStridedSlice ⟨2, ![1, 64]⟩ ![o, 0] x h1) h2) h3 (ix2 0 k)
    = x (ix2 l k)
  rw [shapeCast_a_1a_apply, shapeCast_1a_a_apply]
  exact slice2_axis0_apply o x h1 0 k l (by rw [hl]; rfl)

end Shared

section Layer

variable (W : Valuation τ sig (Elt Ideal))

/-- The layer's neighbour sum: the scatter-add of the gathered edge rows along the edges' targets. -/
theorem agg0 :
    (StableHlo.after (hostOps0_2 (F := Ideal)) W (Proc.devRef .tc main_v14) : Vec Ideal S80000x64 .f32)
      = scatterK (W (Proc.devRef .tc main_v3)) (W (Proc.devRef .tc main_v11)) := by
  after_results
  rfl

/-- The layer's first weight matrix: its block of the stacked first weights. -/
theorem w1_0 :
    Cert.Spec.mat (StableHlo.after (hostOps0_2 (F := Ideal)) W (Proc.devRef .tc main_v16) : Vec Ideal S64x64 .f32)
      = fun k j => (W (Proc.devRef .tc main_arg3) : Vec Ideal S3x64x64 .f32) (ix3 0 k j) := by
  after_results
  exact mat_block _ _ _ _ (0 : Fin 3) rfl

/-- The layer's first bias: its row of the stacked first biases. -/
theorem b1_0 :
    Cert.Spec.row (StableHlo.after (hostOps0_2 (F := Ideal)) W (Proc.devRef .tc main_v19) : Vec Ideal S1x64 .f32)
      = fun k => (W (Proc.devRef .tc main_arg4) : Vec Ideal S3x64 .f32) (ix2 0 k) := by
  after_results
  exact row_block _ _ _ _ _ (0 : Fin 3) rfl

/-- The layer's batch-norm scale: its row of the folded scales. -/
theorem sc_0 :
    Cert.Spec.row (StableHlo.after (hostOps0_2 (F := Ideal)) W (Proc.devRef .tc main_v22) : Vec Ideal S1x64 .f32)
      = fun k => (W (Proc.devRef .tc main_v8) : Vec Ideal S3x64 .f32) (ix2 0 k) := by
  after_results
  exact row_block _ _ _ _ _ (0 : Fin 3) rfl

/-- The layer's batch-norm shift: its row of the folded shifts. -/
theorem sh_0 :
    Cert.Spec.row (StableHlo.after (hostOps0_2 (F := Ideal)) W (Proc.devRef .tc main_v25) : Vec Ideal S1x64 .f32)
      = fun k => (W (Proc.devRef .tc main_v10) : Vec Ideal S3x64 .f32) (ix2 0 k) := by
  after_results
  exact row_block _ _ _ _ _ (0 : Fin 3) rfl

/-- The layer's second weight matrix: its block of the stacked second weights. -/
theorem w2_0 :
    Cert.Spec.mat (StableHlo.after (hostOps0_2 (F := Ideal)) W (Proc.devRef .tc main_v27) : Vec Ideal S64x64 .f32)
      = fun k j => (W (Proc.devRef .tc main_arg9) : Vec Ideal S3x64x64 .f32) (ix3 0 k j) := by
  after_results
  exact mat_block _ _ _ _ (0 : Fin 3) rfl

/-- The layer's second bias: its row of the stacked second biases. -/
theorem b2_0 :
    Cert.Spec.row (StableHlo.after (hostOps0_2 (F := Ideal)) W (Proc.devRef .tc main_v30) : Vec Ideal S1x64 .f32)
      = fun k => (W (Proc.devRef .tc main_arg10) : Vec Ideal S3x64 .f32) (ix2 0 k) := by
  after_results
  exact row_block _ _ _ _ _ (0 : Fin 3) rfl

end Layer

end Cert.KernelIdeal.Host

end
-- ==== Proof.KGinPay.lean ====
/-
  The steps a block's arithmetic is made of, each read at an index (p, q) of a block of 3200 node rows by 64 features.

  Every layer of the network acts on a node's row alone: it multiplies the row by a [64, 64] weight matrix (a
  contraction over the 64 features of that ONE row), adds a [1, 64] bias row to every row, and clamps below at zero.
  On the extended reals a product accumulated into a zero array is the bare sum over the contracted axis, a [1, 64] row
  broadcast over the rows reads its one row, and the literal 0 of the clamp is the number 0. These three facts, stated
  once here, are what the GIN layers and the perceptron are read through.
-/
import proofs.«427193_j25417616458217_1_alg».proof.Proof.Spec
import proofs.«427193_j25417616458217_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The row-by-matrix product at an index -/

/-- The left operand of the product is read at the output's row … -/
theorem lhs_rowdot_0 (i : S3200x64.Idx) (q : dot_S3200x64_S64x64_S3200x64_1_0_0_1_n_n.contr.Idx) :
    (dot_S3200x64_S64x64_S3200x64_1_0_0_1_n_n.lhsIdx i q 0).val = (i 0).val := by
  unfold DotDims.lhsIdx
  rw [dif_neg (show ¬(0 : Fin S3200x64.rank) ∈ dot_S3200x64_S64x64_S3200x64_1_0_0_1_n_n.lhsBatch by decide), dif_pos (show (0 : Fin S3200x64.rank) ∈ dot_S3200x64_S64x64_S3200x64_1_0_0_1_n_n.lhsNonContracting by decide)]
  rfl
/-- … and at the contracted feature; -/
theorem lhs_rowdot_1 (i : S3200x64.Idx) (q : dot_S3200x64_S64x64_S3200x64_1_0_0_1_n_n.contr.Idx) :
    (dot_S3200x64_S64x64_S3200x64_1_0_0_1_n_n.lhsIdx i q 1).val = (q ⟨0, by decide⟩).val :=
  dot_S3200x64_S64x64_S3200x64_1_0_0_1_n_n.lhsIdx_val_of_single rfl i q
/-- the right operand at the contracted feature … -/
theorem rhs_rowdot_0 (i : S3200x64.Idx) (q : dot_S3200x64_S64x64_S3200x64_1_0_0_1_n_n.contr.Idx) :
    (dot_S3200x64_S64x64_S3200x64_1_0_0_1_n_n.rhsIdx i q 0).val = (q ⟨0, by decide⟩).val :=
  dot_S3200x64_S64x64_S3200x64_1_0_0_1_n_n.rhsIdx_val_of_single rfl i q
/-- … and at the output's column. -/
theorem rhs_rowdot_1 (i : S3200x64.Idx) (q : dot_S3200x64_S64x64_S3200x64_1_0_0_1_n_n.contr.Idx) :
    (dot_S3200x64_S64x64_S3200x64_1_0_0_1_n_n.rhsIdx i q 1).val = (i 1).val := by
  unfold DotDims.rhsIdx
  rw [dif_neg (show ¬(1 : Fin S64x64.rank) ∈ dot_S3200x64_S64x64_S3200x64_1_0_0_1_n_n.rhsBatch by decide), dif_pos (show (1 : Fin S64x64.rank) ∈ dot_S3200x64_S64x64_S3200x64_1_0_0_1_n_n.rhsNonContracting by decide)]
  rfl

/-- A [3200, 64] block times a [64, 64] matrix, accumulated into zeros: entry (p, q) is the sum over the 64 features
    `k` of the block's (p, k) times the matrix's (k, q). -/
theorem rowdot_apply {φ₁ φ₂ : FTy} (x : FVec Ideal S3200x64 φ₁) (w : FVec Ideal S64x64 φ₂) (p : Fin 3200) (q : Fin 64) :
    matmul dot_S3200x64_S64x64_S3200x64_1_0_0_1_n_n none x w (constant (F := Ideal) S3200x64 .f32 0x00000000#32) (ix2 p q)
      = ∑ k : Fin 64, x (ix2 p k) * w (ix2 k q) := by
  simp only [matmul]
  rw [Ideal.matmul_constant_zero_apply, ← Equiv.sum_comp (contrEquiv1 dot_S3200x64_S64x64_S3200x64_1_0_0_1_n_n 64 rfl rfl).symm]
  refine Finset.sum_congr rfl fun k _ => ?_
  have hk := contrEquiv1_symm_val dot_S3200x64_S64x64_S3200x64_1_0_0_1_n_n 64 rfl rfl k
  have el : dot_S3200x64_S64x64_S3200x64_1_0_0_1_n_n.lhsIdx (ix2 p q) ((contrEquiv1 dot_S3200x64_S64x64_S3200x64_1_0_0_1_n_n 64 rfl rfl).symm k) = ix2 p k := funext fun a => Fin.ext (by
    match a with
    | ⟨0, _⟩ => exact lhs_rowdot_0 _ _
    | ⟨1, _⟩ => exact (lhs_rowdot_1 _ _).trans hk)
  have er : dot_S3200x64_S64x64_S3200x64_1_0_0_1_n_n.rhsIdx (ix2 p q) ((contrEquiv1 dot_S3200x64_S64x64_S3200x64_1_0_0_1_n_n 64 rfl rfl).symm k) = ix2 k q := funext fun a => Fin.ext (by
    match a with
    | ⟨0, _⟩ => exact (rhs_rowdot_0 _ _).trans hk
    | ⟨1, _⟩ => exact rhs_rowdot_1 _ _)
  rw [el, er]

/-- A [1, 64] row broadcast over the 3200 rows reads, at (p, q), the row's entry q. -/
theorem rowbc_apply (b : FVec Ideal S1x64 .f32) (p : Fin 3200) (q : Fin 64) :
    broadcastTo S3200x64 b broadcasts_S1x64_S3200x64 (ix2 p q) = b (ix2 (0 : Fin 1) q) :=
  broadcastTo_1b_ab_apply b broadcasts_S1x64_S3200x64 p q

/-- The literal the clamp compares with is the number 0. -/
theorem relu_zero : (Scalar.ofBits (F := Ideal) .f32 0x00000000#32 : Ideal .f32) = (0 : EReal) :=
  Ideal.ofBits_zero_f32

end Cert.KernelIdeal.Pay

end
-- ==== Proof.KGin0.lean ====
/-
  A GIN layer of the network, from blocks to the whole array.

  The 80000 node rows are cut into 25 blocks of 3200 rows; grid point t holds rows 3200 t … 3200 t + 3199 of the feature
  array and of the neighbour-aggregate array, and the two weight matrices and the bias, scale and shift rows whole. A
  node's new row depends on its own row and its own aggregate only (the two products contract the 64 features inside one
  row), so the block a point computes is the same rows of ONE function of the whole arrays: the layer applied a row at
  a time. The 25 blocks tile the result array, and every point writes its block back; so the array ends holding that
  function.
-/
import proofs.«427193_j25417616458217_1_alg».proof.Proof.KGinPay
import proofs.«427193_j25417616458217_1_alg».proof.Proof.Gen.KernelIdeal.Frame
import Idealize.ShloMosaic.Lib.Pipeline.Value

noncomputable section

namespace Cert.KernelIdeal.Regions

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The layer's block at an index -/

/-- Entry (p, q) of the layer's result block is the GIN row map of row p of the feature block and of the aggregate
    block, read at q: every step of the body acts inside one row. -/
theorem gin0_pay (h a : Vec Ideal S3200x64 .f32) (w1 : Vec Ideal S64x64 .f32) (b1 sc sh : Vec Ideal S1x64 .f32)
    (w2 : Vec Ideal S64x64 .f32) (b2 : Vec Ideal S1x64 .f32) (p : Fin 3200) (q : Fin 64) :
    k0_pay1 (F := Ideal) h a w1 b1 sc sh w2 b2 (ix2 p q)
      = Cert.Spec.ginRow (fun k => h (ix2 p k)) (fun k => a (ix2 p k)) (Cert.Spec.mat w1) (Cert.Spec.row b1)
          (Cert.Spec.row sc) (Cert.Spec.row sh) (Cert.Spec.mat w2) (Cert.Spec.row b2) q := by
  unfold k0_pay1
  simp only [maximumf_apply, addf_apply, mulf_apply, truncf_apply, broadcast_apply, shapeCast_self, rowdot_apply,
    rowbc_apply, relu_zero]
  rfl

/-! ## The blocks, read off the arrays -/

/-- The body loads and stores whole staging buffers: offset zero on both axes. -/
theorem gin0_hz : (![0, 0] : Fin 2 → Nat) = fun _ => 0 := funext fun a => by fin_cases a <;> rfl

/-- The block indices at grid point t, decided over the 25 points: the two feature windows and the result window sit at
    row block t, column block 0; the weight matrices and the bias, scale and shift rows are one block, the whole array,
    at every point. -/
theorem gin0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row p of the feature block at point t is row 3200 t + p of the feature array. -/
theorem gin0_rows_h (c : Dev nD) (t : Fin cfg0.N) (p : Fin 3200) (k : Fin 64) (r : Fin 80000) (hr : r.val = 3200 * t.val + p.val) :
    (iblk0 V c 0 t : Vec Ideal S3200x64 .f32) (ix2 p k) = (V c main_arg0 : S80000x64.Idx → EReal) (ix2 r k) := by
  obtain ⟨e0, e1, -⟩ := gin0_idx t
  show V c main_arg0 (((cfg0.win 0).blk t).view.emb (ix2 p k)) = V c main_arg0 (ix2 r k)
  refine congrArg _ (funext fun a => Fin.ext ?_)
  match a with
  | ⟨0, _⟩ => show win0_0.index t (0 : Fin 2) * 3200 + 1 * p.val = r.val; omega
  | ⟨1, _⟩ => show win0_0.index t (1 : Fin 2) * 64 + 1 * k.val = k.val; omega

/-- Row p of the aggregate block at point t is row 3200 t + p of the aggregate array. -/
theorem gin0_rows_a (c : Dev nD) (t : Fin cfg0.N) (p : Fin 3200) (k : Fin 64) (r : Fin 80000) (hr : r.val = 3200 * t.val + p.val) :
    (iblk0 V c 1 t : Vec Ideal S3200x64 .f32) (ix2 p k) = (V c main_v14 : S80000x64.Idx → EReal) (ix2 r k) := by
  obtain ⟨-, -, e0, e1, -⟩ := gin0_idx t
  show V c main_v14 (((cfg0.win 1).blk t).view.emb (ix2 p k)) = V c main_v14 (ix2 r k)
  refine congrArg _ (funext fun a => Fin.ext ?_)
  match a with
  | ⟨0, _⟩ => show win0_1.index t (0 : Fin 2) * 3200 + 1 * p.val = r.val; omega
  | ⟨1, _⟩ => show win0_1.index t (1 : Fin 2) * 64 + 1 * k.val = k.val; omega

/-- The first weight matrix's window is the whole matrix at every point. -/
theorem gin0_w1 (c : Dev nD) (t : Fin cfg0.N) :
    (iblk0 V c 2 t : Vec Ideal S64x64 .f32) = (V c main_v16 : S64x64.Idx → EReal) := by
  obtain ⟨-, -, -, -, e0, e1, -⟩ := gin0_idx t
  funext y
  show V c main_v16 (((cfg0.win 2).blk t).view.emb y) = V c main_v16 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The first bias row's window is the whole row at every point. -/
theorem gin0_b1 (c : Dev nD) (t : Fin cfg0.N) :
    (iblk0 V c 3 t : Vec Ideal S1x64 .f32) = (V c main_v19 : S1x64.Idx → EReal) := by
  obtain ⟨-, -, -, -, -, -, e0, e1, -⟩ := gin0_idx t
  funext y
  show V c main_v19 (((cfg0.win 3).blk t).view.emb y) = V c main_v19 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The scale row's window is the whole row at every point. -/
theorem gin0_sc (c : Dev nD) (t : Fin cfg0.N) :
    (iblk0 V c 4 t : Vec Ideal S1x64 .f32) = (V c main_v22 : S1x64.Idx → EReal) := by
  obtain ⟨-, -, -, -, -, -, -, -, e0, e1, -⟩ := gin0_idx t
  funext y
  show V c main_v22 (((cfg0.win 4).blk t).view.emb y) = V c main_v22 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The shift row's window is the whole row at every point. -/
theorem gin0_sh (c : Dev nD) (t : Fin cfg0.N) :
    (iblk0 V c 5 t : Vec Ideal S1x64 .f32) = (V c main_v25 : S1x64.Idx → EReal) := by
  obtain ⟨-, -, -, -, -, -, -, -, -, -, e0, e1, -⟩ := gin0_idx t
  funext y
  show V c main_v25 (((cfg0.win 5).blk t).view.emb y) = V c main_v25 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The second weight matrix's window is the whole matrix at every point. -/
theorem gin0_w2 (c : Dev nD) (t : Fin cfg0.N) :
    (iblk0 V c 6 t : Vec Ideal S64x64 .f32) = (V c main_v27 : S64x64.Idx → EReal) := by
  obtain ⟨-, -, -, -, -, -, -, -, -, -, -, -, e0, e1, -⟩ := gin0_idx t
  funext y
  show V c main_v27 (((cfg0.win 6).blk t).view.emb y) = V c main_v27 y
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- The second bias row's window is the whole row at every point. -/
theorem gin0_b2 (c : Dev nD) (t : Fin cfg0.N) :
    (iblk0 V c 7 t : Vec Ideal S1x64 .f32) = (V c main_v30 : S1x64.Idx → EReal) := by
  obtain ⟨-, -, -, -, -, -, -, -, -, -, -, -, -, -, e0, e1, -⟩ := gin0_idx t
  funext y
  show V c main_v30 (((cfg0.win 7).blk t).view.emb y) = V c main_v30 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-! ## From blocks to the array -/

/-- The layer on the whole arrays as the region finds them: each node's row through the GIN row map. -/
abbrev gin0_G (c : Dev nD) : S80000x64.Idx → EReal :=
  Cert.Spec.ginArr (Cert.Spec.mat (V c main_v16)) (Cert.Spec.row (V c main_v19)) (Cert.Spec.row (V c main_v22))
    (Cert.Spec.row (V c main_v25)) (Cert.Spec.mat (V c main_v27)) (Cert.Spec.row (V c main_v30)) (V c main_arg0) (V c main_v14)

/-- What point t writes back is rows 3200 t … 3200 t + 3199 of the layer's result: the body's block at (p, q) is the row
    map of row p of the two input blocks, which are rows 3200 t + p of the two arrays, and the result block's (p, q) sits
    at (3200 t + p, q) of the result array. -/
theorem gin0_flushed (c : Dev nD) (t : Fin cfg0.N) :
    (dat0 (F := Ideal) V c).flushed 8 t = ((cfg0.win 8).blk t).view.read (Elt Ideal) (gin0_G V c) := by
  show (cfg0.win 8).cut (grid0.coords t) ((dat0 V c).after 8 t) = _
  rw [after0_8]
  unfold out0_8
  rw [View.canon_unit_zero gin0_hz]
  simp only [View.ld_unit_zero (S := S3200x64) gin0_hz, View.ld_unit_zero (S := S64x64) gin0_hz, View.ld_unit_zero (S := S1x64) gin0_hz]
  funext j
  obtain ⟨p, q, rfl⟩ : ∃ (p : Fin 3200) (q : Fin 64), j = ix2 p q := ⟨j 0, j 1, eq_ix2 j⟩
  have hN : cfg0.N = 25 := N_0
  have htN : t.val < 25 := hN ▸ t.isLt
  obtain ⟨r, hr⟩ : ∃ r : Fin 80000, r.val = 3200 * t.val + p.val := ⟨⟨3200 * t.val + p.val, by have := p.isLt; omega⟩, rfl⟩
  have hemb : ((cfg0.win 8).blk t).view.emb (ix2 p q) = ix2 r q := by
    obtain ⟨-, -, -, -, -, -, -, -, -, -, -, -, -, -, -, -, e0, e1⟩ := gin0_idx t
    refine funext fun a => Fin.ext ?_
    match a with
    | ⟨0, _⟩ => show win0_8.index t (0 : Fin 2) * 3200 + 1 * p.val = r.val; omega
    | ⟨1, _⟩ => show win0_8.index t (1 : Fin 2) * 64 + 1 * q.val = q.val; omega
  show k0_pay1 (F := Ideal) (iblk0 V c 0 t) (iblk0 V c 1 t) (iblk0 V c 2 t) (iblk0 V c 3 t) (iblk0 V c 4 t) (iblk0 V c 5 t) (iblk0 V c 6 t) (iblk0 V c 7 t) (ix2 p q)
      = gin0_G V c (((cfg0.win 8).blk t).view.emb (ix2 p q))
  rw [hemb]
  unfold gin0_G
  rw [Cert.Spec.ginArr_ix2]
  refine (gin0_pay (iblk0 V c 0 t) (iblk0 V c 1 t) (iblk0 V c 2 t) (iblk0 V c 3 t) (iblk0 V c 4 t) (iblk0 V c 5 t) (iblk0 V c 6 t) (iblk0 V c 7 t) p q).trans ?_
  rw [gin0_w1 V c t, gin0_b1 V c t, gin0_sc V c t, gin0_sh V c t, gin0_w2 V c t, gin0_b2 V c t,
    funext fun k => gin0_rows_h V c t p k r hr, funext fun k => gin0_rows_a V c t p k r hr]

/-- An index of the result array is in point t's block iff each coordinate is in the block's range on its axis. -/
theorem gin0_mem_blk (t : Fin cfg0.N) (i : S80000x64.Idx) :
    i ∈ ((cfg0.win 8).blk t).view.set ↔ ∀ a : Fin 2, win0_8.index t a * S3200x64.size a ≤ (i a).val ∧ (i a).val < win0_8.index t a * S3200x64.size a + S3200x64.size a := by
  show i ∈ ((View.whole main_v31).slice (win0_8.rect t)).set ↔ _
  rw [View.set_slice_whole, Rect.mem_set_unit]
  exact Iff.rfl

/-- The 25 row blocks tile the 80000 rows: row r lies in the block of point r / 3200, and every point writes back. -/
theorem gin0_cover (i : S80000x64.Idx) :
    ∃ t : Fin cfg0.N, (cfg0.win 8).flush t = true ∧ i ∈ ((cfg0.win 8).blk t).view.set := by
  have hi0 : (i 0).val < 80000 := (i 0).isLt
  have hi1 : (i 1).val < 64 := (i 1).isLt
  have hN : cfg0.N = 25 := N_0
  obtain ⟨t, ht⟩ : ∃ t : Fin cfg0.N, t.val = (i 0).val / 3200 := ⟨⟨(i 0).val / 3200, by rw [hN]; omega⟩, rfl⟩
  obtain ⟨-, -, -, -, -, -, -, -, -, -, -, -, -, -, -, -, e0, e1⟩ := gin0_idx t
  refine ⟨t, flush0_8 t, ?_⟩
  rw [gin0_mem_blk]
  intro a
  match a with
  | ⟨0, _⟩ => show win0_8.index t (0 : Fin 2) * 3200 ≤ (i 0).val ∧ (i 0).val < win0_8.index t (0 : Fin 2) * 3200 + 3200; omega
  | ⟨1, _⟩ => show win0_8.index t (1 : Fin 2) * 64 ≤ (i 1).val ∧ (i 1).val < win0_8.index t (1 : Fin 2) * 64 + 64; omega

/-- THE RESULT ARRAY after the region: the GIN layer of the feature array and the aggregate array, a row at a time. -/
theorem region0_arr (c : Dev nD) : (dat0 (F := Ideal) V c).arrAt 8 cfg0.N
    = Cert.Spec.ginArr (Cert.Spec.mat (V c main_v16)) (Cert.Spec.row (V c main_v19)) (Cert.Spec.row (V c main_v22))
        (Cert.Spec.row (V c main_v25)) (Cert.Spec.mat (V c main_v27)) (Cert.Spec.row (V c main_v30)) (V c main_arg0) (V c main_v14) :=
  (dat0 (F := Ideal) V c).arrAt_eq_of_cover 8 (gin0_G V c) (fun t _ => gin0_flushed V c t) gin0_cover

end Cert.KernelIdeal.Regions

end
-- ==== Proof.KValue.lean ====
/-
  The kernel program's result as a function of its arguments.

  Its run's last valuation is a fold through the host stretches and the five regions. Read backwards from the
  result buffer: the pooling region's output array is the pooling of its two input arrays; the first of those is the
  perceptron region's output, the perceptron of the third layer's features; each layer's features are the layer
  function of the features before it and of their neighbour sum; and the neighbour sum is the scatter-add along the
  edges' targets of the rows gathered along the edges' sources. With every source in range the gather's in-range mask
  is all ones, so the gathered rows are the operand's rows and the fill value is never read. Each parameter a region
  reads is a slice of an argument, or a row of the scale and shift the first stretch folds once.
-/
import proofs.«427193_j25417616458217_1_alg».proof.Proof.Gen.KernelIdeal.Frame
import proofs.«427193_j25417616458217_1_alg».proof.Proof.Spec
import proofs.«427193_j25417616458217_1_alg».proof.Proof.KFold
import proofs.«427193_j25417616458217_1_alg».proof.Proof.KHost0
import proofs.«427193_j25417616458217_1_alg».proof.Proof.KTake0
import proofs.«427193_j25417616458217_1_alg».proof.Proof.KScat0
import proofs.«427193_j25417616458217_1_alg».proof.Proof.KGin0
import Idealize.ShloMosaic.PureOps.Ideal
import Idealize.ShloMosaic.Lib.ValueIdx

set_option maxRecDepth 16384

noncomputable section

namespace Cert.KernelIdeal.Value

open Cert.KernelIdeal Cert.KernelIdeal.Gen Cert.KernelIdeal.Host Cert.KernelIdeal.Regions Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The arguments, at their literal array types -/

abbrev xA : Vec Ideal S80000x64 .f32 := m ((c : Thread nD τ).loc main_arg0)
abbrev eA : IVec S2x1280000 32 := m ((c : Thread nD τ).loc main_arg1)
abbrev a2 : IVec S80000 32 := m ((c : Thread nD τ).loc main_arg2)
abbrev a3 : Vec Ideal S3x64x64 .f32 := m ((c : Thread nD τ).loc main_arg3)
abbrev a4 : Vec Ideal S3x64 .f32 := m ((c : Thread nD τ).loc main_arg4)
abbrev a5 : Vec Ideal S3x64 .f32 := m ((c : Thread nD τ).loc main_arg5)
abbrev a6 : Vec Ideal S3x64 .f32 := m ((c : Thread nD τ).loc main_arg6)
abbrev a7 : Vec Ideal S3x64 .f32 := m ((c : Thread nD τ).loc main_arg7)
abbrev a8 : Vec Ideal S3x64 .f32 := m ((c : Thread nD τ).loc main_arg8)
abbrev a9 : Vec Ideal S3x64x64 .f32 := m ((c : Thread nD τ).loc main_arg9)
abbrev a10 : Vec Ideal S3x64 .f32 := m ((c : Thread nD τ).loc main_arg10)
abbrev a11 : Vec Ideal S64x64 .f32 := m ((c : Thread nD τ).loc main_arg11)
abbrev a12 : Vec Ideal S64 .f32 := m ((c : Thread nD τ).loc main_arg12)
abbrev a13 : Vec Ideal S64x64 .f32 := m ((c : Thread nD τ).loc main_arg13)
abbrev a14 : Vec Ideal S64 .f32 := m ((c : Thread nD τ).loc main_arg14)

/-- Every edge's source is a node: a word in [0, 80000). -/
def SrcInRange : Prop := ∀ e : Fin 1280000, 0 ≤ (eA m c (ix2 0 e)).toInt ∧ (eA m c (ix2 0 e)).toInt < 80000

/-! ## The edges' ends as the first stretch leaves them, and the neighbour sum over them -/

/-- The edges' sources, one word an edge. -/
abbrev srcA : IVec S1280000 32 := W1 (F := Ideal) m ρ c (Proc.devRef .tc main_v1)
/-- The edges' targets. -/
abbrev dstA : IVec S1280000 32 := W1 (F := Ideal) m ρ c (Proc.devRef .tc main_v3)

theorem srcA_apply (e : Fin 1280000) : srcA m ρ c (ix1 e) = eA m c (ix2 0 e) := src0 (W0 (F := Ideal) m ρ c) e
theorem dstA_apply (e : Fin 1280000) : dstA m ρ c (ix1 e) = eA m c (ix2 1 e) := dst0 (W0 (F := Ideal) m ρ c) e

theorem srcA_in (hin : SrcInRange m c) (e : Fin 1280000) :
    0 ≤ (srcA m ρ c (ix1 e)).toInt ∧ (srcA m ρ c (ix1 e)).toInt < 80000 := by
  rw [srcA_apply]; exact hin e

/-- The neighbour sum of a feature array: its rows gathered along the sources, added up along the targets. -/
def aggK (h : Vec Ideal S80000x64 .f32) : Vec Ideal S80000x64 .f32 := scatterK (dstA m ρ c) (gatherK h (srcA m ρ c))

/-- One layer of the kernel program on a feature array: layer `l`'s parameters, the array, its neighbour sum. -/
def layerK (l : Fin 3) (h : Vec Ideal S80000x64 .f32) : Vec Ideal S80000x64 .f32 :=
  Cert.Spec.ginArr (fun k j => a3 m c (ix3 l k j)) (fun k => a4 m c (ix2 l k))
    (Cert.Spec.scaleAt (a5 m c) (a8 m c) l) (Cert.Spec.shiftAt (a5 m c) (a6 m c) (a7 m c) (a8 m c) l)
    (fun k j => a9 m c (ix3 l k j)) (fun k => a10 m c (ix2 l k)) h (aggK m ρ c h)

/-- A layer region's whole-array value, once each of its windows' arrays has been read back: the parameter windows to
    layer `l`'s slices of the arguments and rows of the folded scale and shift, the feature window to the features
    `prev` before the layer, the aggregate window to their neighbour sum. -/
theorem gin_of_reads (l : Fin 3) {w1 w2 : Vec Ideal S64x64 .f32} {b1 sc sh b2 : Vec Ideal S1x64 .f32}
    {h a prev : Vec Ideal S80000x64 .f32}
    (ew1 : Cert.Spec.mat w1 = fun k j => a3 m c (ix3 l k j)) (eb1 : Cert.Spec.row b1 = fun k => a4 m c (ix2 l k))
    (esc : Cert.Spec.row sc = Cert.Spec.scaleAt (a5 m c) (a8 m c) l)
    (esh : Cert.Spec.row sh = Cert.Spec.shiftAt (a5 m c) (a6 m c) (a7 m c) (a8 m c) l)
    (ew2 : Cert.Spec.mat w2 = fun k j => a9 m c (ix3 l k j)) (eb2 : Cert.Spec.row b2 = fun k => a10 m c (ix2 l k))
    (eh : h = prev) (ea : a = aggK m ρ c prev) :
    Cert.Spec.ginArr (Cert.Spec.mat w1) (Cert.Spec.row b1) (Cert.Spec.row sc) (Cert.Spec.row sh) (Cert.Spec.mat w2) (Cert.Spec.row b2) h a
      = layerK m ρ c l prev := by
  rw [ew1, eb1, esc, esh, ew2, eb2, eh, ea]
  rfl

/-- The features after layer 0: region 0's output array at its exit. -/
theorem feat1 (hin : SrcInRange m c) :
    (W4 (F := Ideal) m ρ c (Proc.devRef .tc main_v31) : Vec Ideal S80000x64 .f32) = layerK m ρ c 0 (xA m c) := by
  have hsrc : (W1 (F := Ideal) m ρ c (Proc.devRef .tc main_v1) : IVec S1280000 32) = srcA m ρ c := rfl
  have eg : (W2 (F := Ideal) m ρ c (Proc.devRef .tc main_v11) : Vec Ideal S1280000x64 .f32) = gatherK (xA m c) (srcA m ρ c) :=
    (take0 (W1 (F := Ideal) m ρ c) (fun e => by rw [hsrc]; exact srcA_in m ρ c hin e)).trans (congrArg₂ gatherK (a0_1 m ρ c) hsrc)
  exact (W4_arr (F := Ideal) m ρ c 8).trans ((region0_arr (V3 (F := Ideal) m ρ) c).trans (gin_of_reads m ρ c 0
    ((w1_0 (W2 (F := Ideal) m ρ c)).trans (by rw [a3_2 m ρ c]))
    ((b1_0 (W2 (F := Ideal) m ρ c)).trans (by rw [a4_2 m ρ c]))
    ((sc_0 (W2 (F := Ideal) m ρ c)).trans (funext fun k => by rw [v8_2 m ρ c]; exact scale0 (W0 (F := Ideal) m ρ c) 0 k))
    ((sh_0 (W2 (F := Ideal) m ρ c)).trans (funext fun k => by rw [v10_2 m ρ c]; exact shift0 (W0 (F := Ideal) m ρ c) 0 k))
    ((w2_0 (W2 (F := Ideal) m ρ c)).trans (by rw [a9_2 m ρ c]))
    ((b2_0 (W2 (F := Ideal) m ρ c)).trans (by rw [a10_2 m ρ c]))
    (a0_3 m ρ c)
    ((agg0 (W2 (F := Ideal) m ρ c)).trans (congrArg₂ scatterK (v3_2 m ρ c) eg))))

end Cert.KernelIdeal.Value

end
-- ==== Proof.KTake1.lean ====
import proofs.«427193_j25417616458217_1_alg».proof.Proof.KTake0

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL.Sem

/-! ## The stretch's result -/

section Stretch

variable (W : Valuation τ sig (Elt Ideal))

/-- The features, read at their array type, are what the valuation holds. -/
theorem ofBuf_v31 : ((.of main_v31 : StableHlo.TRef sig ⟨S80000x64, .f32⟩)).ofBuf (W (Proc.devRef .tc main_v31))
    = (W (Proc.devRef .tc main_v31) : Vec Ideal S80000x64 .f32) := rfl

/-- The gathered rows, stored at their array type, are the rows. -/
theorem toBuf_v32 (v : Vec Ideal S1280000x64 .f32) :
    ((.of main_v32 : StableHlo.TRef sig ⟨S1280000x64, .f32⟩)).toBuf v = v := rfl

set_option maxHeartbeats 1000000 in
/-- From any valuation whose sources all lie in [0, 80000), the stretch leaves in its result the gather of the
    features it was handed along those sources: each operation's value is read off in order, every intermediate is
    read back at the type it was stored at, and what remains is the masked gather of `take_pure`. -/
theorem take1
    (hin : ∀ e : Fin 1280000, 0 ≤ ((W (Proc.devRef .tc main_v1) : IVec S1280000 32) (ix1 e)).toInt
      ∧ ((W (Proc.devRef .tc main_v1) : IVec S1280000 32) (ix1 e)).toInt < 80000) :
    (StableHlo.after (hostOps1 (F := Ideal)) W (Proc.devRef .tc main_v32) : Vec Ideal S1280000x64 .f32)
      = gatherK (W (Proc.devRef .tc main_v31)) (W (Proc.devRef .tc main_v1)) := by
  open StableHlo in after_results_simp
  repeat rw [ofBuf_toBuf]
  rw [ofBuf_v1 W, ofBuf_v31 W, toBuf_v32]
  exact take_pure _ _ hin

end Stretch

end Cert.KernelIdeal.Host
-- ==== Proof.KScat1.lean ====
import proofs.«427193_j25417616458217_1_alg».proof.Proof.KScat0
import proofs.«427193_j25417616458217_1_alg».proof.Proof.Gen.KernelIdeal.Launch
import proofs.«427193_j25417616458217_1_alg».proof.Proof.Spec
import Idealize.ShloMosaic.Lib.StableHlo.Run
import Idealize.ShloMosaic.Lib.Pipeline.Value
import Idealize.ShloMosaic.Lib.ValueLayout

/-! # The host stretch before GIN layer 1: the neighbour sum and the layer's parameters

Before the layer's kernel runs, host operations prepare its operands from what is already in the buffers:

* the NEIGHBOUR SUM: an all-zero [80000, 64] array into which row `e` of the gathered edge rows [1280000, 64] is
  added at the row named by the edge's target `dst e` (a scatter-add along the targets, the target vector first
  written as a column [1280000, 1]);
* the layer's PARAMETERS: block 1 of each stacked parameter array. A weight stack [3, 64, 64] is cut to [1, 64, 64]
  and its unit axis dropped, so entry (k, j) of the result is entry (1, k, j) of the stack. A bias or batch-norm
  stack [3, 64] is cut to [1, 64], flattened to [64] and written as a row [1, 64] again, so column k of the result is
  entry (1, k) of the stack.

Each result below is the contents of one buffer after the stretch, as a function of the contents before it, whatever
those are. The scatter-add is never opened: it is kept as one named function of the targets and the edge rows. -/

noncomputable section

namespace Cert.KernelIdeal.Host

open Cert.KernelIdeal Cert.KernelIdeal.Gen
open Idealize.ShloMosaic Idealize.ShloMosaic.TcCoe Idealize.ShloMosaic.ValueIdx

section Layer

variable (W : Valuation τ sig (Elt Ideal))

/-- The layer's neighbour sum: the scatter-add of the gathered edge rows along the edges' targets. -/
theorem agg1 :
    (StableHlo.after (hostOps1_1 (F := Ideal)) W (Proc.devRef .tc main_v35) : Vec Ideal S80000x64 .f32)
      = scatterK (W (Proc.devRef .tc main_v3)) (W (Proc.devRef .tc main_v32)) := by
  after_results
  rfl

/-- The layer's first weight matrix: its block of the stacked first weights. -/
theorem w1_1 :
    Cert.Spec.mat (StableHlo.after (hostOps1_1 (F := Ideal)) W (Proc.devRef .tc main_v37) : Vec Ideal S64x64 .f32)
      = fun k j => (W (Proc.devRef .tc main_arg3) : Vec Ideal S3x64x64 .f32) (ix3 1 k j) := by
  after_results
  exact mat_block _ _ _ _ (1 : Fin 3) rfl

/-- The layer's first bias: its row of the stacked first biases. -/
theorem b1_1 :
    Cert.Spec.row (StableHlo.after (hostOps1_1 (F := Ideal)) W (Proc.devRef .tc main_v40) : Vec Ideal S1x64 .f32)
      = fun k => (W (Proc.devRef .tc main_arg4) : Vec Ideal S3x64 .f32) (ix2 1 k) := by
  after_results
  exact row_block _ _ _ _ _ (1 : Fin 3) rfl

/-- The layer's batch-norm scale: its row of the folded scales. -/
theorem sc_1 :
    Cert.Spec.row (StableHlo.after (hostOps1_1 (F := Ideal)) W (Proc.devRef .tc main_v43) : Vec Ideal S1x64 .f32)
      = fun k => (W (Proc.devRef .tc main_v8) : Vec Ideal S3x64 .f32) (ix2 1 k) := by
  after_results
  exact row_block _ _ _ _ _ (1 : Fin 3) rfl

/-- The layer's batch-norm shift: its row of the folded shifts. -/
theorem sh_1 :
    Cert.Spec.row (StableHlo.after (hostOps1_1 (F := Ideal)) W (Proc.devRef .tc main_v46) : Vec Ideal S1x64 .f32)
      = fun k => (W (Proc.devRef .tc main_v10) : Vec Ideal S3x64 .f32) (ix2 1 k) := by
  after_results
  exact row_block _ _ _ _ _ (1 : Fin 3) rfl

/-- The layer's second weight matrix: its block of the stacked second weights. -/
theorem w2_1 :
    Cert.Spec.mat (StableHlo.after (hostOps1_1 (F := Ideal)) W (Proc.devRef .tc main_v48) : Vec Ideal S64x64 .f32)
      = fun k j => (W (Proc.devRef .tc main_arg9) : Vec Ideal S3x64x64 .f32) (ix3 1 k j) := by
  after_results
  exact mat_block _ _ _ _ (1 : Fin 3) rfl

/-- The layer's second bias: its row of the stacked second biases. -/
theorem b2_1 :
    Cert.Spec.row (StableHlo.after (hostOps1_1 (F := Ideal)) W (Proc.devRef .tc main_v51) : Vec Ideal S1x64 .f32)
      = fun k => (W (Proc.devRef .tc main_arg10) : Vec Ideal S3x64 .f32) (ix2 1 k) := by
  after_results
  exact row_block _ _ _ _ _ (1 : Fin 3) rfl

end Layer

end Cert.KernelIdeal.Host

end
-- ==== Proof.KGin1.lean ====
/-
  A GIN layer of the network, from blocks to the whole array.

  The 80000 node rows are cut into 25 blocks of 3200 rows; grid point t holds rows 3200 t … 3200 t + 3199 of the feature
  array and of the neighbour-aggregate array, and the two weight matrices and the bias, scale and shift rows whole. A
  node's new row depends on its own row and its own aggregate only (the two products contract the 64 features inside one
  row), so the block a point computes is the same rows of ONE function of the whole arrays: the layer applied a row at
  a time. The 25 blocks tile the result array, and every point writes its block back; so the array ends holding that
  function.
-/
import proofs.«427193_j25417616458217_1_alg».proof.Proof.KGinPay
import proofs.«427193_j25417616458217_1_alg».proof.Proof.Gen.KernelIdeal.Frame
import Idealize.ShloMosaic.Lib.Pipeline.Value

noncomputable section

namespace Cert.KernelIdeal.Regions

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The layer's block at an index -/

/-- Entry (p, q) of the layer's result block is the GIN row map of row p of the feature block and of the aggregate
    block, read at q: every step of the body acts inside one row. -/
theorem gin1_pay (h a : Vec Ideal S3200x64 .f32) (w1 : Vec Ideal S64x64 .f32) (b1 sc sh : Vec Ideal S1x64 .f32)
    (w2 : Vec Ideal S64x64 .f32) (b2 : Vec Ideal S1x64 .f32) (p : Fin 3200) (q : Fin 64) :
    k1_pay1 (F := Ideal) h a w1 b1 sc sh w2 b2 (ix2 p q)
      = Cert.Spec.ginRow (fun k => h (ix2 p k)) (fun k => a (ix2 p k)) (Cert.Spec.mat w1) (Cert.Spec.row b1)
          (Cert.Spec.row sc) (Cert.Spec.row sh) (Cert.Spec.mat w2) (Cert.Spec.row b2) q := by
  unfold k1_pay1
  simp only [maximumf_apply, addf_apply, mulf_apply, truncf_apply, broadcast_apply, shapeCast_self, rowdot_apply,
    rowbc_apply, relu_zero]
  rfl

/-! ## The blocks, read off the arrays -/

/-- The body loads and stores whole staging buffers: offset zero on both axes. -/
theorem gin1_hz : (![0, 0] : Fin 2 → Nat) = fun _ => 0 := funext fun a => by fin_cases a <;> rfl

/-- The block indices at grid point t, decided over the 25 points: the two feature windows and the result window sit at
    row block t, column block 0; the weight matrices and the bias, scale and shift rows are one block, the whole array,
    at every point. -/
theorem gin1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row p of the feature block at point t is row 3200 t + p of the feature array. -/
theorem gin1_rows_h (c : Dev nD) (t : Fin cfg1.N) (p : Fin 3200) (k : Fin 64) (r : Fin 80000) (hr : r.val = 3200 * t.val + p.val) :
    (iblk1 V c 0 t : Vec Ideal S3200x64 .f32) (ix2 p k) = (V c main_v31 : S80000x64.Idx → EReal) (ix2 r k) := by
  obtain ⟨e0, e1, -⟩ := gin1_idx t
  show V c main_v31 (((cfg1.win 0).blk t).view.emb (ix2 p k)) = V c main_v31 (ix2 r k)
  refine congrArg _ (funext fun a => Fin.ext ?_)
  match a with
  | ⟨0, _⟩ => show win1_0.index t (0 : Fin 2) * 3200 + 1 * p.val = r.val; omega
  | ⟨1, _⟩ => show win1_0.index t (1 : Fin 2) * 64 + 1 * k.val = k.val; omega

/-- Row p of the aggregate block at point t is row 3200 t + p of the aggregate array. -/
theorem gin1_rows_a (c : Dev nD) (t : Fin cfg1.N) (p : Fin 3200) (k : Fin 64) (r : Fin 80000) (hr : r.val = 3200 * t.val + p.val) :
    (iblk1 V c 1 t : Vec Ideal S3200x64 .f32) (ix2 p k) = (V c main_v35 : S80000x64.Idx → EReal) (ix2 r k) := by
  obtain ⟨-, -, e0, e1, -⟩ := gin1_idx t
  show V c main_v35 (((cfg1.win 1).blk t).view.emb (ix2 p k)) = V c main_v35 (ix2 r k)
  refine congrArg _ (funext fun a => Fin.ext ?_)
  match a with
  | ⟨0, _⟩ => show win1_1.index t (0 : Fin 2) * 3200 + 1 * p.val = r.val; omega
  | ⟨1, _⟩ => show win1_1.index t (1 : Fin 2) * 64 + 1 * k.val = k.val; omega

/-- The first weight matrix's window is the whole matrix at every point. -/
theorem gin1_w1 (c : Dev nD) (t : Fin cfg1.N) :
    (iblk1 V c 2 t : Vec Ideal S64x64 .f32) = (V c main_v37 : S64x64.Idx → EReal) := by
  obtain ⟨-, -, -, -, e0, e1, -⟩ := gin1_idx t
  funext y
  show V c main_v37 (((cfg1.win 2).blk t).view.emb y) = V c main_v37 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The first bias row's window is the whole row at every point. -/
theorem gin1_b1 (c : Dev nD) (t : Fin cfg1.N) :
    (iblk1 V c 3 t : Vec Ideal S1x64 .f32) = (V c main_v40 : S1x64.Idx → EReal) := by
  obtain ⟨-, -, -, -, -, -, e0, e1, -⟩ := gin1_idx t
  funext y
  show V c main_v40 (((cfg1.win 3).blk t).view.emb y) = V c main_v40 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The scale row's window is the whole row at every point. -/
theorem gin1_sc (c : Dev nD) (t : Fin cfg1.N) :
    (iblk1 V c 4 t : Vec Ideal S1x64 .f32) = (V c main_v43 : S1x64.Idx → EReal) := by
  obtain ⟨-, -, -, -, -, -, -, -, e0, e1, -⟩ := gin1_idx t
  funext y
  show V c main_v43 (((cfg1.win 4).blk t).view.emb y) = V c main_v43 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The shift row's window is the whole row at every point. -/
theorem gin1_sh (c : Dev nD) (t : Fin cfg1.N) :
    (iblk1 V c 5 t : Vec Ideal S1x64 .f32) = (V c main_v46 : S1x64.Idx → EReal) := by
  obtain ⟨-, -, -, -, -, -, -, -, -, -, e0, e1, -⟩ := gin1_idx t
  funext y
  show V c main_v46 (((cfg1.win 5).blk t).view.emb y) = V c main_v46 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- The second weight matrix's window is the whole matrix at every point. -/
theorem gin1_w2 (c : Dev nD) (t : Fin cfg1.N) :
    (iblk1 V c 6 t : Vec Ideal S64x64 .f32) = (V c main_v48 : S64x64.Idx → EReal) := by
  obtain ⟨-, -, -, -, -, -, -, -, -, -, -, -, e0, e1, -⟩ := gin1_idx t
  funext y
  show V c main_v48 (((cfg1.win 6).blk t).view.emb y) = V c main_v48 y
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 64 + 1 * (y 1).val = (y 1).val; omega

/-- The second bias row's window is the whole row at every point. -/
theorem gin1_b2 (c : Dev nD) (t : Fin cfg1.N) :
    (iblk1 V c 7 t : Vec Ideal S1x64 .f32) = (V c main_v51 : S1x64.Idx → EReal) := by
  obtain ⟨-, -, -, -, -, -, -, -, -, -, -, -, -, -, e0, e1, -⟩ := gin1_idx t
  funext y
  show V c main_v51 (((cfg1.win 7).blk t).view.emb y) = V c main_v51 y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-! ## From blocks to the array -/

/-- The layer on the whole arrays as the region finds them: each node's row through the GIN row map. -/
abbrev gin1_G (c : Dev nD) : S80000x64.Idx → EReal :=
  Cert.Spec.ginArr (Cert.Spec.mat (V c main_v37)) (Cert.Spec.row (V c main_v40)) (Cert.Spec.row (V c main_v43))
    (Cert.Spec.row (V c main_v46)) (Cert.Spec.mat (V c main_v48)) (Cert.Spec.row (V c main_v51)) (V c main_v31) (V c main_v35)

/-- What point t writes back is rows 3200 t … 3200 t + 3199 of the layer's result: the body's block at (p, q) is the row
    map of row p of the two input blocks, which are rows 3200 t + p of the two arrays, and the result block's (p, q) sits
    at (3200 t + p, q) of the result array. -/
theorem gin1_flushed (c : Dev nD) (t : Fin cfg1.N) :
    (dat1 (F := Ideal) V c).flushed 8 t = ((cfg1.win 8).blk t).view.read (Elt Ideal) (gin1_G V c) := by
  show (cfg1.win 8).cut (grid1.coords t) ((dat1 V c).after 8 t) = _
  rw [after1_8]
  unfold out1_8
  rw [View.canon_unit_zero gin1_hz]
  simp only [View.ld_unit_zero (S := S3200x64) gin1_hz, View.ld_unit_zero (S := S64x64) gin1_hz, View.ld_unit_zero (S := S1x64) gin1_hz]
  funext j
  obtain ⟨p, q, rfl⟩ : ∃ (p : Fin 3200) (q : Fin 64), j = ix2 p q := ⟨j 0, j 1, eq_ix2 j⟩
  have hN : cfg1.N = 25 := N_1
  have htN : t.val < 25 := hN ▸ t.isLt
  obtain ⟨r, hr⟩ : ∃ r : Fin 80000, r.val = 3200 * t.val + p.val := ⟨⟨3200 * t.val + p.val, by have := p.isLt; omega⟩, rfl⟩
  have hemb : ((cfg1.win 8).blk t).view.emb (ix2 p q) = ix2 r q := by
    obtain ⟨-, -, -, -, -, -, -, -, -, -, -, -, -, -, -, -, e0, e1⟩ := gin1_idx t
    refine funext fun a => Fin.ext ?_
    match a with
    | ⟨0, _⟩ => show win1_8.index t (0 : Fin 2) * 3200 + 1 * p.val = r.val; omega
    | ⟨1, _⟩ => show win1_8.index t (1 : Fin 2) * 64 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (iblk1 V c 7 t) (ix2 p q)
      = gin1_G V c (((cfg1.win 8).blk t).view.emb (ix2 p q))
  rw [hemb]
  unfold gin1_G
  rw [Cert.Spec.ginArr_ix2]
  refine (gin1_pay (iblk1 V c 0 t) (iblk1 V c 1 t) (iblk1 V c 2 t) (iblk1 V c 3 t) (iblk1 V c 4 t) (iblk1 V c 5 t) (iblk1 V c 6 t) (iblk1 V c 7 t) p q).trans ?_
  rw [gin1_w1 V c t, gin1_b1 V c t, gin1_sc V c t, gin1_sh V c t, gin1_w2 V c t, gin1_b2 V c t,
    funext fun k => gin1_rows_h V c t p k r hr, funext fun k => gin1_rows_a V c t p k r hr]

/-- An index of the result array is in point t's block iff each coordinate is in the block's range on its axis. -/
theorem gin1_mem_blk (t : Fin cfg1.N) (i : S80000x64.Idx) :
    i ∈ ((cfg1.win 8).blk t).view.set ↔ ∀ a : Fin 2, win1_8.index t a * S3200x64.size a ≤ (i a).val ∧ (i a).val < win1_8.index t a * S3200x64.size a + S3200x64.size a := by
  show i ∈ ((View.whole main_v52).slice (win1_8.rect t)).set ↔ _
  rw [View.set_slice_whole, Rect.mem_set_unit]
  exact Iff.rfl

/-- The 25 row blocks tile the 80000 rows: row r lies in the block of point r / 3200, and every point writes back. -/
theorem gin1_cover (i : S80000x64.Idx) :
    ∃ t : Fin cfg1.N, (cfg1.win 8).flush t = true ∧ i ∈ ((cfg1.win 8).blk t).view.set := by
  have hi0 : (i 0).val < 80000 := (i 0).isLt
  have hi1 : (i 1).val < 64 := (i 1).isLt
  have hN : cfg1.N = 25 := N_1
  obtain ⟨t, ht⟩ : ∃ t : Fin cfg1.N, t.val = (i 0).val / 3200 := ⟨⟨(i 0).val / 3200, by rw [hN]; omega⟩, rfl⟩
  obtain ⟨-, -, -, -, -, -, -, -, -, -, -, -, -, -, -, -, e0, e1⟩ := gin1_idx t
  refine ⟨t, flush1_8 t, ?_⟩
  rw [gin1_mem_blk]
  intro a
  match a with
  | ⟨0, _⟩ => show win1_8.index t (0 : Fin 2) * 3200 ≤ (i 0).val ∧ (i 0).val < win1_8.index t (0 : Fin 2) * 3200 + 3200; omega
  | ⟨1, _⟩ => show win1_8.index t (1 : Fin 2) * 64 ≤ (i 1).val ∧ (i 1).val < win1_8.index t (1 : Fin 2) * 64 + 64; omega

/-- THE RESULT ARRAY after the region: the GIN layer of the feature array and the aggregate array, a row at a time. -/
theorem region1_arr (c : Dev nD) : (dat1 (F := Ideal) V c).arrAt 8 cfg1.N
    = Cert.Spec.ginArr (Cert.Spec.mat (V c main_v37)) (Cert.Spec.row (V c main_v40)) (Cert.Spec.row (V c main_v43))
        (Cert.Spec.row (V c main_v46)) (Cert.Spec.mat (V c main_v48)) (Cert.Spec.row (V c main_v51)) (V c main_v31) (V c main_v35) :=
  (dat1 (F := Ideal) V c).arrAt_eq_of_cover 8 (gin1_G V c) (fun t _ => gin1_flushed V c t) gin1_cover

end Cert.KernelIdeal.Regions

end
-- ==== Proof.KLayer1.lean ====
/-
  The features after layer 1 of the kernel program: region 1's output array at its exit is the layer function of
  the features before it and of their neighbour sum. The region's windows are read back one by one: the feature
  window to the region before (carried across the two stretches in between), the aggregate window to the scatter-add
  of the rows gathered from those features, the parameter windows to layer 1's slices of the arguments and rows of
  the folded scale and shift.
-/
import proofs.«427193_j25417616458217_1_alg».proof.Proof.KValue
import proofs.«427193_j25417616458217_1_alg».proof.Proof.KTake1
import proofs.«427193_j25417616458217_1_alg».proof.Proof.KScat1
import proofs.«427193_j25417616458217_1_alg».proof.Proof.KGin1

set_option maxRecDepth 16384

noncomputable section

namespace Cert.KernelIdeal.Value

open Cert.KernelIdeal Cert.KernelIdeal.Gen Cert.KernelIdeal.Host Cert.KernelIdeal.Regions Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The features after layer 1: region 1's output array at its exit. -/
theorem feat2 (hin : SrcInRange m c) :
    (W7 (F := Ideal) m ρ c (Proc.devRef .tc main_v52) : Vec Ideal S80000x64 .f32) = layerK m ρ c 1 (layerK m ρ c 0 (xA m c)) := by
  have hsrc : (W4 (F := Ideal) m ρ c (Proc.devRef .tc main_v1) : IVec S1280000 32) = srcA m ρ c := (v1_4 m ρ c)
  have eg : (W5 (F := Ideal) m ρ c (Proc.devRef .tc main_v32) : Vec Ideal S1280000x64 .f32) = gatherK (layerK m ρ c 0 (xA m c)) (srcA m ρ c) :=
    (take1 (W4 (F := Ideal) m ρ c) (fun e => by rw [hsrc]; exact srcA_in m ρ c hin e)).trans (congrArg₂ gatherK (feat1 m ρ c hin) hsrc)
  exact (W7_arr (F := Ideal) m ρ c 8).trans ((region1_arr (V6 (F := Ideal) m ρ) c).trans (gin_of_reads m ρ c 1
    ((w1_1 (W5 (F := Ideal) m ρ c)).trans (by rw [a3_5 m ρ c]))
    ((b1_1 (W5 (F := Ideal) m ρ c)).trans (by rw [a4_5 m ρ c]))
    ((sc_1 (W5 (F := Ideal) m ρ c)).trans (funext fun k => by rw [v8_5 m ρ c]; exact scale0 (W0 (F := Ideal) m ρ c) 1 k))
    ((sh_1 (W5 (F := Ideal) m ρ c)).trans (funext fun k => by rw [v10_5 m ρ c]; exact shift0 (W0 (F := Ideal) m ρ c) 1 k))
    ((w2_1 (W5 (F := Ideal) m ρ c)).trans (by rw [a9_5 m ρ c]))
    ((b2_1 (W5 (F := Ideal) m ρ c)).trans (by rw [a10_5 m ρ c]))
    ((v31_6 m ρ c).trans (feat1 m ρ c hin))
    ((agg1 (W5 (F := Ideal) m ρ c)).trans (congrArg₂ scatterK (v3_5 m ρ c) eg))))

end Cert.KernelIdeal.Value

end
-- ==== Proof.KTake2.lean ====
import proofs.«427193_j25417616458217_1_alg».proof.Proof.KTake0

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL.Sem

/-! ## The stretch's result -/

section Stretch

variable (W : Valuation τ sig (Elt Ideal))

/-- The features, read at their array type, are what the valuation holds. -/
theorem ofBuf_v52 : ((.of main_v52 : StableHlo.TRef sig ⟨S80000x64, .f32⟩)).ofBuf (W (Proc.devRef .tc main_v52))
    = (W (Proc.devRef .tc main_v52) : Vec Ideal S80000x64 .f32) := rfl

/-- The gathered rows, stored at their array type, are the rows. -/
theorem toBuf_v53 (v : Vec Ideal S1280000x64 .f32) :
    ((.of main_v53 : StableHlo.TRef sig ⟨S1280000x64, .f32⟩)).toBuf v = v := rfl

set_option maxHeartbeats 1000000 in
/-- From any valuation whose sources all lie in [0, 80000), the stretch leaves in its result the gather of the
    features it was handed along those sources: each operation's value is read off in order, every intermediate is
    read back at the type it was stored at, and what remains is the masked gather of `take_pure`. -/
theorem take2
    (hin : ∀ e : Fin 1280000, 0 ≤ ((W (Proc.devRef .tc main_v1) : IVec S1280000 32) (ix1 e)).toInt
      ∧ ((W (Proc.devRef .tc main_v1) : IVec S1280000 32) (ix1 e)).toInt < 80000) :
    (StableHlo.after (hostOps2 (F := Ideal)) W (Proc.devRef .tc main_v53) : Vec Ideal S1280000x64 .f32)
      = gatherK (W (Proc.devRef .tc main_v52)) (W (Proc.devRef .tc main_v1)) := by
  open StableHlo in after_results_simp
  repeat rw [ofBuf_toBuf]
  rw [ofBuf_v1 W, ofBuf_v52 W, toBuf_v53]
  exact take_pure _ _ hin

end Stretch

end Cert.KernelIdeal.Host
-- ==== Proof.KScat2.lean ====
import proofs.«427193_j25417616458217_1_alg».proof.Proof.KScat0
import proofs.«427193_j25417616458217_1_alg».proof.Proof.Gen.KernelIdeal.Launch
import proofs.«427193_j25417616458217_1_alg».proof.Proof.Spec
import Idealize.ShloMosaic.Lib.StableHlo.Run
import Idealize.ShloMosaic.Lib.Pipeline.Value
import Idealize.ShloMosaic.Lib.ValueLayout

/-! # The host stretch before GIN layer 2: the neighbour sum and the layer's parameters

Before the layer's kernel runs, host operations prepare its operands from what is already in the buffers:

* the NEIGHBOUR SUM: an all-zero [80000, 64] array into which row `e` of the gathered edge rows [1280000, 64] is
  added at the row named by the edge's target `dst e` (a scatter-add along the targets, the target vector first
  written as a column [1280000, 1]);
* the layer's PARAMETERS: block 2 of each stacked parameter array. A weight stack [3, 64, 64] is cut to [1, 64, 64]
  and its unit axis dropped, so entry (k, j) of the result is entry (2, k, j) of the stack. A bias or batch-norm
  stack [3, 64] is cut to [1, 64], flattened to [64] and written as a row [1, 64] again, so column k of the result is
  entry (2, k) of the stack.

Each result below is the contents of one buffer after the stretch, as a function of the contents before it, whatever
those are. The scatter-add is never opened: it is kept as one named function of the targets and the edge rows. -/

noncomputable section

namespace Cert.KernelIdeal.Host

open Cert.KernelIdeal Cert.KernelIdeal.Gen
open Idealize.ShloMosaic Idealize.ShloMosaic.TcCoe Idealize.ShloMosaic.ValueIdx

section Layer

variable (W : Valuation τ sig (Elt Ideal))

/-- The layer's neighbour sum: the scatter-add of the gathered edge rows along the edges' targets. -/
theorem agg2 :
    (StableHlo.after (hostOps2_1 (F := Ideal)) W (Proc.devRef .tc main_v56) : Vec Ideal S80000x64 .f32)
      = scatterK (W (Proc.devRef .tc main_v3)) (W (Proc.devRef .tc main_v53)) := by
  after_results
  rfl

/-- The layer's first weight matrix: its block of the stacked first weights. -/
theorem w1_2 :
    Cert.Spec.mat (StableHlo.after (hostOps2_1 (F := Ideal)) W (Proc.devRef .tc main_v58) : Vec Ideal S64x64 .f32)
      = fun k j => (W (Proc.devRef .tc main_arg3) : Vec Ideal S3x64x64 .f32) (ix3 2 k j) := by
  after_results
  exact mat_block _ _ _ _ (2 : Fin 3) rfl

/-- The layer's first bias: its row of the stacked first biases. -/
theorem b1_2 :
    Cert.Spec.row (StableHlo.after (hostOps2_1 (F := Ideal)) W (Proc.devRef .tc main_v61) : Vec Ideal S1x64 .f32)
      = fun k => (W (Proc.devRef .tc main_arg4) : Vec Ideal S3x64 .f32) (ix2 2 k) := by
  after_results
  exact row_block _ _ _ _ _ (2 : Fin 3) rfl

/-- The layer's batch-norm scale: its row of the folded scales. -/
theorem sc_2 :
    Cert.Spec.row (StableHlo.after (hostOps2_1 (F := Ideal)) W (Proc.devRef .tc main_v64) : Vec Ideal S1x64 .f32)
      = fun k => (W (Proc.devRef .tc main_v8) : Vec Ideal S3x64 .f32) (ix2 2 k) := by
  after_results
  exact row_block _ _ _ _ _ (2 : Fin 3) rfl

/-- The layer's batch-norm shift: its row of the folded shifts. -/
theorem sh_2 :
    Cert.Spec.row (StableHlo.after (hostOps2_1 (F := Ideal)) W (Proc.devRef .tc main_v67) : Vec Ideal S1x64 .f32)
      = fun k => (W (Proc.devRef .tc main_v10) : Vec Ideal S3x64 .f32) (ix2 2 k) := by
  after_results
  exact row_block _ _ _ _ _ (2 : Fin 3) rfl

/-- The layer's second weight matrix: its block of the stacked second weights. -/
theorem w2_2 :
    Cert.Spec.mat (StableHlo.after (hostOps2_1 (F := Ideal)) W (Proc.devRef .tc main_v69) : Vec Ideal S64x64 .f32)
      = fun k j => (W (Proc.devRef .tc main_arg9) : Vec Ideal S3x64x64 .f32) (ix3 2 k j) := by
  after_results
  exact mat_block _ _ _ _ (2 : Fin 3) rfl

/-- The layer's second bias: its row of the stacked second biases. -/
theorem b2_2 :
    Cert.Spec.row (StableHlo.after (hostOps2_1 (F := Ideal)) W (Proc.devRef .tc main_v72) : Vec Ideal S1x64 .f32)
      = fun k => (W (Proc.devRef .tc main_arg10) : Vec Ideal S3x64 .f32) (ix2 2 k) := by
  after_results
  exact row_block _ _ _ _ _ (2 : Fin 3) rfl

end Layer

end Cert.KernelIdeal.Host

end
-- ==== Proof.KGin2.lean ====
/-
  A GIN layer of the network, from blocks to the whole array.

  The 80000 node rows are cut into 25 blocks of 3200 rows; grid point t holds rows 3200 t … 3200 t + 3199 of the feature
  array and of the neighbour-aggregate array, and the two weight matrices and the bias, scale and shift rows whole. A
  node's new row depends on its own row and its own aggregate only (the two products contract the 64 features inside one
  row), so the block a point computes is the same rows of ONE function of the whole arrays: the layer applied a row at
  a time. The 25 blocks tile the result array, and every point writes its block back; so the array ends holding that
  function.
-/
import proofs.«427193_j25417616458217_1_alg».proof.Proof.KGinPay
import proofs.«427193_j25417616458217_1_alg».proof.Proof.Gen.KernelIdeal.Frame
import Idealize.ShloMosaic.Lib.Pipeline.Value

noncomputable section

namespace Cert.KernelIdeal.Regions

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The layer's block at an index -/

/-- Entry (p, q) of the layer's result block is the GIN row map of row p of the feature block and of the aggregate
    block, read at q: every step of the body acts inside one row. -/
theorem gin2_pay (h a : Vec Ideal S3200x64 .f32) (w1 : Vec Ideal S64x64 .f32) (b1 sc sh : Vec Ideal S1x64 .f32)
    (w2 : Vec Ideal S64x64 .f32) (b2 : Vec Ideal S1x64 .f32) (p : Fin 3200) (q : Fin 64) :
    k2_pay1 (F := Ideal) h a w1 b1 sc sh w2 b2 (ix2 p q)
      = Cert.Spec.ginRow (fun k => h (ix2 p k)) (fun k => a (ix2 p k)) (Cert.Spec.mat w1) (Cert.Spec.row b1)
          (Cert.Spec.row sc) (Cert.Spec.row sh) (Cert.Spec.mat w2) (Cert.Spec.row b2) q := by
  unfold k2_pay1
  simp only [maximumf_apply, addf_apply, mulf_apply, truncf_apply, broadcast_apply, shapeCast_self, rowdot_apply,
    rowbc_apply, relu_zero]
  rfl

/-! ## The blocks, read off the arrays -/

/-- The body loads and stores whole staging buffers: offset zero on both axes. -/
theorem gin2_hz : (![0, 0] : Fin 2 → Nat) = fun _ => 0 := funext fun a => by fin_cases a <;> rfl

/-- The block indices at grid point t, decided over the 25 points: the two feature windows and the result window sit at
    row block t, column block 0; the weight matrices and the bias, scale and shift rows are one block, the whole array,
    at every point. -/
theorem gin2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row p of the feature block at point t is row 3200 t + p of the feature array. -/
theorem gin2_rows_h (c : Dev nD) (t : Fin cfg2.N) (p : Fin 3200) (k : Fin 64) (r : Fin 80000) (hr : r.val = 3200 * t.val + p.val) :
    (iblk2 V c 0 t : Vec Ideal S3200x64 .f32) (ix2 p k) = (V c main_v52 : S80000x64.Idx → EReal) (ix2 r k) := by
  obtain ⟨e0, e1, -⟩ := gin2_idx t
  show V c main_v52 (((cfg2.win 0).blk t).view.emb (ix2 p k)) = V c main_v52 (ix2 r k)
  refine congrArg _ (funext fun a => Fin.ext ?_)
  match a with
  | ⟨0, _⟩ => show win2_0.index t (0 : Fin 2) * 3200 + 1 * p.val = r.val; omega
  | ⟨1, _⟩ => show win2_0.index t (1 : Fin 2) * 64 + 1 * k.val = k.val; omega

/-- Row p of the aggregate block at point t is row 3200 t + p of the aggregate array. -/
theorem gin2_rows_a (c : Dev nD) (t : Fin cfg2.N) (p : Fin 3200) (k : Fin 64) (r : Fin 80000) (hr : r.val = 3200 * t.val + p.val) :
    (iblk2 V c 1 t : Vec Ideal S3200x64 .f32) (ix2 p k) = (V c main_v56 : S80000x64.Idx → EReal) (ix2 r k) := by
  obtain ⟨-, -, e0, e1, -⟩ := gin2_idx t
  show V c main_v56 (((cfg2.win 1).blk t).view.emb (ix2 p k)) = V c main_v56 (ix2 r k)
  refine congrArg _ (funext fun a => Fin.ext ?_)
  match a with
  | ⟨0, _⟩ => show win2_1.index t (0 : Fin 2) * 3200 + 1 * p.val = r.val; omega
  | ⟨1, _⟩ => show win2_1.index t (1 : Fin 2) * 64 + 1 * k.val = k.val; omega

/-- The first weight matrix's window is the whole matrix at every point. -/
theorem gin2_w1 (c : Dev nD) (t : Fin cfg2.N) :
    (iblk2 V c 2 t : Vec Ideal S64x64 .f32) = (V c main_v58 : S64x64.Idx → EReal) := by
  obtain ⟨-, -, -, -, e0, e1, -⟩ := gin2_idx t
  funext y
  show V c main_v58 (((cfg2.win 2).blk t).view.emb y) = V c main_v58 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The first bias row's window is the whole row at every point. -/
theorem gin2_b1 (c : Dev nD) (t : Fin cfg2.N) :
    (iblk2 V c 3 t : Vec Ideal S1x64 .f32) = (V c main_v61 : S1x64.Idx → EReal) := by
  obtain ⟨-, -, -, -, -, -, e0, e1, -⟩ := gin2_idx t
  funext y
  show V c main_v61 (((cfg2.win 3).blk t).view.emb y) = V c main_v61 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The scale row's window is the whole row at every point. -/
theorem gin2_sc (c : Dev nD) (t : Fin cfg2.N) :
    (iblk2 V c 4 t : Vec Ideal S1x64 .f32) = (V c main_v64 : S1x64.Idx → EReal) := by
  obtain ⟨-, -, -, -, -, -, -, -, e0, e1, -⟩ := gin2_idx t
  funext y
  show V c main_v64 (((cfg2.win 4).blk t).view.emb y) = V c main_v64 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The shift row's window is the whole row at every point. -/
theorem gin2_sh (c : Dev nD) (t : Fin cfg2.N) :
    (iblk2 V c 5 t : Vec Ideal S1x64 .f32) = (V c main_v67 : S1x64.Idx → EReal) := by
  obtain ⟨-, -, -, -, -, -, -, -, -, -, e0, e1, -⟩ := gin2_idx t
  funext y
  show V c main_v67 (((cfg2.win 5).blk t).view.emb y) = V c main_v67 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The second weight matrix's window is the whole matrix at every point. -/
theorem gin2_w2 (c : Dev nD) (t : Fin cfg2.N) :
    (iblk2 V c 6 t : Vec Ideal S64x64 .f32) = (V c main_v69 : S64x64.Idx → EReal) := by
  obtain ⟨-, -, -, -, -, -, -, -, -, -, -, -, e0, e1, -⟩ := gin2_idx t
  funext y
  show V c main_v69 (((cfg2.win 6).blk t).view.emb y) = V c main_v69 y
  refine congrArg _ (funext fun a => Fin.ext ?_)
  match a with
  | ⟨0, _⟩ => show win2_6.index t (0 : Fin 2) * 64 + 1 * (y 0).val = (y 0).val; omega
  | ⟨1, _⟩ => show win2_6.index t (1 : Fin 2) * 64 + 1 * (y 1).val = (y 1).val; omega

/-- The second bias row's window is the whole row at every point. -/
theorem gin2_b2 (c : Dev nD) (t : Fin cfg2.N) :
    (iblk2 V c 7 t : Vec Ideal S1x64 .f32) = (V c main_v72 : S1x64.Idx → EReal) := by
  obtain ⟨-, -, -, -, -, -, -, -, -, -, -, -, -, -, e0, e1, -⟩ := gin2_idx t
  funext y
  show V c main_v72 (((cfg2.win 7).blk t).view.emb y) = V c main_v72 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega

/-! ## From blocks to the array -/

/-- The layer on the whole arrays as the region finds them: each node's row through the GIN row map. -/
abbrev gin2_G (c : Dev nD) : S80000x64.Idx → EReal :=
  Cert.Spec.ginArr (Cert.Spec.mat (V c main_v58)) (Cert.Spec.row (V c main_v61)) (Cert.Spec.row (V c main_v64))
    (Cert.Spec.row (V c main_v67)) (Cert.Spec.mat (V c main_v69)) (Cert.Spec.row (V c main_v72)) (V c main_v52) (V c main_v56)

/-- What point t writes back is rows 3200 t … 3200 t + 3199 of the layer's result: the body's block at (p, q) is the row
    map of row p of the two input blocks, which are rows 3200 t + p of the two arrays, and the result block's (p, q) sits
    at (3200 t + p, q) of the result array. -/
theorem gin2_flushed (c : Dev nD) (t : Fin cfg2.N) :
    (dat2 (F := Ideal) V c).flushed 8 t = ((cfg2.win 8).blk t).view.read (Elt Ideal) (gin2_G V c) := by
  show (cfg2.win 8).cut (grid2.coords t) ((dat2 V c).after 8 t) = _
  rw [after2_8]
  unfold out2_8
  rw [View.canon_unit_zero gin2_hz]
  simp only [View.ld_unit_zero (S := S3200x64) gin2_hz, View.ld_unit_zero (S := S64x64) gin2_hz, View.ld_unit_zero (S := S1x64) gin2_hz]
  funext j
  obtain ⟨p, q, rfl⟩ : ∃ (p : Fin 3200) (q : Fin 64), j = ix2 p q := ⟨j 0, j 1, eq_ix2 j⟩
  have hN : cfg2.N = 25 := N_2
  have htN : t.val < 25 := hN ▸ t.isLt
  obtain ⟨r, hr⟩ : ∃ r : Fin 80000, r.val = 3200 * t.val + p.val := ⟨⟨3200 * t.val + p.val, by have := p.isLt; omega⟩, rfl⟩
  have hemb : ((cfg2.win 8).blk t).view.emb (ix2 p q) = ix2 r q := by
    obtain ⟨-, -, -, -, -, -, -, -, -, -, -, -, -, -, -, -, e0, e1⟩ := gin2_idx t
    refine funext fun a => Fin.ext ?_
    match a with
    | ⟨0, _⟩ => show win2_8.index t (0 : Fin 2) * 3200 + 1 * p.val = r.val; omega
    | ⟨1, _⟩ => show win2_8.index t (1 : Fin 2) * 64 + 1 * q.val = q.val; omega
  show k2_pay1 (F := Ideal) (iblk2 V c 0 t) (iblk2 V c 1 t) (iblk2 V c 2 t) (iblk2 V c 3 t) (iblk2 V c 4 t) (iblk2 V c 5 t) (iblk2 V c 6 t) (iblk2 V c 7 t) (ix2 p q)
      = gin2_G V c (((cfg2.win 8).blk t).view.emb (ix2 p q))
  rw [hemb]
  unfold gin2_G
  rw [Cert.Spec.ginArr_ix2]
  refine (gin2_pay (iblk2 V c 0 t) (iblk2 V c 1 t) (iblk2 V c 2 t) (iblk2 V c 3 t) (iblk2 V c 4 t) (iblk2 V c 5 t) (iblk2 V c 6 t) (iblk2 V c 7 t) p q).trans ?_
  rw [gin2_w1 V c t, gin2_b1 V c t, gin2_sc V c t, gin2_sh V c t, gin2_w2 V c t, gin2_b2 V c t,
    funext fun k => gin2_rows_h V c t p k r hr, funext fun k => gin2_rows_a V c t p k r hr]

/-- An index of the result array is in point t's block iff each coordinate is in the block's range on its axis. -/
theorem gin2_mem_blk (t : Fin cfg2.N) (i : S80000x64.Idx) :
    i ∈ ((cfg2.win 8).blk t).view.set ↔ ∀ a : Fin 2, win2_8.index t a * S3200x64.size a ≤ (i a).val ∧ (i a).val < win2_8.index t a * S3200x64.size a + S3200x64.size a := by
  show i ∈ ((View.whole main_v73).slice (win2_8.rect t)).set ↔ _
  rw [View.set_slice_whole, Rect.mem_set_unit]
  exact Iff.rfl

/-- The 25 row blocks tile the 80000 rows: row r lies in the block of point r / 3200, and every point writes back. -/
theorem gin2_cover (i : S80000x64.Idx) :
    ∃ t : Fin cfg2.N, (cfg2.win 8).flush t = true ∧ i ∈ ((cfg2.win 8).blk t).view.set := by
  have hi0 : (i 0).val < 80000 := (i 0).isLt
  have hi1 : (i 1).val < 64 := (i 1).isLt
  have hN : cfg2.N = 25 := N_2
  obtain ⟨t, ht⟩ : ∃ t : Fin cfg2.N, t.val = (i 0).val / 3200 := ⟨⟨(i 0).val / 3200, by rw [hN]; omega⟩, rfl⟩
  obtain ⟨-, -, -, -, -, -, -, -, -, -, -, -, -, -, -, -, e0, e1⟩ := gin2_idx t
  refine ⟨t, flush2_8 t, ?_⟩
  rw [gin2_mem_blk]
  intro a
  match a with
  | ⟨0, _⟩ => show win2_8.index t (0 : Fin 2) * 3200 ≤ (i 0).val ∧ (i 0).val < win2_8.index t (0 : Fin 2) * 3200 + 3200; omega
  | ⟨1, _⟩ => show win2_8.index t (1 : Fin 2) * 64 ≤ (i 1).val ∧ (i 1).val < win2_8.index t (1 : Fin 2) * 64 + 64; omega

/-- THE RESULT ARRAY after the region: the GIN layer of the feature array and the aggregate array, a row at a time. -/
theorem region2_arr (c : Dev nD) : (dat2 (F := Ideal) V c).arrAt 8 cfg2.N
    = Cert.Spec.ginArr (Cert.Spec.mat (V c main_v58)) (Cert.Spec.row (V c main_v61)) (Cert.Spec.row (V c main_v64))
        (Cert.Spec.row (V c main_v67)) (Cert.Spec.mat (V c main_v69)) (Cert.Spec.row (V c main_v72)) (V c main_v52) (V c main_v56) :=
  (dat2 (F := Ideal) V c).arrAt_eq_of_cover 8 (gin2_G V c) (fun t _ => gin2_flushed V c t) gin2_cover

end Cert.KernelIdeal.Regions

end
-- ==== Proof.KLayer2.lean ====
/-
  The features after layer 2 of the kernel program: region 2's output array at its exit is the layer function of
  the features before it and of their neighbour sum. The region's windows are read back one by one: the feature
  window to the region before (carried across the two stretches in between), the aggregate window to the scatter-add
  of the rows gathered from those features, the parameter windows to layer 2's slices of the arguments and rows of
  the folded scale and shift.
-/
import proofs.«427193_j25417616458217_1_alg».proof.Proof.KLayer1
import proofs.«427193_j25417616458217_1_alg».proof.Proof.KTake2
import proofs.«427193_j25417616458217_1_alg».proof.Proof.KScat2
import proofs.«427193_j25417616458217_1_alg».proof.Proof.KGin2

set_option maxRecDepth 16384

noncomputable section

namespace Cert.KernelIdeal.Value

open Cert.KernelIdeal Cert.KernelIdeal.Gen Cert.KernelIdeal.Host Cert.KernelIdeal.Regions Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The features after layer 2: region 2's output array at its exit. -/
theorem feat3 (hin : SrcInRange m c) :
    (W10 (F := Ideal) m ρ c (Proc.devRef .tc main_v73) : Vec Ideal S80000x64 .f32) = layerK m ρ c 2 (layerK m ρ c 1 (layerK m ρ c 0 (xA m c))) := by
  have hsrc : (W7 (F := Ideal) m ρ c (Proc.devRef .tc main_v1) : IVec S1280000 32) = srcA m ρ c := (v1_7 m ρ c)
  have eg : (W8 (F := Ideal) m ρ c (Proc.devRef .tc main_v53) : Vec Ideal S1280000x64 .f32) = gatherK (layerK m ρ c 1 (layerK m ρ c 0 (xA m c))) (srcA m ρ c) :=
    (take2 (W7 (F := Ideal) m ρ c) (fun e => by rw [hsrc]; exact srcA_in m ρ c hin e)).trans (congrArg₂ gatherK (feat2 m ρ c hin) hsrc)
  exact (W10_arr (F := Ideal) m ρ c 8).trans ((region2_arr (V9 (F := Ideal) m ρ) c).trans (gin_of_reads m ρ c 2
    ((w1_2 (W8 (F := Ideal) m ρ c)).trans (by rw [a3_8 m ρ c]))
    ((b1_2 (W8 (F := Ideal) m ρ c)).trans (by rw [a4_8 m ρ c]))
    ((sc_2 (W8 (F := Ideal) m ρ c)).trans (funext fun k => by rw [v8_8 m ρ c]; exact scale0 (W0 (F := Ideal) m ρ c) 2 k))
    ((sh_2 (W8 (F := Ideal) m ρ c)).trans (funext fun k => by rw [v10_8 m ρ c]; exact shift0 (W0 (F := Ideal) m ρ c) 2 k))
    ((w2_2 (W8 (F := Ideal) m ρ c)).trans (by rw [a9_8 m ρ c]))
    ((b2_2 (W8 (F := Ideal) m ρ c)).trans (by rw [a10_8 m ρ c]))
    ((v52_9 m ρ c).trans (feat2 m ρ c hin))
    ((agg2 (W8 (F := Ideal) m ρ c)).trans (congrArg₂ scatterK (v3_8 m ρ c) eg))))

end Cert.KernelIdeal.Value

end
-- ==== Proof.KHost3.lean ====
import proofs.«427193_j25417616458217_1_alg».proof.Proof.Gen.KernelIdeal.Launch
import proofs.«427193_j25417616458217_1_alg».proof.Proof.Spec
import Idealize.ShloMosaic.Lib.StableHlo.Run
import Idealize.ShloMosaic.Lib.Pipeline.Value
import Idealize.ShloMosaic.Lib.ValueLayout

/-! # The host stretch before the perceptron: its two biases written as rows

The perceptron's two biases arrive as 64-vectors; the host writes each as a [1, 64] row before the kernel reads it.
A reshape keeps the row-major position of every entry, and position k of the vector is position (0, k) of the row,
so column k of each row is entry k of its vector. Stated for whatever the buffers hold before the stretch. -/

noncomputable section

namespace Cert.KernelIdeal.Host

open Cert.KernelIdeal Cert.KernelIdeal.Gen
open Idealize.ShloMosaic Idealize.ShloMosaic.TcCoe Idealize.ShloMosaic.ValueIdx

/-- A 64-vector written as a [1, 64] row: column k of the row is entry k of the vector. -/
theorem row_of_vec (x : (⟨1, ![64]⟩ : Shape).Idx → EReal) (h : (⟨1, ![64]⟩ : Shape).ShapeCasts ⟨2, ![1, 64]⟩) :
    Cert.Spec.row (shapeCast ⟨2, ![1, 64]⟩ x h) = fun k => x (ix1 k) := by
  funext k
  show shapeCast ⟨2, ![1, 64]⟩ x h (ix2 0 k) = x (ix1 k)
  exact shapeCast_a_1a_apply x h 0 k

variable (W : Valuation τ sig (Elt Ideal))

/-- The perceptron's first bias as a row. -/
theorem bm1r :
    Cert.Spec.row (StableHlo.after (hostOps3 (F := Ideal)) W (Proc.devRef .tc main_v74) : Vec Ideal S1x64 .f32)
      = fun k => (W (Proc.devRef .tc main_arg12) : Vec Ideal S64 .f32) (ix1 k) := by
  after_results
  exact row_of_vec _ _

/-- The perceptron's second bias as a row. -/
theorem bm2r :
    Cert.Spec.row (StableHlo.after (hostOps3 (F := Ideal)) W (Proc.devRef .tc main_v75) : Vec Ideal S1x64 .f32)
      = fun k => (W (Proc.devRef .tc main_arg14) : Vec Ideal S64 .f32) (ix1 k) := by
  after_results
  exact row_of_vec _ _

end Cert.KernelIdeal.Host

end
-- ==== Proof.KMlp.lean ====
/-
  THE PERCEPTRON REGION: what the fourth kernel region leaves in its result array.

  The region walks the 80000 node rows in 25 blocks of 3200 rows. At grid point t it holds rows 3200 t … 3200 t + 3199
  of the feature array, and the two [64, 64] matrices and the two [1, 64] bias rows whole; it computes, for the block,
      relu(x · W₁ + b₁) · W₂ + b₂
  and writes the block back to the same rows of the result array. Both products contract the 64 features inside ONE
  row, the bias rows are added to every row and the clamp acts entry by entry, so a node's new row depends on its own
  row only: the block a point computes is the same rows of ONE function of the whole feature array, the perceptron
  applied a row at a time. The 25 blocks tile the result array and every point writes its block back, so the array
  ends holding that function. Read over the extended reals a product accumulated into zeros is the bare sum over the
  contracted feature and the clamp's literal is the number 0: that is the specification's row map.
-/
import proofs.«427193_j25417616458217_1_alg».proof.Proof.Gen.KernelIdeal.Frame
import proofs.«427193_j25417616458217_1_alg».proof.Proof.Spec
import proofs.«427193_j25417616458217_1_alg».proof.Proof.KGinPay
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

namespace Mlp

/-! ## The perceptron's block at an entry -/

/-- Entry (p, q) of the block the body computes is the perceptron's row map of row p of the feature block, read at q:
    the first product contracts the 64 features of that one row against the first matrix, the bias row is added and
    the sum clamped below at zero; the second product contracts the 64 hidden features of the same row against the
    second matrix, and the second bias row is added. -/
theorem mlp_pay (x : Vec Ideal S3200x64 .f32) (w1 : Vec Ideal S64x64 .f32) (b1 : Vec Ideal S1x64 .f32)
    (w2 : Vec Ideal S64x64 .f32) (b2 : Vec Ideal S1x64 .f32) (p : Fin 3200) (q : Fin 64) :
    k3_pay1 (F := Ideal) x w1 b1 w2 b2 (ix2 p q)
      = Cert.Spec.mlpRow (fun k => x (ix2 p k)) (Cert.Spec.mat w1) (Cert.Spec.row b1) (Cert.Spec.mat w2) (Cert.Spec.row b2) q := by
  unfold k3_pay1
  simp only [shapeCast_self]
  rw [addf_apply, Pay.rowdot_apply, Pay.rowbc_apply]
  simp only [truncf_apply, maximumf_apply, addf_apply, broadcast_apply, Pay.rowdot_apply, Pay.rowbc_apply, Pay.relu_zero]
  rfl

/-! ## The blocks, read off the arrays -/

variable (V : (c : Dev nD) → (b : Ref sig .tc) → Buf (Elt Ideal) ((c : Thread nD τ).loc b))

/-- The body reads and writes its staging buffers whole: from the origin. -/
theorem origin : (![0, 0] : Fin 2 → Nat) = fun _ => 0 := funext fun a => by fin_cases a <;> rfl

/-- Where each window sits at grid point t, decided over the 25 points: the feature window and the result window at row
    block t, column block 0; the two matrices and the two bias rows at their one block, the whole array. -/
theorem blockIdx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the feature block at point t is row 3200 t + p of the feature array. -/
theorem rows_x (c : Dev nD) (t : Fin cfg3.N) (p : Fin 3200) (k : Fin 64) (r : Fin 80000) (hr : r.val = 3200 * t.val + p.val) :
    (iblk3 V c 0 t : Vec Ideal S3200x64 .f32) (ix2 p k) = (V c main_v73 : S80000x64.Idx → EReal) (ix2 r k) := by
  obtain ⟨e0, e1, -⟩ := blockIdx t
  show V c main_v73 (((cfg3.win 0).blk t).view.emb (ix2 p k)) = V c main_v73 (ix2 r k)
  refine congrArg _ (funext fun a => Fin.ext ?_)
  match a with
  | ⟨0, _⟩ => show win3_0.index t (0 : Fin 2) * 3200 + 1 * p.val = r.val; omega
  | ⟨1, _⟩ => show win3_0.index t (1 : Fin 2) * 64 + 1 * k.val = k.val; omega

/-- The first matrix's window is the whole matrix at every point. -/
theorem whole_w1 (c : Dev nD) (t : Fin cfg3.N) :
    (iblk3 V c 1 t : Vec Ideal S64x64 .f32) = (V c main_arg11 : S64x64.Idx → EReal) := by
  obtain ⟨-, -, e0, e1, -⟩ := blockIdx t
  funext y
  show V c main_arg11 (((cfg3.win 1).blk t).view.emb y) = V c main_arg11 y
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The first bias row's window is the whole row at every point. -/
theorem whole_b1 (c : Dev nD) (t : Fin cfg3.N) :
    (iblk3 V c 2 t : Vec Ideal S1x64 .f32) = (V c main_v74 : S1x64.Idx → EReal) := by
  obtain ⟨-, -, -, -, e0, e1, -⟩ := blockIdx t
  funext y
  show V c main_v74 (((cfg3.win 2).blk t).view.emb y) = V c main_v74 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The second matrix's window is the whole matrix at every point. -/
theorem whole_w2 (c : Dev nD) (t : Fin cfg3.N) :
    (iblk3 V c 3 t : Vec Ideal S64x64 .f32) = (V c main_arg13 : S64x64.Idx → EReal) := by
  obtain ⟨-, -, -, -, -, -, e0, e1, -⟩ := blockIdx t
  funext y
  show V c main_arg13 (((cfg3.win 3).blk t).view.emb y) = V c main_arg13 y
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- The second bias row's window is the whole row at every point. -/
theorem whole_b2 (c : Dev nD) (t : Fin cfg3.N) :
    (iblk3 V c 4 t : Vec Ideal S1x64 .f32) = (V c main_v75 : S1x64.Idx → EReal) := by
  obtain ⟨-, -, -, -, -, -, -, -, e0, e1, -⟩ := blockIdx t
  funext y
  show V c main_v75 (((cfg3.win 4).blk t).view.emb y) = V c main_v75 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-! ## From blocks to the array -/

/-- The perceptron on the whole feature array as the region finds it, a row at a time. -/
abbrev G (c : Dev nD) : S80000x64.Idx → EReal :=
  Cert.Spec.mlpArr (Cert.Spec.mat (V c main_arg11)) (Cert.Spec.row (V c main_v74)) (Cert.Spec.mat (V c main_arg13))
    (Cert.Spec.row (V c main_v75)) (V c main_v73)

/-- What point t writes back is rows 3200 t … 3200 t + 3199 of the perceptron's result: entry (p, q) of the body's block
    is the row map of row p of the feature block, which is row 3200 t + p of the feature array, and it lands at
    (3200 t + p, q) of the result array. -/
theorem flushed_rows (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero origin]
  simp only [View.ld_unit_zero (S := S3200x64) origin, View.ld_unit_zero (S := S64x64) origin, View.ld_unit_zero (S := S1x64) origin]
  funext j
  obtain ⟨p, q, rfl⟩ : ∃ (p : Fin 3200) (q : Fin 64), j = ix2 p q := ⟨j 0, j 1, eq_ix2 j⟩
  have hN : cfg3.N = 25 := N_3
  have htN : t.val < 25 := hN ▸ t.isLt
  obtain ⟨r, hr⟩ : ∃ r : Fin 80000, r.val = 3200 * t.val + p.val := ⟨⟨3200 * t.val + p.val, by have := p.isLt; omega⟩, rfl⟩
  have hemb : ((cfg3.win 5).blk t).view.emb (ix2 p q) = ix2 r q := by
    obtain ⟨-, -, -, -, -, -, -, -, -, -, e0, e1⟩ := blockIdx t
    refine funext fun a => Fin.ext ?_
    match a with
    | ⟨0, _⟩ => show win3_5.index t (0 : Fin 2) * 3200 + 1 * p.val = r.val; omega
    | ⟨1, _⟩ => show win3_5.index t (1 : Fin 2) * 64 + 1 * q.val = q.val; omega
  show k3_pay1 (F := Ideal) (iblk3 V c 0 t) (iblk3 V c 1 t) (iblk3 V c 2 t) (iblk3 V c 3 t) (iblk3 V c 4 t) (ix2 p q)
      = G V c (((cfg3.win 5).blk t).view.emb (ix2 p q))
  rw [hemb]
  unfold G
  rw [Cert.Spec.mlpArr_ix2]
  refine (mlp_pay (iblk3 V c 0 t) (iblk3 V c 1 t) (iblk3 V c 2 t) (iblk3 V c 3 t) (iblk3 V c 4 t) p q).trans ?_
  rw [whole_w1 V c t, whole_b1 V c t, whole_w2 V c t, whole_b2 V c t, funext fun k => rows_x V c t p k r hr]

/-- An entry of the result array is in point t's block iff each coordinate is in the block's range on its axis. -/
theorem mem_rows (t : Fin cfg3.N) (i : S80000x64.Idx) :
    i ∈ ((cfg3.win 5).blk t).view.set ↔ ∀ a : Fin 2, win3_5.index t a * S3200x64.size a ≤ (i a).val ∧ (i a).val < win3_5.index t a * S3200x64.size a + S3200x64.size a := by
  show i ∈ ((View.whole main_v76).slice (win3_5.rect t)).set ↔ _
  rw [View.set_slice_whole, Rect.mem_set_unit]
  exact Iff.rfl

/-- The 25 row blocks tile the 80000 rows: row r lies in the block of point r / 3200, and every point writes back. -/
theorem rows_cover (i : S80000x64.Idx) :
    ∃ t : Fin cfg3.N, (cfg3.win 5).flush t = true ∧ i ∈ ((cfg3.win 5).blk t).view.set := by
  have hi0 : (i 0).val < 80000 := (i 0).isLt
  have hi1 : (i 1).val < 64 := (i 1).isLt
  have hN : cfg3.N = 25 := N_3
  obtain ⟨t, ht⟩ : ∃ t : Fin cfg3.N, t.val = (i 0).val / 3200 := ⟨⟨(i 0).val / 3200, by rw [hN]; omega⟩, rfl⟩
  obtain ⟨-, -, -, -, -, -, -, -, -, -, e0, e1⟩ := blockIdx t
  refine ⟨t, flush3_5 t, ?_⟩
  rw [mem_rows]
  intro a
  match a with
  | ⟨0, _⟩ => show win3_5.index t (0 : Fin 2) * 3200 ≤ (i 0).val ∧ (i 0).val < win3_5.index t (0 : Fin 2) * 3200 + 3200; omega
  | ⟨1, _⟩ => show win3_5.index t (1 : Fin 2) * 64 ≤ (i 1).val ∧ (i 1).val < win3_5.index t (1 : Fin 2) * 64 + 64; omega

end Mlp

variable (V : (c : Dev nD) → (b : Ref sig .tc) → Buf (Elt Ideal) ((c : Thread nD τ).loc b))

/-- REGION 3's result array ends holding the perceptron of the feature array it was given, a row at a time, with the
    two matrices and the two bias rows it was given. -/
theorem region3_arr (c : Dev nD) : (dat3 (F := Ideal) V c).arrAt 5 cfg3.N
    = Cert.Spec.mlpArr (Cert.Spec.mat (V c main_arg11)) (Cert.Spec.row (V c main_v74)) (Cert.Spec.mat (V c main_arg13))
        (Cert.Spec.row (V c main_v75)) (V c main_v73) :=
  (dat3 (F := Ideal) V c).arrAt_eq_of_cover 5 (Mlp.G V c) (fun t _ => Mlp.flushed_rows V c t) Mlp.rows_cover

end Cert.KernelIdeal.Regions

end
-- ==== Proof.KPool.lean ====
/-
  THE POOLING REGION: what the last kernel region leaves in its result array.

  The region walks the 80000 node rows in 25 blocks of 3200. At every block it forms, for each graph g and feature j,
      ∑ p, [id p = g] * h (p, j)          (p over the block's 3200 rows)
  — a product of the transposed one-hot matrix of the block's graph ids with the block's features, contracting the
  rows — and adds it to ONE [128, 64] block that stays in place over the whole walk: zeroed before the first block,
  written back to the result array after the last. Read over the extended reals the one-hot entry is the real 1 or 0,
  so the product's term is the feature itself or nothing, and the sum has no order left in it.

  Three steps. (1) The accumulate step at an entry (g, j): the block's entry plus the sum, over the block's rows whose
  id is the word g, of feature j. (2) By induction on the block: after block n the entry holds the sum of the first
  n + 1 block sums — the zero plus block 0's, then one more each time. (3) The 25 block sums are the sum over all
  80000 rows, row 3200 s + p being row p of block s; that is the pooling of the specification, and the one write-back
  puts it over the whole result array.
-/
import proofs.«427193_j25417616458217_1_alg».proof.Proof.Gen.KernelIdeal.Frame
import proofs.«427193_j25417616458217_1_alg».proof.Proof.Spec
import Idealize.ShloMosaic.Lib.Pipeline.Value
import Idealize.ShloMosaic.Lib.ValueIdx
import Idealize.ShloMosaic.PureOps.Ideal.Laws
import Idealize.ShloMosaic.Lib.Tactic
import Mathlib.Logic.Equiv.Fin.Basic
import Mathlib.Data.Fintype.BigOperators
import Mathlib.Algebra.BigOperators.Fin

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

namespace Pool

/-! ## The accumulate step at an entry, over the extended reals -/

/-- The contraction of the step's product: the rows of both operands. -/
abbrev D4 := dot_S3200x128_S3200x64_S128x64_0_0_1_1_n_n

/-- "The two words are equal", as a bit, widened to a word and read as a signed integer, is the real 1 or 0. -/
theorem onehot_word (x y : BitVec 32) :
    ((((IntOp.cmpi .eq x y).setWidth 32).toInt : ℝ) : EReal) = if x = y then 1 else 0 := by
  by_cases h : x = y
  · rw [if_pos h, show IntOp.cmpi .eq x y = 1#1 from by simp [IntOp.cmpi, h]]
    simp
  · have e : IntOp.cmpi .eq x y = 0#1 := by
      show BitVec.ofBool (x == y) = 0#1
      rw [beq_eq_false_iff_ne.mpr h]; rfl
    rw [if_neg h, e]
    simp

/-- THE STEP. Entry (g, j) of the accumulated block `acc + onehotᵀ · h`: the block's entry plus the sum, over the rows
    `p` whose graph id is the word `g`, of `h (p, j)`. The product contracts the 3200 rows of both operands: its term
    at row `p` is (the one-hot entry (p, g)) * h (p, j); the one-hot entry compares row `p`'s id, repeated along the
    128 columns, with the column's number `g`, and is 1 or 0 accordingly, so the term is `h (p, j)` or `0`. -/
theorem pay2_apply (v3 : Vec Ideal S3200x64 .f32) (v6 : Vec Ideal S3200x1 .i32) (v16 : Vec Ideal S128x64 .f32)
    (g : Fin 128) (j : Fin 64) :
    k4_pay2 (F := Ideal) v3 v6 v16 (ix2 g j)
      = v16 (ix2 g j) + ∑ p : Fin 3200, (if v6 (ix2 p 0) = BitVec.ofNat 32 g.val then v3 (ix2 p j) else 0) := by
  unfold k4_pay2
  simp only [shapeCast_self]
  rw [addf_apply]
  simp only [matmul]
  rw [Ideal.matmul_constant_zero_apply, ← Equiv.sum_comp (contrEquiv1 D4 3200 rfl rfl).symm]
  congr 1
  refine Finset.sum_congr rfl fun p _ => ?_
  have c2 := contrEquiv1_symm_val D4 3200 rfl rfl p
  have l2 : D4.lhsIdx (ix2 g j) ((contrEquiv1 D4 3200 rfl rfl).symm p) = ix2 p g := by
    funext ax; apply Fin.ext
    match ax with
    | ⟨0, _⟩ => simp [DotDims.lhsIdx, D4, dot_S3200x128_S3200x64_S128x64_0_0_1_1_n_n]; exact c2
    | ⟨1, _⟩ => simp [DotDims.lhsIdx, D4, dot_S3200x128_S3200x64_S128x64_0_0_1_1_n_n]; rfl
  have r2 : D4.rhsIdx (ix2 g j) ((contrEquiv1 D4 3200 rfl rfl).symm p) = ix2 p j := by
    funext ax; apply Fin.ext
    match ax with
    | ⟨0, _⟩ => simp [DotDims.rhsIdx, D4, dot_S3200x128_S3200x64_S128x64_0_0_1_1_n_n]; exact c2
    | ⟨1, _⟩ => simp [DotDims.rhsIdx, D4, dot_S3200x128_S3200x64_S128x64_0_0_1_1_n_n]; rfl
  rw [l2, r2, truncf_apply, truncf_apply, sitofp_apply, extui_apply]
  show ((((IntOp.cmpi .eq (broadcastTo S3200x128 v6 broadcasts_S3200x1_S3200x128 (ix2 p g))
      (iota Kind.tc S3200x128 32 [1] iota_S3200x128_d1_w32 (ix2 p g))).setWidth 32).toInt : ℝ) : EReal) * v3 (ix2 p j) = _
  rw [broadcastTo_apply v6 broadcasts_S3200x1_S3200x128 (ix2 p g) (ix2 p 0)
      (fun a => by match a with | ⟨0, _⟩ => rfl | ⟨1, _⟩ => rfl),
    iota_single_apply, onehot_word]
  show (if v6 (ix2 p 0) = BitVec.ofNat 32 g.val then (1 : EReal) else 0) * v3 (ix2 p j) = _
  by_cases h : v6 (ix2 p 0) = BitVec.ofNat 32 g.val
  · rw [if_pos h, if_pos h, one_mul]
  · rw [if_neg h, if_neg h, zero_mul]

/-- The reset stores the real zero at every entry. -/
theorem pay1_apply (i : S128x64.Idx) : k4_pay1 (F := Ideal) i = 0 := by
  unfold k4_pay1
  show Ideal.ofBits .f32 0x00000000#32 = 0
  exact Ideal.ofBits_zero_f32

/-! ## What each case of the body leaves in the output block, for any float values -/

section AnyValues

variable {F : FTy → Type} [FloatOps F]

theorem hz : (![0, 0] : Fin 2 → Nat) = fun _ => 0 := funext fun a => by fin_cases a <;> rfl

/-- At a later point the body leaves the accumulate step of the two input blocks over what the block held. -/
theorem out_B (c : Dev nD) (i : grid4.Coords) (a1 : Memref sig .tc .vmem S3200x64 .f32) (h1 : a1.IsWhole)
    (a2 : Memref sig .tc .vmem S3200x1 .i32) (h2 : a2.IsWhole) (a3 : Memref sig .tc .vmem S128x64 .f32) (h3 : a3.IsWhole)
    (hc : ¬cond4_0 i) (x0 : Vec F S3200x64 .f32) (x1 : Vec F S3200x1 .i32) (xo : Vec F S128x64 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz]
  simp only [View.readAt_eq_ld, h1.read_unread, h2.read_unread, h3.read_unread, View.ld_unit_zero (S := S3200x64) hz,
    View.ld_unit_zero (S := S3200x1) hz, View.ld_unit_zero (S := S128x64) hz]

/-- At the first point the body stores the zero block, reads it back, and leaves the accumulate step over it. -/
theorem out_A (c : Dev nD) (i : grid4.Coords) (a1 : Memref sig .tc .vmem S3200x64 .f32) (h1 : a1.IsWhole)
    (a2 : Memref sig .tc .vmem S3200x1 .i32) (h2 : a2.IsWhole) (a3 : Memref sig .tc .vmem S128x64 .f32) (h3 : a3.IsWhole)
    (hc : cond4_0 i) (x0 : Vec F S3200x64 .f32) (x1 : Vec F S3200x1 .i32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S128x64) hz, View.readCov_unit_zero (S := S128x64) _ hz]
  simp only [View.readAt_eq_ld, h1.read_unread, h2.read_unread, View.ld_unit_zero (S := S3200x64) hz,
    View.ld_unit_zero (S := S3200x1) hz]

end AnyValues

/-! ## The walk over the blocks -/

variable (V : (c : Dev nD) → (b : Ref sig .tc) → Buf (Elt Ideal) ((c : Thread nD τ).loc b))

/-- The feature array and the graph-id column as the region finds them, and the blocks its two input windows read at
    a point. -/
abbrev harr (c : Dev nD) : Vec Ideal S80000x64 .f32 := V c main_v76
abbrev idarr (c : Dev nD) : Vec Ideal S80000x1 .i32 := V c main_v4
abbrev hblk (c : Dev nD) (t : Fin cfg4.N) : Vec Ideal S3200x64 .f32 := iblk4 V c 0 t
abbrev idblk (c : Dev nD) (t : Fin cfg4.N) : Vec Ideal S3200x1 .i32 := iblk4 V c 1 t

/-- Both input windows sit, at point `t`, at block row `t` and block column 0. -/
theorem index4 : ∀ t : Fin cfg4.N, win4_0.index t 0 = t.val ∧ win4_0.index t 1 = 0 ∧ win4_1.index t 0 = t.val ∧ win4_1.index t 1 = 0 :=
  (by decide +kernel : ∀ t : Fin grid4.N, win4_0.index t 0 = t.val ∧ win4_0.index t 1 = 0 ∧ win4_1.index t 0 = t.val ∧ win4_1.index t 1 = 0)

/-- Row `p` of the feature block at point `t` is row `3200 t + p` of the feature array. -/
theorem hblk_apply (c : Dev nD) (t : Fin cfg4.N) (p : Fin 3200) (j : Fin 64) (r : Fin 80000) (hr : r.val = 3200 * t.val + p.val) :
    hblk V c t (ix2 p j) = harr V c (ix2 r j) := by
  have hi := index4 t
  unfold hblk iblk4
  rw [View.read_apply]
  show V c main_v76 _ = V c main_v76 _
  congr 1
  funext a
  apply Fin.ext
  match a with
  | ⟨0, _⟩ => show win4_0.index t 0 * 3200 + 1 * p.val = r.val; rw [hi.1, hr]; omega
  | ⟨1, _⟩ => show win4_0.index t 1 * 64 + 1 * j.val = j.val; rw [hi.2.1]; omega

/-- Row `p` of the id block at point `t` is row `3200 t + p` of the id column. -/
theorem idblk_apply (c : Dev nD) (t : Fin cfg4.N) (p : Fin 3200) (r : Fin 80000) (hr : r.val = 3200 * t.val + p.val) :
    idblk V c t (ix2 p 0) = idarr V c (ix2 r 0) := by
  have hi := index4 t
  unfold idblk iblk4
  rw [View.read_apply]
  show V c main_v4 _ = V c main_v4 _
  congr 1
  funext a
  apply Fin.ext
  match a with
  | ⟨0, _⟩ => show win4_1.index t 0 * 3200 + 1 * p.val = r.val; rw [hi.2.2.1, hr]; omega
  | ⟨1, _⟩ => show win4_1.index t 1 * 1 + 1 * 0 = 0; rw [hi.2.2.2]

/-- Row `r`'s contribution to entry (g, j) of the pooled array: its feature j if its graph id is the word g, else nothing. -/
def term (c : Dev nD) (g : Fin 128) (j : Fin 64) (r : Fin 80000) : EReal :=
  if idarr V c (ix2 r 0) = BitVec.ofNat 32 g.val then harr V c (ix2 r j) else 0

/-- The contributions of the 3200 rows of block `s` (rows 3200 s … 3200 s + 3199), summed; nothing past the 25 blocks. -/
def blockSum (c : Dev nD) (g : Fin 128) (j : Fin 64) (s : ℕ) : EReal :=
  if h : s < 25 then ∑ p : Fin 3200, term V c g j ⟨3200 * s + p.val, by have := p.isLt; omega⟩ else 0

/-- What the accumulate step adds at point `t` is block `t`'s sum: each block row read at its place in the arrays. -/
theorem step_eq (c : Dev nD) (t : Fin cfg4.N) (g : Fin 128) (j : Fin 64) :
    (∑ p : Fin 3200, (if idblk V c t (ix2 p 0) = BitVec.ofNat 32 g.val then hblk V c t (ix2 p j) else 0))
      = blockSum V c g j t.val := by
  have hN : t.val < 25 := lt_of_lt_of_eq t.isLt (show cfg4.N = 25 from N_4)
  unfold blockSum
  rw [dif_pos hN]
  refine Finset.sum_congr rfl fun p _ => ?_
  unfold term
  rw [idblk_apply V c t p ⟨3200 * t.val + p.val, by have := p.isLt; omega⟩ rfl,
    hblk_apply V c t p j ⟨3200 * t.val + p.val, by have := p.isLt; omega⟩ rfl]

/-- THE INVARIANT: after point `n` entry (g, j) of the output block holds the sum of the block sums 0 … n — the reset's
    zero plus block 0's at the first point, one more block's added at each later one. -/
theorem outsAt_eq (c : Dev nD) (g : Fin 128) (j : Fin 64) :
    ∀ (n : ℕ) (hn : n < cfg4.N), outsAt4 V c n hn (ix2 g j) = ∑ s ∈ Finset.range (n + 1), blockSum V c g j s
  | 0, hn => by
    rw [outsAt4_A V c ⟨0, hn⟩ (Nat.zero_mod 25)]
    refine (congrFun (out_A (F := Ideal) c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) ((hcond4_0 ⟨0, hn⟩).mpr (Nat.zero_mod 25)) (hblk V c ⟨0, hn⟩) (idblk V c ⟨0, hn⟩)) (ix2 g j)).trans ?_
    rw [pay2_apply, pay1_apply, zero_add, step_eq, Finset.sum_range_one]
  | n + 1, hn => by
    have hN : cfg4.N = 25 := N_4
    have hB : ¬(⟨n + 1, hn⟩ : Fin cfg4.N).val % 25 = 0 := by dsimp only; omega
    rw [outsAt4_B V c ⟨n + 1, hn⟩ hB]
    dsimp only
    refine (congrFun (out_B (F := Ideal) c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (fun h => hB ((hcond4_0 ⟨n + 1, hn⟩).mp h)) (hblk V c ⟨n + 1, hn⟩) (idblk V c ⟨n + 1, hn⟩)
      (outsAt4 V c n (Nat.lt_of_succ_lt hn))) (ix2 g j)).trans ?_
    rw [pay2_apply, step_eq, outsAt_eq c g j n (Nat.lt_of_succ_lt hn), Finset.sum_range_succ _ (n + 1)]

/-- The 25 block sums are the sum over all 80000 rows: row `3200 s + p` is row `p` of block `s`, and the pairs (s, p)
    are in bijection with the rows. -/
theorem sum_blocks (c : Dev nD) (g : Fin 128) (j : Fin 64) :
    ∑ s ∈ Finset.range 25, blockSum V c g j s = ∑ r : Fin 80000, term V c g j r := by
  rw [Finset.sum_range]
  have e : ∀ s : Fin 25, blockSum V c g j s.val = ∑ p : Fin 3200, term V c g j (finProdFinEquiv (s, p)) := fun s => by
    unfold blockSum
    rw [dif_pos s.isLt]
    refine Finset.sum_congr rfl fun p _ => congrArg (term V c g j) (Fin.ext ?_)
    show 3200 * s.val + p.val = p.val + 3200 * s.val
    omega
  rw [Finset.sum_congr rfl fun s _ => e s, ← Fintype.sum_prod_type']
  exact Fintype.sum_equiv finProdFinEquiv _ _ fun _ => rfl

/-- What the region leaves in its result array: the pooling of the feature array by the graph-id column. -/
abbrev result (c : Dev nD) : Buf (Elt Ideal) ((c : Thread nD τ).loc main_v77) :=
  Cert.Spec.pool (harr V c) (Cert.Spec.col (idarr V c))

/-- The last point. -/
def tLast : Fin cfg4.N := ⟨24, by rw [show cfg4.N = 25 from N_4]; decide⟩

/-- After the last point the output block holds the sum over every row: the pooled array. -/
theorem last_eq (c : Dev nD) : outsAt4 V c tLast.val tLast.isLt = result V c := by
  funext i
  obtain ⟨g, j, rfl⟩ : ∃ (g : Fin 128) (j : Fin 64), i = ix2 g j := ⟨i 0, i 1, eq_ix2 i⟩
  refine (outsAt_eq V c g j 24 tLast.isLt).trans ?_
  rw [sum_blocks]
  rfl

/-- The output window's block at the last point starts at the array's origin and has the array's extents. -/
theorem whole_last : ∀ a : Fin 2, win4_2.index tLast a * win4_2.size a = 0 ∧ win4_2.xsize (grid4.coords tLast) a = S128x64.size a := by
  decide +kernel

/-- The one write-back, at the last point, writes the pooled array: the block at the origin with the array's extents,
    read back, is the array. -/
theorem flushed_eq (c : Dev nD) (t : Fin cfg4.N) (hf : (cfg4.win 2).flush t = true) :
    (dat4 (F := Ideal) V c).flushed 2 t = ((cfg4.win 2).blk t).view.read (Elt Ideal) (result V c) := by
  have hN : cfg4.N = 25 := N_4
  have h24 : t.val = 24 := by have := (flush4_2 t).mp hf; have := t.isLt; omega
  obtain rfl : t = tLast := Fin.ext h24
  show (cfg4.win 2).cut (grid4.coords tLast) ((dat4 (F := Ideal) V c).after 2 tLast) = _
  rw [after4_2, last_eq]
  have hz' : (fun a => win4_2.index tLast a * main_v77.ty.shape.size a) = fun _ => 0 := funext fun a => (whole_last a).1
  exact (Memref.read_access_unit_zero (Elt Ideal) main_v77 hz' (fun a => by rw [congrFun hz' a]; simp) (result V c)).symm

/-- Every entry of the result array lies in the last point's block. -/
theorem cover_last (i : S128x64.Idx) : i ∈ ((cfg4.win 2).blk tLast).view.set := by
  show i ∈ ((View.whole main_v77).slice (win4_2.rect tLast)).set
  rw [View.set_slice_whole, Rect.mem_set_unit]
  intro a
  show win4_2.index tLast a * win4_2.size a ≤ (i a : Nat) ∧ (i a : Nat) < win4_2.index tLast a * win4_2.size a + win4_2.xsize (grid4.coords tLast) a
  rw [(whole_last a).1, (whole_last a).2, Nat.zero_add]
  exact ⟨Nat.zero_le _, (i a).isLt⟩

end Pool

variable (V : (c : Dev nD) → (b : Ref sig .tc) → Buf (Elt Ideal) ((c : Thread nD τ).loc b))

/-- REGION 4's result array ends holding the pooling of the feature array it was given by the graph-id column it was
    given: the one write-back covers the array and writes the sum over all rows. -/
theorem region4_arr (c : Dev nD) :
    (dat4 (F := Ideal) V c).arrAt 2 cfg4.N = Cert.Spec.pool (V c main_v76) (Cert.Spec.col (V c main_v4)) :=
  (dat4 (F := Ideal) V c).arrAt_eq_of_cover 2 (Pool.result V c) (Pool.flushed_eq V c) fun i =>
    ⟨Pool.tLast, (flush4_2 Pool.tLast).mpr rfl, Pool.cover_last i⟩

end Cert.KernelIdeal.Regions

end
-- ==== Proof.KOut.lean ====
/-
  The kernel program's result: the perceptron region's output array is the perceptron of the third layer's features,
  and the pooling region's output array, which is the result buffer, the pooling of that by the graph ids.
-/
import proofs.«427193_j25417616458217_1_alg».proof.Proof.KLayer2
import proofs.«427193_j25417616458217_1_alg».proof.Proof.KHost3
import proofs.«427193_j25417616458217_1_alg».proof.Proof.KMlp
import proofs.«427193_j25417616458217_1_alg».proof.Proof.KPool

set_option maxRecDepth 16384

noncomputable section

namespace Cert.KernelIdeal.Value

open Cert.KernelIdeal Cert.KernelIdeal.Gen Cert.KernelIdeal.Host Cert.KernelIdeal.Regions Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The perceptron region's result array. -/
theorem feat4 (hin : SrcInRange m c) :
    (W12 (F := Ideal) m ρ c (Proc.devRef .tc main_v76) : Vec Ideal S80000x64 .f32)
      = Cert.Spec.mlpArr (Cert.Spec.mat (a11 m c)) (fun k => a12 m c (ix1 k)) (Cert.Spec.mat (a13 m c)) (fun k => a14 m c (ix1 k)) (layerK m ρ c 2 (layerK m ρ c 1 (layerK m ρ c 0 (xA m c)))) := by
  have e11 : (V11 (F := Ideal) m ρ c main_arg11 : Vec Ideal S64x64 .f32) = a11 m c := a11_11 m ρ c
  have e13 : (V11 (F := Ideal) m ρ c main_arg13 : Vec Ideal S64x64 .f32) = a13 m c := a13_11 m ρ c
  have e74 : Cert.Spec.row (V11 (F := Ideal) m ρ c main_v74 : Vec Ideal S1x64 .f32) = fun k => a12 m c (ix1 k) :=
    (bm1r (W10 (F := Ideal) m ρ c)).trans (by rw [a12_10 m ρ c])
  have e75 : Cert.Spec.row (V11 (F := Ideal) m ρ c main_v75 : Vec Ideal S1x64 .f32) = fun k => a14 m c (ix1 k) :=
    (bm2r (W10 (F := Ideal) m ρ c)).trans (by rw [a14_10 m ρ c])
  have eh : (V11 (F := Ideal) m ρ c main_v73 : Vec Ideal S80000x64 .f32) = layerK m ρ c 2 (layerK m ρ c 1 (layerK m ρ c 0 (xA m c))) := (v73_11 m ρ c).trans (feat3 m ρ c hin)
  refine (W12_arr (F := Ideal) m ρ c 5).trans ((region3_arr (V11 (F := Ideal) m ρ) c).trans ?_)
  rw [e11, e13, e74, e75, eh]

/-- THE KERNEL PROGRAM'S RESULT: the network of `Cert.Spec.out` over the neighbour sum `aggK`. -/
theorem kernel_value (hin : SrcInRange m c) :
    (W13 (F := Ideal) m ρ c (Proc.devRef .tc main_v77) : Vec Ideal S128x64 .f32)
      = Cert.Spec.out (aggK m ρ c) (xA m c)
          (fun l k j => a3 m c (ix3 l k j)) (fun l k => a4 m c (ix2 l k)) (Cert.Spec.scaleAt (a5 m c) (a8 m c)) (Cert.Spec.shiftAt (a5 m c) (a6 m c) (a7 m c) (a8 m c))
          (fun l k j => a9 m c (ix3 l k j)) (fun l k => a10 m c (ix2 l k))
          (Cert.Spec.mat (a11 m c)) (fun k => a12 m c (ix1 k)) (Cert.Spec.mat (a13 m c)) (fun k => a14 m c (ix1 k))
          (fun r => a2 m c (ix1 r)) := by
  have e76 : (V12 (F := Ideal) m ρ c main_v76 : Vec Ideal S80000x64 .f32) = _ := feat4 m ρ c hin
  have e4 : Cert.Spec.col (V12 (F := Ideal) m ρ c main_v4 : IVec S80000x1 32) = fun r => a2 m c (ix1 r) := by
    rw [show (V12 (F := Ideal) m ρ c main_v4 : IVec S80000x1 32) = W1 (F := Ideal) m ρ c (Proc.devRef .tc main_v4) from v4_12 m ρ c]
    exact bid0 (W0 (F := Ideal) m ρ c)
  refine (W13_arr (F := Ideal) m ρ c 2).trans ((region4_arr (V12 (F := Ideal) m ρ) c).trans ?_)
  rw [e76, e4]
  rfl

end Cert.KernelIdeal.Value

end
-- ==== Proof.RAgg.lean ====
/-
  The neighbour sum of the reference's three GIN layers, carried as ONE function of a feature array and the edge
  list: the rows of the features gathered along the edges' sources, then added up at the edges' targets into an
  array of zeros. Each layer rebuilds the two index columns (sources wrapped into range, targets) and the array of
  zeros from the same edge list by the same operations, so the three neighbour sums are this one function at the
  layer's input features. Nothing here opens the gather or the scatter-add.
-/
import proofs.«427193_j25417616458217_1_alg».proof.Proof.Gen.ReferenceIdeal.Read

noncomputable section

namespace Cert.ReferenceIdeal.Layers

open Cert.ReferenceIdeal Cert.ReferenceIdeal.Gen Cert.ReferenceIdeal.Read Idealize.ShloMosaic

/-- The neighbour sum of the features h along the edge list e. -/
def aggR (h : Vec Ideal S80000x64 .f32) (e : IVec S2x1280000 32) : Vec Ideal S80000x64 .f32 :=
  Host.scatterAdd (F := Ideal) (φ := .f32) scatter_S80000x64_S1280000x1_S1280000x64_1_0_0_1 (val_main_v11 (F := Ideal))
    (val_main_v12 (F := Ideal) e)
    (Host.gather gather_S80000x64_S1280000x1_S1280000x64_1_0_n_n_0_1_164 h (val_main_v9 (F := Ideal) e))

variable (x0 : Vec Ideal S80000x64 .f32) (x1 : IVec S2x1280000 32)
  (x3 : Vec Ideal S3x64x64 .f32) (x4 x5 x6 x7 x8 : Vec Ideal S3x64 .f32)
  (x9 : Vec Ideal S3x64x64 .f32) (x10 : Vec Ideal S3x64 .f32)

/-- Layer 0's neighbour sum is that function of the input features. -/
theorem agg0 : val_main_v13 (F := Ideal) x0 x1 = aggR x0 x1 := by
  unfold val_main_v13 val_main_v10 aggR
  rfl

/-- Layer 1 wraps the sources into range by the same compare, add and select as layer 0. -/
theorem src1 : val_main_v59 (F := Ideal) x1 = val_main_v9 (F := Ideal) x1 := by
  unfold val_main_v59 val_main_v9 val_main_v58 val_main_v8 val_main_v55 val_main_v5 val_main_v57 val_main_v7
    val_main_v54 val_main_v4 val_main_v56 val_main_v6 val_main_c_2 val_main_c val_main_c_3 val_main_c_0
  rfl

/-- Layer 1 adds into the same array of zeros … -/
theorem zeros1 : val_main_v61 (F := Ideal) = val_main_v11 (F := Ideal) := by
  unfold val_main_v61 val_main_v11 val_main_cst_4 val_main_cst
  rfl

/-- … at the same targets. -/
theorem tgt1 : val_main_v62 (F := Ideal) x1 = val_main_v12 (F := Ideal) x1 := by
  unfold val_main_v62 val_main_v12
  rfl

/-- Layer 1's neighbour sum is the same function, of layer 0's output. -/
theorem agg1 : val_main_v63 (F := Ideal) x0 x1 x3 x4 x5 x6 x7 x8 x9 x10
    = aggR (val_main_v53 (F := Ideal) x0 x1 x3 x4 x5 x6 x7 x8 x9 x10) x1 := by
  unfold val_main_v63 val_main_v60 aggR
  rw [src1, zeros1, tgt1]

/-- Layer 2 wraps the sources into range by the same compare, add and select as layer 0. -/
theorem src2 : val_main_v109 (F := Ideal) x1 = val_main_v9 (F := Ideal) x1 := by
  unfold val_main_v109 val_main_v9 val_main_v108 val_main_v8 val_main_v105 val_main_v5 val_main_v107 val_main_v7
    val_main_v104 val_main_v4 val_main_v106 val_main_v6 val_main_c_6 val_main_c val_main_c_7 val_main_c_0
  rfl

/-- Layer 2 adds into the same array of zeros … -/
theorem zeros2 : val_main_v111 (F := Ideal) = val_main_v11 (F := Ideal) := by
  unfold val_main_v111 val_main_v11 val_main_cst_8 val_main_cst
  rfl

/-- … at the same targets. -/
theorem tgt2 : val_main_v112 (F := Ideal) x1 = val_main_v12 (F := Ideal) x1 := by
  unfold val_main_v112 val_main_v12
  rfl

/-- Layer 2's neighbour sum is the same function, of layer 1's output. -/
theorem agg2 : val_main_v113 (F := Ideal) x0 x1 x3 x4 x5 x6 x7 x8 x9 x10
    = aggR (val_main_v103 (F := Ideal) x0 x1 x3 x4 x5 x6 x7 x8 x9 x10) x1 := by
  unfold val_main_v113 val_main_v110 aggR
  rw [src2, zeros2, tgt2]

end Cert.ReferenceIdeal.Layers

end
-- ==== Proof.RLayers.lean ====
/-
  Layer 0 of the reference's three GIN layers, read off its host operations as the specification's row-at-a-time
  layer.

  A node's row plus its neighbour sum goes through W₁[0] (a contraction over the 64 features) and gains b₁[0]; the
  batch-norm step subtracts the running mean, multiplies by γ[0] / √(v[0] + ε) and adds β[0], which under real
  batch-norm parameters is the affine map z ↦ z * scale + shift; a maximum with zero; then W₂[0], b₂[0] and a second
  maximum with zero. Each parameter reaches the [80000, 64] array through a slice of its layer, a reshape and
  broadcasts along the rows: read at (r, j) it is the parameter at (layer, j), or at (layer, k, j) for a matrix.
  The neighbour sum is carried as one function of the layer's input features and the edge list and is not opened.
-/
import proofs.«427193_j25417616458217_1_alg».proof.Proof.RAgg
import proofs.«427193_j25417616458217_1_alg».proof.Proof.Spec

noncomputable section

namespace Cert.ReferenceIdeal.Layers

open Cert.ReferenceIdeal Cert.ReferenceIdeal.Gen Cert.ReferenceIdeal.Read Idealize.ShloMosaic Idealize.ShloMosaic.ValueIdx

variable (x0 : Vec Ideal S80000x64 .f32) (x1 : IVec S2x1280000 32)
  (x3 : Vec Ideal S3x64x64 .f32) (x4 x5 x6 x7 x8 : Vec Ideal S3x64 .f32)
  (x9 : Vec Ideal S3x64x64 .f32) (x10 : Vec Ideal S3x64 .f32)

namespace L0

/-! ### The layer's parameters at an index -/

/-- W₁[0] at (k, j), as the first contraction reads it. -/
theorem w1_at (r : Fin 80000) (j k : Fin 64) :
    val_main_v16 (F := Ideal) x3 (ridx_main_v17 (ix2 r j) k) = x3 (ix3 0 k j) := by
  rw [val_main_v16_apply, val_main_v15_apply]
  refine congrArg x3 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- W₂[0] at (k, j), as the second contraction reads it. -/
theorem w2_at (r : Fin 80000) (j k : Fin 64) :
    val_main_v46 (F := Ideal) x9 (ridx_main_v47 (ix2 r j) k) = x9 (ix3 0 k j) := by
  rw [val_main_v46_apply, val_main_v45_apply]
  refine congrArg x9 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- b₁[0] broadcast along the rows. -/
theorem b1_at (r : Fin 80000) (j : Fin 64) : val_main_v21 (F := Ideal) x4 (ix2 r j) = x4 (ix2 0 j) := by
  rw [val_main_v21_apply, val_main_v20_apply, val_main_v19_apply, val_main_v18_apply]
  refine congrArg x4 (funext fun a => Fin.ext ?_)
  have hj := j.isLt
  match a with
  | ⟨0, _⟩ => rfl
  | ⟨1, _⟩ => show j.val % 64 = j.val; omega

/-- The running mean [0] broadcast along the rows. -/
theorem mean_at (r : Fin 80000) (j : Fin 64) : val_main_v26 (F := Ideal) x7 (ix2 r j) = x7 (ix2 0 j) := by
  rw [val_main_v26_apply, val_main_v25_apply, val_main_v24_apply, val_main_v23_apply]
  refine congrArg x7 (funext fun a => Fin.ext ?_)
  have hj := j.isLt
  match a with
  | ⟨0, _⟩ => rfl
  | ⟨1, _⟩ => show j.val % 64 = j.val; omega

/-- β[0] broadcast along the rows. -/
theorem beta_at (r : Fin 80000) (j : Fin 64) : val_main_v42 (F := Ideal) x6 (ix2 r j) = x6 (ix2 0 j) := by
  rw [val_main_v42_apply, val_main_v41_apply, val_main_v40_apply, val_main_v39_apply]
  refine congrArg x6 (funext fun a => Fin.ext ?_)
  have hj := j.isLt
  match a with
  | ⟨0, _⟩ => rfl
  | ⟨1, _⟩ => show j.val % 64 = j.val; omega

/-- b₂[0] broadcast along the rows. -/
theorem b2_at (r : Fin 80000) (j : Fin 64) : val_main_v51 (F := Ideal) x10 (ix2 r j) = x10 (ix2 0 j) := by
  rw [val_main_v51_apply, val_main_v50_apply, val_main_v49_apply, val_main_v48_apply]
  refine congrArg x10 (funext fun a => Fin.ext ?_)
  have hj := j.isLt
  match a with
  | ⟨0, _⟩ => rfl
  | ⟨1, _⟩ => show j.val % 64 = j.val; omega

/-- γ[0] / √(v[0] + ε) broadcast along the rows: the folded scale. -/
theorem scale_at (r : Fin 80000) (j : Fin 64) :
    val_main_v37 (F := Ideal) x5 x8 (ix2 r j) = Cert.Spec.scaleAt x5 x8 0 j := by
  have eg : idx_main_v28 (idx_main_v29 (idx_main_v36 (idx_main_v37 (ix2 r j)))) = ix2 (0 : Fin 3) j :=
    funext fun a => Fin.ext (by
      have hj := j.isLt
      match a with
      | ⟨0, _⟩ => rfl
      | ⟨1, _⟩ => show j.val % 64 = j.val; omega)
  have ev : idx_main_v30 (idx_main_v31 (idx_main_v36 (idx_main_v37 (ix2 r j)))) = ix2 (0 : Fin 3) j :=
    funext fun a => Fin.ext (by
      have hj := j.isLt
      match a with
      | ⟨0, _⟩ => rfl
      | ⟨1, _⟩ => show j.val % 64 = j.val; omega)
  rw [val_main_v37_apply, val_main_v36_apply, val_main_v35_apply, val_main_v29_apply, val_main_v28_apply,
    val_main_v34_apply, val_main_v33_apply, val_main_v31_apply, val_main_v30_apply, val_main_v32_apply,
    val_main_cst_1_apply, eg, ev]
  rfl

/-- The zero the first maximum is taken with. -/
theorem zero_a (i : S80000x64.Idx) : val_main_call0_v0 (F := Ideal) i = 0 := by
  rw [val_main_call0_v0_apply, val_main_call0_cst_apply]
  exact Ideal.ofBits_zero_f32

/-- The zero the second maximum is taken with. -/
theorem zero_b (i : S80000x64.Idx) : val_main_call1_v0 (F := Ideal) i = 0 := by
  rw [val_main_call1_v0_apply, val_main_call1_cst_apply]
  exact Ideal.ofBits_zero_f32

/-- The first contraction reads row r of its left operand. -/
theorem lrow_a (r : Fin 80000) (j k : Fin 64) : lidx_main_v17 (ix2 r j) k = ix2 r k :=
  funext fun a => Fin.ext (by
    match a with
    | ⟨0, _⟩ => rfl
    | ⟨1, _⟩ => rfl)

/-- The second contraction reads row r of its left operand. -/
theorem lrow_b (r : Fin 80000) (j k : Fin 64) : lidx_main_v47 (ix2 r j) k = ix2 r k :=
  funext fun a => Fin.ext (by
    match a with
    | ⟨0, _⟩ => rfl
    | ⟨1, _⟩ => rfl)

/-! ### The layer at a node and a feature -/

/-- The hidden row: the first product plus bias through the batch-norm step, then the maximum with zero. -/
theorem hidden_at (hbn : Cert.Spec.BNReal x5 x6 x7 x8) (r : Fin 80000) (k : Fin 64) :
    val_main_v44 (F := Ideal) x0 x1 x3 x4 x5 x6 x7 x8 (ix2 r k)
      = max (Cert.Spec.dense (fun k' => x0 (ix2 r k') + aggR x0 x1 (ix2 r k')) (fun k j => x3 (ix3 0 k j))
              (fun k => x4 (ix2 0 k)) k * Cert.Spec.scaleAt x5 x8 0 k + Cert.Spec.shiftAt x5 x6 x7 x8 0 k) 0 := by
  have hs : (∑ k' : Fin 64, val_main_v14 (F := Ideal) x0 x1 (lidx_main_v17 (ix2 r k) k')
        * val_main_v16 (F := Ideal) x3 (ridx_main_v17 (ix2 r k) k'))
      = ∑ k' : Fin 64, (x0 (ix2 r k') + aggR x0 x1 (ix2 r k')) * x3 (ix3 0 k' k) :=
    Finset.sum_congr rfl fun k' _ => by
      rw [lrow_a, w1_at, val_main_v14_apply, agg0, Ideal.addf_def]
  rw [val_main_v44_apply, val_main_v43_apply, val_main_v38_apply, val_main_v27_apply, val_main_v22_apply,
    val_main_v17_apply, hs, b1_at, mean_at, scale_at, beta_at, zero_a,
    Ideal.maximumf_def, Ideal.addf_def, Ideal.mulf_def, Ideal.subf_def, Ideal.addf_def,
    Cert.Spec.bn_fold hbn]
  rfl

end L0

/-- Layer 0 of the reference is the specification's layer on its input features and their neighbour sum. -/
theorem layer0 (hbn : Cert.Spec.BNReal x5 x6 x7 x8) :
    val_main_v53 (F := Ideal) x0 x1 x3 x4 x5 x6 x7 x8 x9 x10
      = Cert.Spec.ginArr (fun k j => x3 (ix3 0 k j)) (fun k => x4 (ix2 0 k)) (Cert.Spec.scaleAt x5 x8 0)
          (Cert.Spec.shiftAt x5 x6 x7 x8 0) (fun k j => x9 (ix3 0 k j)) (fun k => x10 (ix2 0 k)) x0 (aggR x0 x1) := by
  funext i
  obtain ⟨r, j, rfl⟩ : ∃ (r : Fin 80000) (j : Fin 64), i = ix2 r j := ⟨i 0, i 1, eq_ix2 i⟩
  have hs : (∑ k : Fin 64, val_main_v44 (F := Ideal) x0 x1 x3 x4 x5 x6 x7 x8 (lidx_main_v47 (ix2 r j) k)
        * val_main_v46 (F := Ideal) x9 (ridx_main_v47 (ix2 r j) k))
      = ∑ k : Fin 64, max (Cert.Spec.dense (fun k' => x0 (ix2 r k') + aggR x0 x1 (ix2 r k')) (fun k j => x3 (ix3 0 k j))
              (fun k => x4 (ix2 0 k)) k * Cert.Spec.scaleAt x5 x8 0 k + Cert.Spec.shiftAt x5 x6 x7 x8 0 k) 0
          * x9 (ix3 0 k j) :=
    Finset.sum_congr rfl fun k _ => by
      rw [L0.lrow_b, L0.w2_at, L0.hidden_at (hbn := hbn)]
  rw [Cert.Spec.ginArr_ix2, val_main_v53_apply, val_main_v52_apply, val_main_v47_apply, hs, L0.b2_at, L0.zero_b,
    Ideal.maximumf_def, Ideal.addf_def]
  rfl

end Cert.ReferenceIdeal.Layers

end
-- ==== Proof.RLayer1.lean ====
/-
  Layer 1 of the reference's three GIN layers, read off its host operations as the specification's row-at-a-time
  layer.

  A node's row plus its neighbour sum goes through W₁[1] (a contraction over the 64 features) and gains b₁[1]; the
  batch-norm step subtracts the running mean, multiplies by γ[1] / √(v[1] + ε) and adds β[1], which under real
  batch-norm parameters is the affine map z ↦ z * scale + shift; a maximum with zero; then W₂[1], b₂[1] and a second
  maximum with zero. Each parameter reaches the [80000, 64] array through a slice of its layer, a reshape and
  broadcasts along the rows: read at (r, j) it is the parameter at (layer, j), or at (layer, k, j) for a matrix.
  The neighbour sum is carried as one function of the layer's input features and the edge list and is not opened.
-/
import proofs.«427193_j25417616458217_1_alg».proof.Proof.RAgg
import proofs.«427193_j25417616458217_1_alg».proof.Proof.Spec

noncomputable section

namespace Cert.ReferenceIdeal.Layers

open Cert.ReferenceIdeal Cert.ReferenceIdeal.Gen Cert.ReferenceIdeal.Read Idealize.ShloMosaic Idealize.ShloMosaic.ValueIdx

variable (x0 : Vec Ideal S80000x64 .f32) (x1 : IVec S2x1280000 32)
  (x3 : Vec Ideal S3x64x64 .f32) (x4 x5 x6 x7 x8 : Vec Ideal S3x64 .f32)
  (x9 : Vec Ideal S3x64x64 .f32) (x10 : Vec Ideal S3x64 .f32)

namespace L1

/-! ### The layer's parameters at an index -/

/-- W₁[1] at (k, j), as the first contraction reads it. -/
theorem w1_at (r : Fin 80000) (j k : Fin 64) :
    val_main_v66 (F := Ideal) x3 (ridx_main_v67 (ix2 r j) k) = x3 (ix3 1 k j) := by
  rw [val_main_v66_apply, val_main_v65_apply]
  refine congrArg x3 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- W₂[1] at (k, j), as the second contraction reads it. -/
theorem w2_at (r : Fin 80000) (j k : Fin 64) :
    val_main_v96 (F := Ideal) x9 (ridx_main_v97 (ix2 r j) k) = x9 (ix3 1 k j) := by
  rw [val_main_v96_apply, val_main_v95_apply]
  refine congrArg x9 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- b₁[1] broadcast along the rows. -/
theorem b1_at (r : Fin 80000) (j : Fin 64) : val_main_v71 (F := Ideal) x4 (ix2 r j) = x4 (ix2 1 j) := by
  rw [val_main_v71_apply, val_main_v70_apply, val_main_v69_apply, val_main_v68_apply]
  refine congrArg x4 (funext fun a => Fin.ext ?_)
  have hj := j.isLt
  match a with
  | ⟨0, _⟩ => rfl
  | ⟨1, _⟩ => show j.val % 64 = j.val; omega

/-- The running mean [1] broadcast along the rows. -/
theorem mean_at (r : Fin 80000) (j : Fin 64) : val_main_v76 (F := Ideal) x7 (ix2 r j) = x7 (ix2 1 j) := by
  rw [val_main_v76_apply, val_main_v75_apply, val_main_v74_apply, val_main_v73_apply]
  refine congrArg x7 (funext fun a => Fin.ext ?_)
  have hj := j.isLt
  match a with
  | ⟨0, _⟩ => rfl
  | ⟨1, _⟩ => show j.val % 64 = j.val; omega

/-- β[1] broadcast along the rows. -/
theorem beta_at (r : Fin 80000) (j : Fin 64) : val_main_v92 (F := Ideal) x6 (ix2 r j) = x6 (ix2 1 j) := by
  rw [val_main_v92_apply, val_main_v91_apply, val_main_v90_apply, val_main_v89_apply]
  refine congrArg x6 (funext fun a => Fin.ext ?_)
  have hj := j.isLt
  match a with
  | ⟨0, _⟩ => rfl
  | ⟨1, _⟩ => show j.val % 64 = j.val; omega

/-- b₂[1] broadcast along the rows. -/
theorem b2_at (r : Fin 80000) (j : Fin 64) : val_main_v101 (F := Ideal) x10 (ix2 r j) = x10 (ix2 1 j) := by
  rw [val_main_v101_apply, val_main_v100_apply, val_main_v99_apply, val_main_v98_apply]
  refine congrArg x10 (funext fun a => Fin.ext ?_)
  have hj := j.isLt
  match a with
  | ⟨0, _⟩ => rfl
  | ⟨1, _⟩ => show j.val % 64 = j.val; omega

/-- γ[1] / √(v[1] + ε) broadcast along the rows: the folded scale. -/
theorem scale_at (r : Fin 80000) (j : Fin 64) :
    val_main_v87 (F := Ideal) x5 x8 (ix2 r j) = Cert.Spec.scaleAt x5 x8 1 j := by
  have eg : idx_main_v78 (idx_main_v79 (idx_main_v86 (idx_main_v87 (ix2 r j)))) = ix2 (1 : Fin 3) j :=
    funext fun a => Fin.ext (by
      have hj := j.isLt
      match a with
      | ⟨0, _⟩ => rfl
      | ⟨1, _⟩ => show j.val % 64 = j.val; omega)
  have ev : idx_main_v80 (idx_main_v81 (idx_main_v86 (idx_main_v87 (ix2 r j)))) = ix2 (1 : Fin 3) j :=
    funext fun a => Fin.ext (by
      have hj := j.isLt
      match a with
      | ⟨0, _⟩ => rfl
      | ⟨1, _⟩ => show j.val % 64 = j.val; omega)
  rw [val_main_v87_apply, val_main_v86_apply, val_main_v85_apply, val_main_v79_apply, val_main_v78_apply,
    val_main_v84_apply, val_main_v83_apply, val_main_v81_apply, val_main_v80_apply, val_main_v82_apply,
    val_main_cst_5_apply, eg, ev]
  rfl

/-- The zero the first maximum is taken with. -/
theorem zero_a (i : S80000x64.Idx) : val_main_call2_v0 (F := Ideal) i = 0 := by
  rw [val_main_call2_v0_apply, val_main_call2_cst_apply]
  exact Ideal.ofBits_zero_f32

/-- The zero the second maximum is taken with. -/
theorem zero_b (i : S80000x64.Idx) : val_main_call3_v0 (F := Ideal) i = 0 := by
  rw [val_main_call3_v0_apply, val_main_call3_cst_apply]
  exact Ideal.ofBits_zero_f32

/-- The first contraction reads row r of its left operand. -/
theorem lrow_a (r : Fin 80000) (j k : Fin 64) : lidx_main_v67 (ix2 r j) k = ix2 r k :=
  funext fun a => Fin.ext (by
    match a with
    | ⟨0, _⟩ => rfl
    | ⟨1, _⟩ => rfl)

/-- The second contraction reads row r of its left operand. -/
theorem lrow_b (r : Fin 80000) (j k : Fin 64) : lidx_main_v97 (ix2 r j) k = ix2 r k :=
  funext fun a => Fin.ext (by
    match a with
    | ⟨0, _⟩ => rfl
    | ⟨1, _⟩ => rfl)

/-! ### The layer at a node and a feature -/

/-- The hidden row: the first product plus bias through the batch-norm step, then the maximum with zero. -/
theorem hidden_at (hbn : Cert.Spec.BNReal x5 x6 x7 x8) (r : Fin 80000) (k : Fin 64) :
    val_main_v94 (F := Ideal) x0 x1 x3 x4 x5 x6 x7 x8 x9 x10 (ix2 r k)
      = max (Cert.Spec.dense (fun k' => val_main_v53 (F := Ideal) x0 x1 x3 x4 x5 x6 x7 x8 x9 x10 (ix2 r k') + aggR (val_main_v53 (F := Ideal) x0 x1 x3 x4 x5 x6 x7 x8 x9 x10) x1 (ix2 r k')) (fun k j => x3 (ix3 1 k j))
              (fun k => x4 (ix2 1 k)) k * Cert.Spec.scaleAt x5 x8 1 k + Cert.Spec.shiftAt x5 x6 x7 x8 1 k) 0 := by
  have hs : (∑ k' : Fin 64, val_main_v64 (F := Ideal) x0 x1 x3 x4 x5 x6 x7 x8 x9 x10 (lidx_main_v67 (ix2 r k) k')
        * val_main_v66 (F := Ideal) x3 (ridx_main_v67 (ix2 r k) k'))
      = ∑ k' : Fin 64, (val_main_v53 (F := Ideal) x0 x1 x3 x4 x5 x6 x7 x8 x9 x10 (ix2 r k') + aggR (val_main_v53 (F := Ideal) x0 x1 x3 x4 x5 x6 x7 x8 x9 x10) x1 (ix2 r k')) * x3 (ix3 1 k' k) :=
    Finset.sum_congr rfl fun k' _ => by
      rw [lrow_a, w1_at, val_main_v64_apply, agg1, Ideal.addf_def]
  rw [val_main_v94_apply, val_main_v93_apply, val_main_v88_apply, val_main_v77_apply, val_main_v72_apply,
    val_main_v67_apply, hs, b1_at, mean_at, scale_at, beta_at, zero_a,
    Ideal.maximumf_def, Ideal.addf_def, Ideal.mulf_def, Ideal.subf_def, Ideal.addf_def,
    Cert.Spec.bn_fold hbn]
  rfl

end L1

/-- Layer 1 of the reference is the specification's layer on layer 0's output and its neighbour sum. -/
theorem layer1 (hbn : Cert.Spec.BNReal x5 x6 x7 x8) :
    val_main_v103 (F := Ideal) x0 x1 x3 x4 x5 x6 x7 x8 x9 x10
      = Cert.Spec.ginArr (fun k j => x3 (ix3 1 k j)) (fun k => x4 (ix2 1 k)) (Cert.Spec.scaleAt x5 x8 1)
          (Cert.Spec.shiftAt x5 x6 x7 x8 1) (fun k j => x9 (ix3 1 k j)) (fun k => x10 (ix2 1 k)) (val_main_v53 (F := Ideal) x0 x1 x3 x4 x5 x6 x7 x8 x9 x10) (aggR (val_main_v53 (F := Ideal) x0 x1 x3 x4 x5 x6 x7 x8 x9 x10) x1) := by
  funext i
  obtain ⟨r, j, rfl⟩ : ∃ (r : Fin 80000) (j : Fin 64), i = ix2 r j := ⟨i 0, i 1, eq_ix2 i⟩
  have hs : (∑ k : Fin 64, val_main_v94 (F := Ideal) x0 x1 x3 x4 x5 x6 x7 x8 x9 x10 (lidx_main_v97 (ix2 r j) k)
        * val_main_v96 (F := Ideal) x9 (ridx_main_v97 (ix2 r j) k))
      = ∑ k : Fin 64, max (Cert.Spec.dense (fun k' => val_main_v53 (F := Ideal) x0 x1 x3 x4 x5 x6 x7 x8 x9 x10 (ix2 r k') + aggR (val_main_v53 (F := Ideal) x0 x1 x3 x4 x5 x6 x7 x8 x9 x10) x1 (ix2 r k')) (fun k j => x3 (ix3 1 k j))
              (fun k => x4 (ix2 1 k)) k * Cert.Spec.scaleAt x5 x8 1 k + Cert.Spec.shiftAt x5 x6 x7 x8 1 k) 0
          * x9 (ix3 1 k j) :=
    Finset.sum_congr rfl fun k _ => by
      rw [L1.lrow_b, L1.w2_at, L1.hidden_at (hbn := hbn)]
  rw [Cert.Spec.ginArr_ix2, val_main_v103_apply, val_main_v102_apply, val_main_v97_apply, hs, L1.b2_at, L1.zero_b,
    Ideal.maximumf_def, Ideal.addf_def]
  rfl

end Cert.ReferenceIdeal.Layers

end
-- ==== Proof.RLayer2.lean ====
/-
  Layer 2 of the reference's three GIN layers, read off its host operations as the specification's row-at-a-time
  layer.

  A node's row plus its neighbour sum goes through W₁[2] (a contraction over the 64 features) and gains b₁[2]; the
  batch-norm step subtracts the running mean, multiplies by γ[2] / √(v[2] + ε) and adds β[2], which under real
  batch-norm parameters is the affine map z ↦ z * scale + shift; a maximum with zero; then W₂[2], b₂[2] and a second
  maximum with zero. Each parameter reaches the [80000, 64] array through a slice of its layer, a reshape and
  broadcasts along the rows: read at (r, j) it is the parameter at (layer, j), or at (layer, k, j) for a matrix.
  The neighbour sum is carried as one function of the layer's input features and the edge list and is not opened.
-/
import proofs.«427193_j25417616458217_1_alg».proof.Proof.RAgg
import proofs.«427193_j25417616458217_1_alg».proof.Proof.Spec

noncomputable section

namespace Cert.ReferenceIdeal.Layers

open Cert.ReferenceIdeal Cert.ReferenceIdeal.Gen Cert.ReferenceIdeal.Read Idealize.ShloMosaic Idealize.ShloMosaic.ValueIdx

variable (x0 : Vec Ideal S80000x64 .f32) (x1 : IVec S2x1280000 32)
  (x3 : Vec Ideal S3x64x64 .f32) (x4 x5 x6 x7 x8 : Vec Ideal S3x64 .f32)
  (x9 : Vec Ideal S3x64x64 .f32) (x10 : Vec Ideal S3x64 .f32)

namespace L2

/-! ### The layer's parameters at an index -/

/-- W₁[2] at (k, j), as the first contraction reads it. -/
theorem w1_at (r : Fin 80000) (j k : Fin 64) :
    val_main_v116 (F := Ideal) x3 (ridx_main_v117 (ix2 r j) k) = x3 (ix3 2 k j) := by
  rw [val_main_v116_apply, val_main_v115_apply]
  refine congrArg x3 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- W₂[2] at (k, j), as the second contraction reads it. -/
theorem w2_at (r : Fin 80000) (j k : Fin 64) :
    val_main_v146 (F := Ideal) x9 (ridx_main_v147 (ix2 r j) k) = x9 (ix3 2 k j) := by
  rw [val_main_v146_apply, val_main_v145_apply]
  refine congrArg x9 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- b₁[2] broadcast along the rows. -/
theorem b1_at (r : Fin 80000) (j : Fin 64) : val_main_v121 (F := Ideal) x4 (ix2 r j) = x4 (ix2 2 j) := by
  rw [val_main_v121_apply, val_main_v120_apply, val_main_v119_apply, val_main_v118_apply]
  refine congrArg x4 (funext fun a => Fin.ext ?_)
  have hj := j.isLt
  match a with
  | ⟨0, _⟩ => rfl
  | ⟨1, _⟩ => show j.val % 64 = j.val; omega

/-- The running mean [2] broadcast along the rows. -/
theorem mean_at (r : Fin 80000) (j : Fin 64) : val_main_v126 (F := Ideal) x7 (ix2 r j) = x7 (ix2 2 j) := by
  rw [val_main_v126_apply, val_main_v125_apply, val_main_v124_apply, val_main_v123_apply]
  refine congrArg x7 (funext fun a => Fin.ext ?_)
  have hj := j.isLt
  match a with
  | ⟨0, _⟩ => rfl
  | ⟨1, _⟩ => show j.val % 64 = j.val; omega

/-- β[2] broadcast along the rows. -/
theorem beta_at (r : Fin 80000) (j : Fin 64) : val_main_v142 (F := Ideal) x6 (ix2 r j) = x6 (ix2 2 j) := by
  rw [val_main_v142_apply, val_main_v141_apply, val_main_v140_apply, val_main_v139_apply]
  refine congrArg x6 (funext fun a => Fin.ext ?_)
  have hj := j.isLt
  match a with
  | ⟨0, _⟩ => rfl
  | ⟨1, _⟩ => show j.val % 64 = j.val; omega

/-- b₂[2] broadcast along the rows. -/
theorem b2_at (r : Fin 80000) (j : Fin 64) : val_main_v151 (F := Ideal) x10 (ix2 r j) = x10 (ix2 2 j) := by
  rw [val_main_v151_apply, val_main_v150_apply, val_main_v149_apply, val_main_v148_apply]
  refine congrArg x10 (funext fun a => Fin.ext ?_)
  have hj := j.isLt
  match a with
  | ⟨0, _⟩ => rfl
  | ⟨1, _⟩ => show j.val % 64 = j.val; omega

/-- γ[2] / √(v[2] + ε) broadcast along the rows: the folded scale. -/
theorem scale_at (r : Fin 80000) (j : Fin 64) :
    val_main_v137 (F := Ideal) x5 x8 (ix2 r j) = Cert.Spec.scaleAt x5 x8 2 j := by
  have eg : idx_main_v128 (idx_main_v129 (idx_main_v136 (idx_main_v137 (ix2 r j)))) = ix2 (2 : Fin 3) j :=
    funext fun a => Fin.ext (by
      have hj := j.isLt
      match a with
      | ⟨0, _⟩ => rfl
      | ⟨1, _⟩ => show j.val % 64 = j.val; omega)
  have ev : idx_main_v130 (idx_main_v131 (idx_main_v136 (idx_main_v137 (ix2 r j)))) = ix2 (2 : Fin 3) j :=
    funext fun a => Fin.ext (by
      have hj := j.isLt
      match a with
      | ⟨0, _⟩ => rfl
      | ⟨1, _⟩ => show j.val % 64 = j.val; omega)
  rw [val_main_v137_apply, val_main_v136_apply, val_main_v135_apply, val_main_v129_apply, val_main_v128_apply,
    val_main_v134_apply, val_main_v133_apply, val_main_v131_apply, val_main_v130_apply, val_main_v132_apply,
    val_main_cst_9_apply, eg, ev]
  rfl

/-- The zero the first maximum is taken with. -/
theorem zero_a (i : S80000x64.Idx) : val_main_call4_v0 (F := Ideal) i = 0 := by
  rw [val_main_call4_v0_apply, val_main_call4_cst_apply]
  exact Ideal.ofBits_zero_f32

/-- The zero the second maximum is taken with. -/
theorem zero_b (i : S80000x64.Idx) : val_main_call5_v0 (F := Ideal) i = 0 := by
  rw [val_main_call5_v0_apply, val_main_call5_cst_apply]
  exact Ideal.ofBits_zero_f32

/-- The first contraction reads row r of its left operand. -/
theorem lrow_a (r : Fin 80000) (j k : Fin 64) : lidx_main_v117 (ix2 r j) k = ix2 r k :=
  funext fun a => Fin.ext (by
    match a with
    | ⟨0, _⟩ => rfl
    | ⟨1, _⟩ => rfl)

/-- The second contraction reads row r of its left operand. -/
theorem lrow_b (r : Fin 80000) (j k : Fin 64) : lidx_main_v147 (ix2 r j) k = ix2 r k :=
  funext fun a => Fin.ext (by
    match a with
    | ⟨0, _⟩ => rfl
    | ⟨1, _⟩ => rfl)

/-! ### The layer at a node and a feature -/

/-- The hidden row: the first product plus bias through the batch-norm step, then the maximum with zero. -/
theorem hidden_at (hbn : Cert.Spec.BNReal x5 x6 x7 x8) (r : Fin 80000) (k : Fin 64) :
    val_main_v144 (F := Ideal) x0 x1 x3 x4 x5 x6 x7 x8 x9 x10 (ix2 r k)
      = max (Cert.Spec.dense (fun k' => val_main_v103 (F := Ideal) x0 x1 x3 x4 x5 x6 x7 x8 x9 x10 (ix2 r k') + aggR (val_main_v103 (F := Ideal) x0 x1 x3 x4 x5 x6 x7 x8 x9 x10) x1 (ix2 r k')) (fun k j => x3 (ix3 2 k j))
              (fun k => x4 (ix2 2 k)) k * Cert.Spec.scaleAt x5 x8 2 k + Cert.Spec.shiftAt x5 x6 x7 x8 2 k) 0 := by
  have hs : (∑ k' : Fin 64, val_main_v114 (F := Ideal) x0 x1 x3 x4 x5 x6 x7 x8 x9 x10 (lidx_main_v117 (ix2 r k) k')
        * val_main_v116 (F := Ideal) x3 (ridx_main_v117 (ix2 r k) k'))
      = ∑ k' : Fin 64, (val_main_v103 (F := Ideal) x0 x1 x3 x4 x5 x6 x7 x8 x9 x10 (ix2 r k') + aggR (val_main_v103 (F := Ideal) x0 x1 x3 x4 x5 x6 x7 x8 x9 x10) x1 (ix2 r k')) * x3 (ix3 2 k' k) :=
    Finset.sum_congr rfl fun k' _ => by
      rw [lrow_a, w1_at, val_main_v114_apply, agg2, Ideal.addf_def]
  rw [val_main_v144_apply, val_main_v143_apply, val_main_v138_apply, val_main_v127_apply, val_main_v122_apply,
    val_main_v117_apply, hs, b1_at, mean_at, scale_at, beta_at, zero_a,
    Ideal.maximumf_def, Ideal.addf_def, Ideal.mulf_def, Ideal.subf_def, Ideal.addf_def,
    Cert.Spec.bn_fold hbn]
  rfl

end L2

/-- Layer 2 of the reference is the specification's layer on layer 1's output and its neighbour sum. -/
theorem layer2 (hbn : Cert.Spec.BNReal x5 x6 x7 x8) :
    val_main_v153 (F := Ideal) x0 x1 x3 x4 x5 x6 x7 x8 x9 x10
      = Cert.Spec.ginArr (fun k j => x3 (ix3 2 k j)) (fun k => x4 (ix2 2 k)) (Cert.Spec.scaleAt x5 x8 2)
          (Cert.Spec.shiftAt x5 x6 x7 x8 2) (fun k j => x9 (ix3 2 k j)) (fun k => x10 (ix2 2 k)) (val_main_v103 (F := Ideal) x0 x1 x3 x4 x5 x6 x7 x8 x9 x10) (aggR (val_main_v103 (F := Ideal) x0 x1 x3 x4 x5 x6 x7 x8 x9 x10) x1) := by
  funext i
  obtain ⟨r, j, rfl⟩ : ∃ (r : Fin 80000) (j : Fin 64), i = ix2 r j := ⟨i 0, i 1, eq_ix2 i⟩
  have hs : (∑ k : Fin 64, val_main_v144 (F := Ideal) x0 x1 x3 x4 x5 x6 x7 x8 x9 x10 (lidx_main_v147 (ix2 r j) k)
        * val_main_v146 (F := Ideal) x9 (ridx_main_v147 (ix2 r j) k))
      = ∑ k : Fin 64, max (Cert.Spec.dense (fun k' => val_main_v103 (F := Ideal) x0 x1 x3 x4 x5 x6 x7 x8 x9 x10 (ix2 r k') + aggR (val_main_v103 (F := Ideal) x0 x1 x3 x4 x5 x6 x7 x8 x9 x10) x1 (ix2 r k')) (fun k j => x3 (ix3 2 k j))
              (fun k => x4 (ix2 2 k)) k * Cert.Spec.scaleAt x5 x8 2 k + Cert.Spec.shiftAt x5 x6 x7 x8 2 k) 0
          * x9 (ix3 2 k j) :=
    Finset.sum_congr rfl fun k _ => by
      rw [L2.lrow_b, L2.w2_at, L2.hidden_at (hbn := hbn)]
  rw [Cert.Spec.ginArr_ix2, val_main_v153_apply, val_main_v152_apply, val_main_v147_apply, hs, L2.b2_at, L2.zero_b,
    Ideal.maximumf_def, Ideal.addf_def]
  rfl

end Cert.ReferenceIdeal.Layers

end
-- ==== Proof.PoolSum.lean ====
/-
  The reference's last operation is a scatter-add of the 80000 node rows into a zero [128, 64] array, row r going to
  the row its graph id names. Read at entry (g, j), the accumulated array is the sum of the updates that land there:
  update (r, q) lands at (id r, q) when the id, read as a signed integer, lies in [0, 128), and nowhere otherwise. So
  the sum over all 80000 · 64 updates keeps, for each node r, the single column q = j, and keeps it exactly when the
  id of r is the word g: the pooling of the specification.
-/
import proofs.«427193_j25417616458217_1_alg».proof.ReferenceIdeal
import proofs.«427193_j25417616458217_1_alg».proof.Proof.Spec
import Idealize.ShloMosaic.PureOps.Ideal
import Idealize.ShloMosaic.PureOps.Dims
import Idealize.ShloMosaic.PureOps.Contract
import Idealize.ShloMosaic.Lib.ValueIdx

noncomputable section

namespace Cert.ReferenceIdeal.PoolSum

open Cert.ReferenceIdeal Idealize.ShloMosaic Idealize.ShloMosaic.ValueIdx

variable [Cert.ReferenceIdeal.Facts]

/-- A 32-bit word read as a signed integer is the small natural `g` exactly when it is the word of `g`. -/
theorem toInt_eq_iff (w : BitVec 32) (g : Nat) (hg : g < 128) : w.toInt = (g : ℤ) ↔ w = BitVec.ofNat 32 g := by
  constructor
  · intro h
    apply BitVec.eq_of_toNat_eq
    rw [BitVec.toNat_ofNat]
    have hc := BitVec.toInt_eq_toNat_cond w
    have hw := w.isLt
    split at hc <;> omega
  · rintro rfl
    rw [BitVec.toInt_eq_toNat_cond, BitVec.toNat_ofNat, Nat.mod_eq_of_lt (by omega), if_pos (by omega)]

local notation "D" => scatter_S128x64_S80000x1_S80000x64_1_0_0_1

/-- The scatter index update (r, q) reads its start from: row r of the id column. -/
theorem siIdx_eq (r : Fin 80000) (q : Fin 64) (c : Fin (D).scatterDimsToOperandDims.length) :
    (D).siIdx (ix2 r q) c = ix2 r 0 := by
  have hc : c.val = 0 := by have := c.isLt; change c.val < 1 at this; omega
  funext b
  match b with
  | ⟨0, hb0⟩ =>
    unfold ScatterDims.siIdx
    have h : ¬ ((⟨0, hb0⟩ : Fin S80000x1.rank).val = (D).indexVectorDim) := by
      show ¬ (0 : Nat) = 1; decide
    rw [dif_neg h]
    rfl
  | ⟨1, hb1⟩ =>
    unfold ScatterDims.siIdx
    have h : (⟨1, hb1⟩ : Fin S80000x1.rank).val = (D).indexVectorDim := rfl
    rw [dif_pos h]
    exact Fin.ext hc

theorem start0 (idx : IVec S80000x1 32) (r : Fin 80000) (q : Fin 64) :
    (D).start (ix2 r q) idx 0 = (idx (ix2 r 0)).toInt := by
  unfold ScatterDims.start
  have h : (0 : Fin S128x64.rank) ∈ (D).scatterDimsToOperandDims := by
    show (0 : Fin 2) ∈ [(0 : Fin 2)]; decide
  rw [dif_pos h, siIdx_eq]
theorem start1 (idx : IVec S80000x1 32) (r : Fin 80000) (q : Fin 64) : (D).start (ix2 r q) idx 1 = 0 := by
  unfold ScatterDims.start
  have h : (1 : Fin S128x64.rank) ∉ (D).scatterDimsToOperandDims := by
    show (1 : Fin 2) ∉ [(0 : Fin 2)]; decide
  rw [dif_neg h]
theorem window0 (r : Fin 80000) (q : Fin 64) : (D).window (ix2 r q) 0 = 0 := by
  unfold ScatterDims.window
  have h : (0 : Fin S128x64.rank) ∉ (D).sKept := by
    show (0 : Fin 2) ∉ S128x64.kept [(0 : Fin 2)]; decide
  rw [dif_neg h]
theorem window1 (r : Fin 80000) (q : Fin 64) : (D).window (ix2 r q) 1 = q.val := by
  unfold ScatterDims.window
  have h : (1 : Fin S128x64.rank) ∈ (D).sKept := by
    show (1 : Fin 2) ∈ S128x64.kept [(0 : Fin 2)]; decide
  rw [dif_pos h]
  rfl

/-- Update (r, q) lands at (g, c) exactly when the id of row r, read signed, is g and q = c: on the row axis the
    start is the id and the window coordinate is 0, on the column axis the start is 0 and the window coordinate is q;
    an id outside [0, 128) leaves the array and the update is dropped. -/
theorem resultIdx?_eq_some_iff (idx : IVec S80000x1 32) (r : Fin 80000) (q : Fin 64) (g : Fin 128) (c : Fin 64) :
    (D).resultIdx? (ix2 r q) idx = some (ix2 g c) ↔ (idx (ix2 r 0)).toInt = (g.val : ℤ) ∧ q = c := by
  have h0 := start0 idx r q
  have h1 := start1 idx r q
  have w0 := window0 r q
  have w1 := window1 r q
  have hg := g.isLt
  have hq := q.isLt
  unfold ScatterDims.resultIdx?
  split
  next h =>
    have b0 : 0 ≤ (D).start (ix2 r q) idx 0 + (((D).window (ix2 r q) 0 : ℕ) : ℤ) := (h 0).1
    rw [h0, w0] at b0
    rw [Option.some.injEq]
    constructor
    · intro hf
      have e0 : ((D).start (ix2 r q) idx 0 + (((D).window (ix2 r q) 0 : ℕ) : ℤ)).toNat = g.val :=
        congrArg Fin.val (congrFun hf 0)
      have e1 : ((D).start (ix2 r q) idx 1 + (((D).window (ix2 r q) 1 : ℕ) : ℤ)).toNat = c.val :=
        congrArg Fin.val (congrFun hf 1)
      rw [h0, w0] at e0
      rw [h1, w1] at e1
      exact ⟨by omega, Fin.ext (by omega)⟩
    · rintro ⟨hgv, rfl⟩
      funext a
      match a with
      | ⟨0, _⟩ =>
        apply Fin.ext
        show ((D).start (ix2 r q) idx 0 + (((D).window (ix2 r q) 0 : ℕ) : ℤ)).toNat = g.val
        rw [h0, w0]; omega
      | ⟨1, _⟩ =>
        apply Fin.ext
        show ((D).start (ix2 r q) idx 1 + (((D).window (ix2 r q) 1 : ℕ) : ℤ)).toNat = q.val
        rw [h1, w1]; omega
  next h =>
    constructor
    · intro hf; exact absurd hf (by simp)
    · rintro ⟨hgv, rfl⟩
      exfalso
      apply h
      intro a
      match a with
      | ⟨0, _⟩ =>
        show 0 ≤ (D).start (ix2 r q) idx 0 + (((D).window (ix2 r q) 0 : ℕ) : ℤ) ∧
          (D).start (ix2 r q) idx 0 + (((D).window (ix2 r q) 0 : ℕ) : ℤ) < ((128 : ℕ) : ℤ)
        rw [h0, w0]; omega
      | ⟨1, _⟩ =>
        show 0 ≤ (D).start (ix2 r q) idx 1 + (((D).window (ix2 r q) 1 : ℕ) : ℤ) ∧
          (D).start (ix2 r q) idx 1 + (((D).window (ix2 r q) 1 : ℕ) : ℤ) < ((64 : ℕ) : ℤ)
        rw [h1, w1]; omega

/-- The scatter-add into the zero array is the pooling: entry (g, c) sums, over the nodes r, column c of row r when
    the id of r is the word g. The sum over all updates (r, q) is split by coordinates; for a fixed r the inner sum
    over q has the single term q = c, present when the id matches. -/
theorem scatterAdd_pool (z : Vec Ideal S128x64 .f32) (hz : ∀ i, z i = 0) (idx : IVec S80000x1 32)
    (upd : Vec Ideal S80000x64 .f32) :
    Host.scatterAdd (F := Ideal) (φ := .f32) scatter_S128x64_S80000x1_S80000x64_1_0_0_1 z idx upd
      = Cert.Spec.pool upd (Cert.Spec.col idx) := by
  funext i
  obtain ⟨g, c, rfl⟩ : ∃ (g : Fin 128) (c : Fin 64), i = ix2 g c := ⟨i 0, i 1, eq_ix2 i⟩
  rw [Cert.Spec.pool_ix2]
  unfold Host.scatterAdd
  rw [Ideal.hostScatterAdd_def]
  unfold Ideal.hostScatterAdd
  rw [hz, zero_add, Finset.sum_filter, sum_idx2]
  refine Finset.sum_congr rfl fun r _ => ?_
  simp only [resultIdx?_eq_some_iff]
  have hw : ((idx (ix2 r 0)).toInt = (g.val : ℤ)) ↔ Cert.Spec.col idx r = BitVec.ofNat 32 g.val :=
    toInt_eq_iff (idx (ix2 r 0)) g.val g.isLt
  by_cases hr : Cert.Spec.col idx r = BitVec.ofNat 32 g.val
  · rw [if_pos hr]
    have hi := hw.2 hr
    simp only [hi, true_and]
    rw [Finset.sum_ite_eq' Finset.univ c (fun q => upd (ix2 r q)), if_pos (Finset.mem_univ c)]
  · rw [if_neg hr]
    have hi : ¬ (idx (ix2 r 0)).toInt = (g.val : ℤ) := fun h => hr (hw.1 h)
    simp only [hi, false_and, if_false, Finset.sum_const_zero]

end Cert.ReferenceIdeal.PoolSum

end
-- ==== Proof.RValue.lean ====
/-
  The reference program's last two stages and its whole result.

  After the three GIN layers the reference sends every node's row through a two-layer perceptron,
      row ↦ relu(row · Wm1 + bm1) · Wm2 + bm2,
  each product contracting the 64 features of that row, and then adds the rows up by graph: the pooled entry (g, j)
  is the sum of column j over the nodes whose graph id is g, computed as a scatter-add of the rows into a [128, 64]
  array of zeros along the id column.

  Read at an index, the perceptron's five operations are the specification's `mlpArr` on whatever feature array they
  are given; the scatter-add into zeros is the specification's `pool`; and the three layers are the specification's
  `ginArr`, each on the layer before and on its neighbour sum. Chaining the five gives the reference's result as the
  specification's `out` of the arguments.
-/
import proofs.«427193_j25417616458217_1_alg».proof.Proof.Gen.ReferenceIdeal.Read
import proofs.«427193_j25417616458217_1_alg».proof.Proof.Spec
import proofs.«427193_j25417616458217_1_alg».proof.Proof.RLayers
import proofs.«427193_j25417616458217_1_alg».proof.Proof.RLayer1
import proofs.«427193_j25417616458217_1_alg».proof.Proof.RLayer2
import proofs.«427193_j25417616458217_1_alg».proof.Proof.PoolSum
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem

/-- The product of a feature array with a 64×64 matrix at row `p`, column `q`: the sum over the contracted feature
    `k` of `l (p, k) * r (k, q)`. -/
theorem dot_at (l : Vec Ideal S80000x64 .f32) (r : Vec Ideal S64x64 .f32) (p : Fin 80000) (q : Fin 64) :
    Host.dotGeneral (F := Ideal) (φ₁ := .f32) (φ₂ := .f32) dot_S80000x64_S64x64_S80000x64_1_0_0_1_n_n none l r (ix2 p q)
      = ∑ k : Fin 64, l (ix2 p k) * r (ix2 k q) := by
  simp only [Host.dotGeneral]
  rw [Ideal.dotGeneral_apply, ← Equiv.sum_comp (contrEquiv1 dot_S80000x64_S64x64_S80000x64_1_0_0_1_n_n 64 rfl rfl).symm]
  refine Finset.sum_congr rfl fun k _ => ?_
  have hk := contrEquiv1_symm_val dot_S80000x64_S64x64_S80000x64_1_0_0_1_n_n 64 rfl rfl k
  have el : dot_S80000x64_S64x64_S80000x64_1_0_0_1_n_n.lhsIdx (ix2 p q)
      ((contrEquiv1 dot_S80000x64_S64x64_S80000x64_1_0_0_1_n_n 64 rfl rfl).symm k) = ix2 p k := funext fun a => Fin.ext (by
    match a with
    | ⟨0, _⟩ => exact lhs_main_v154_0 _ _
    | ⟨1, _⟩ => exact (lhs_main_v154_1 _ _).trans hk)
  have er : dot_S80000x64_S64x64_S80000x64_1_0_0_1_n_n.rhsIdx (ix2 p q)
      ((contrEquiv1 dot_S80000x64_S64x64_S80000x64_1_0_0_1_n_n 64 rfl rfl).symm k) = ix2 k q := funext fun a => Fin.ext (by
    match a with
    | ⟨0, _⟩ => exact (rhs_main_v154_0 _ _).trans hk
    | ⟨1, _⟩ => exact rhs_main_v154_1 _ _)
  rw [el, er]

/-- The first bias, spread over the rows, reads its column's entry. -/
theorem bias1_at (b : Vec Ideal S64 .f32) (p : Fin 80000) (q : Fin 64) :
    val_main_v156 (F := Ideal) b (ix2 p q) = b (ix1 q) := by
  rw [val_main_v156_apply, val_main_v155_apply]
  exact congrArg b (funext fun a => match a with | ⟨0, _⟩ => rfl)

/-- The second bias, spread over the rows, reads its column's entry. -/
theorem bias2_at (b : Vec Ideal S64 .f32) (p : Fin 80000) (q : Fin 64) :
    val_main_v161 (F := Ideal) b (ix2 p q) = b (ix1 q) := by
  rw [val_main_v161_apply, val_main_v160_apply]
  exact congrArg b (funext fun a => match a with | ⟨0, _⟩ => rfl)

/-- The array the perceptron's relu compares with is zero everywhere. -/
theorem relu_zero_at (i : S80000x64.Idx) : val_main_call6_v0 (F := Ideal) i = 0 := by
  rw [val_main_call6_v0_apply, val_main_call6_cst_apply]
  exact Ideal.ofBits_zero_f32

/-- The array the pooling adds into is zero everywhere. -/
theorem pool_zero_at (i : S128x64.Idx) : val_main_v163 (F := Ideal) i = 0 := by
  rw [val_main_v163_apply, val_main_cst_10_apply]
  exact Ideal.ofBits_zero_f32

/-- The graph ids spread to an [80000, 1] column read the id of their row. -/
theorem ids_at (x2 : IVec S80000 32) (r : Fin 80000) :
    val_main_v164 (F := Ideal) x2 (ix2 r 0) = x2 (ix1 r) := by
  rw [val_main_v164_apply]
  exact congrArg x2 (funext fun a => match a with | ⟨0, _⟩ => rfl)

/-- The perceptron's operations, on any feature array `h`: a row at a time, `h · Wm1 + bm1`, the relu, `· Wm2 + bm2`.
    Each product contracts the 64 features of a row, so entry (p, q) reads row `p` of `h` only. -/
theorem mlp_stage (h : Vec Ideal S80000x64 .f32) (x11 : Vec Ideal S64x64 .f32) (x12 : Vec Ideal S64 .f32)
    (x13 : Vec Ideal S64x64 .f32) (x14 : Vec Ideal S64 .f32) :
    addf (Host.dotGeneral (F := Ideal) (φ₁ := .f32) (φ₂ := .f32) dot_S80000x64_S64x64_S80000x64_1_0_0_1_n_n none
        (maximumf (addf (Host.dotGeneral (F := Ideal) (φ₁ := .f32) (φ₂ := .f32) dot_S80000x64_S64x64_S80000x64_1_0_0_1_n_n none h x11)
          (val_main_v156 (F := Ideal) x12)) (val_main_call6_v0 (F := Ideal))) x13) (val_main_v161 (F := Ideal) x14)
      = Cert.Spec.mlpArr (Cert.Spec.mat x11) (fun k => x12 (ix1 k)) (Cert.Spec.mat x13) (fun k => x14 (ix1 k)) h := by
  funext i
  obtain ⟨p, q, rfl⟩ : ∃ (p : Fin 80000) (q : Fin 64), i = ix2 p q := ⟨i 0, i 1, eq_ix2 i⟩
  rw [Cert.Spec.mlpArr_ix2, addf_apply, dot_at, bias2_at]
  unfold Cert.Spec.mlpRow Cert.Spec.dense Cert.Spec.mat
  refine congrArg (· + x14 (ix1 q)) (Finset.sum_congr rfl fun k _ => ?_)
  rw [maximumf_apply, addf_apply, dot_at, bias1_at, relu_zero_at]

/-- The id column, read by rows, is the id vector. -/
theorem ids_col (x2 : IVec S80000 32) : Cert.Spec.col (val_main_v164 (F := Ideal) x2) = fun r => x2 (ix1 r) :=
  funext fun r => ids_at x2 r

/-- The reference's result as a function of its arguments is the specification: the pooling of the perceptron's rows
    of the third layer's output, each layer the specification's layer of the one before and of its neighbour sum. -/
theorem value_of_args (x0 : Vec Ideal S80000x64 .f32) (x1 : IVec S2x1280000 32) (x2 : IVec S80000 32)
    (x3 : Vec Ideal S3x64x64 .f32) (x4 x5 x6 x7 x8 : Vec Ideal S3x64 .f32) (x9 : Vec Ideal S3x64x64 .f32)
    (x10 : Vec Ideal S3x64 .f32) (x11 : Vec Ideal S64x64 .f32) (x12 : Vec Ideal S64 .f32) (x13 : Vec Ideal S64x64 .f32)
    (x14 : Vec Ideal S64 .f32) (hbn : Cert.Spec.BNReal x5 x6 x7 x8) :
    val_main_v165 (F := Ideal) x0 x1 x2 x3 x4 x5 x6 x7 x8 x9 x10 x11 x12 x13 x14
      = Cert.Spec.out (fun h => Cert.ReferenceIdeal.Layers.aggR h x1) x0
          (fun l k j => x3 (ix3 l k j)) (fun l k => x4 (ix2 l k)) (Cert.Spec.scaleAt x5 x8) (Cert.Spec.shiftAt x5 x6 x7 x8)
          (fun l k j => x9 (ix3 l k j)) (fun l k => x10 (ix2 l k))
          (Cert.Spec.mat x11) (fun k => x12 (ix1 k)) (Cert.Spec.mat x13) (fun k => x14 (ix1 k))
          (fun r => x2 (ix1 r)) := by
  unfold val_main_v165 val_main_v162 val_main_v159 val_main_v158 val_main_v157 val_main_v154
  rw [mlp_stage, Cert.ReferenceIdeal.PoolSum.scatterAdd_pool _ pool_zero_at, ids_col,
    Cert.ReferenceIdeal.Layers.layer2 x0 x1 x3 x4 x5 x6 x7 x8 x9 x10 hbn,
    Cert.ReferenceIdeal.Layers.layer1 x0 x1 x3 x4 x5 x6 x7 x8 x9 x10 hbn,
    Cert.ReferenceIdeal.Layers.layer0 x0 x1 x3 x4 x5 x6 x7 x8 x9 x10 hbn]
  rfl

/-- The run's result term is that function of the launch contents of the arguments. -/
theorem ref_value (m : (ℓ : Loc nD τ sig) → Buf (Elt Ideal) ℓ) (c : Dev nD)
    (hbn : Cert.Spec.BNReal (m ((c.tc : Thread nD τ).loc main_arg5)) (m ((c.tc : Thread nD τ).loc main_arg6))
      (m ((c.tc : Thread nD τ).loc main_arg7)) (m ((c.tc : Thread nD τ).loc main_arg8))) :
    Cert.ReferenceIdeal.Value.res_main_v165 (F := Ideal) m c
      = Cert.Spec.out (fun h => Cert.ReferenceIdeal.Layers.aggR h (m ((c.tc : Thread nD τ).loc main_arg1)))
          (m ((c.tc : Thread nD τ).loc main_arg0))
          (fun l k j => (m ((c.tc : Thread nD τ).loc main_arg3)) (ix3 l k j))
          (fun l k => (m ((c.tc : Thread nD τ).loc main_arg4)) (ix2 l k))
          (Cert.Spec.scaleAt (m ((c.tc : Thread nD τ).loc main_arg5)) (m ((c.tc : Thread nD τ).loc main_arg8)))
          (Cert.Spec.shiftAt (m ((c.tc : Thread nD τ).loc main_arg5)) (m ((c.tc : Thread nD τ).loc main_arg6))
            (m ((c.tc : Thread nD τ).loc main_arg7)) (m ((c.tc : Thread nD τ).loc main_arg8)))
          (fun l k j => (m ((c.tc : Thread nD τ).loc main_arg9)) (ix3 l k j))
          (fun l k => (m ((c.tc : Thread nD τ).loc main_arg10)) (ix2 l k))
          (Cert.Spec.mat (m ((c.tc : Thread nD τ).loc main_arg11)))
          (fun k => (m ((c.tc : Thread nD τ).loc main_arg12)) (ix1 k))
          (Cert.Spec.mat (m ((c.tc : Thread nD τ).loc main_arg13)))
          (fun k => (m ((c.tc : Thread nD τ).loc main_arg14)) (ix1 k))
          (fun r => (m ((c.tc : Thread nD τ).loc main_arg2)) (ix1 r)) :=
  (val_main_v165_eq (F := Ideal) m c).trans (value_of_args _ _ _ _ _ _ _ _ _ _ _ _ _ _ _ hbn)

end Cert.ReferenceIdeal.RefValue

end
-- ==== Proof.PreFacts.lean ====
/-
  The precondition read back. The printed predicate is a conjunction of fifteen "for every entry" tests, each the
  and-reduction of an array of bits to one bit; the hypothesis says the conjunction is the bit 1. A conjunction of bits
  is 1 exactly when each is, and an and-reduction that came out 1 met only 1s, so each test holds at every entry.
  Two kinds of entry test are opened here. On the extended reals |x| < +∞ (with |x| = max x (−x)) says x is neither
  infinity, that is, a real number; x ≥ 0 against the real zero is the order's own comparison. On 32-bit words the
  signed comparisons 0 ≤ w and w < 80000 are comparisons of the words' integer values; the words tested are row 0 of
  the [2, 1280000] edge table, read through a slice of that row and a reshape to a vector, both of which keep the
  column.
-/
import proofs.«427193_j25417616458217_1_alg».proof.Pre_finite_inputs
import proofs.«427193_j25417616458217_1_alg».proof.Proof.Gen.Pre_finite_inputs
import proofs.«427193_j25417616458217_1_alg».proof.Proof.Spec
import Idealize.ShloMosaic.Lib.ReduceAll
import Idealize.ShloMosaic.Lib.StableHlo.Predicate
import Idealize.ShloMosaic.Lib.Pipeline.Value

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-! ## One entry -/

/-- The pattern 0x7F800000 is +∞. -/
theorem ofBits_inf : Ideal.ofBits .f32 0x7F800000#32 = (⊤ : EReal) := by simp [Ideal.ofBits, Ideal.ieee]

/-- The pattern 0 is the real zero. -/
theorem ofBits_zero : Ideal.ofBits .f32 0x00000000#32 = (0 : EReal) := by simp [Ideal.ofBits, Ideal.ieee]

/-- |x| < +∞ leaves only the real numbers: at either infinity |x| is +∞. -/
theorem real_of_abs_lt (x : EReal) (h : Ideal.cmp .olt (max x (-x)) (Ideal.ofBits .f32 0x7F800000#32) = 1#1) :
    ∃ r : ℝ, x = (r : EReal) := by
  rw [ofBits_inf] at h
  simp only [Ideal.cmp, StableHlo.Predicate.ofBool_eq_one_iff, decide_eq_true_eq] at h
  induction x using EReal.rec with
  | bot => simp at h
  | coe r => exact ⟨r, rfl⟩
  | top => simp at h

/-- x ≥ 0, the comparison read against the real zero. -/
theorem nonneg_of_ge (x : EReal) (h : Ideal.cmp .oge x (Ideal.ofBits .f32 0x00000000#32) = 1#1) : 0 ≤ x := by
  rw [ofBits_zero] at h
  simpa only [Ideal.cmp, StableHlo.Predicate.ofBool_eq_one_iff, decide_eq_true_eq] using h

/-! ## One array -/

/-- "Every entry has |x| < +∞" came out 1: every entry is a real number. -/
theorem real_of_all {s : Shape} {axes : List (Fin s.rank)} (x : FVec Ideal s .f32) (hb : S_.BroadcastsInDim s ![])
    (hr : s.ReducesTo axes S_) (h0 : 0 < S_.numel)
    (e : Host.reduce IntOp.andi (cmpf .olt (Host.absf x) (broadcastInDim s ![] hb (constant (F := Ideal) S_ .f32 0x7F800000#32)))
      (constantI S_ 1 1#1) hr h0 ix0 = 1#1) (i : s.Idx) : ∃ r : ℝ, x i = (r : EReal) :=
  real_of_abs_lt (x i) (Host.reduce_andi_all _ _ hr h0 ix0 e i)

/-- "Every entry has x ≥ 0" came out 1: every entry is non-negative. -/
theorem nonneg_of_all {s : Shape} {axes : List (Fin s.rank)} (x : FVec Ideal s .f32) (hb : S_.BroadcastsInDim s ![])
    (hr : s.ReducesTo axes S_) (h0 : 0 < S_.numel)
    (e : Host.reduce IntOp.andi (cmpf .oge x (broadcastInDim s ![] hb (constant (F := Ideal) S_ .f32 0x00000000#32)))
      (constantI S_ 1 1#1) hr h0 ix0 = 1#1) (i : s.Idx) : (0 : EReal) ≤ x i :=
  nonneg_of_ge (x i) (Host.reduce_andi_all _ _ hr h0 ix0 e i)

/-- Row 0 of the edge table, sliced out and flattened, read at column e is the table at (0, e). -/
theorem row0_apply (a1 : IVec S2x1280000 32) (hs : S2x1280000.Slices ![0, 0] S1x1280000) (hc : S1x1280000.ShapeCasts S1280000)
    (e : Fin 1280000) :
    shapeCast S1280000 (extractStridedSlice S1x1280000 ![0, 0] a1 hs) hc (ix1 e) = a1 (ix2 0 e) := by
  refine (shapeCast_apply _ hc (ix1 e) (ix2 0 e) ?_).trans ?_
  · rw [Shape.rowMajor_val_two, Shape.rowMajor_val_one]
    show (0 : Nat) * _ + e.val = e.val
    omega
  · refine extractStridedSlice_apply ![0, 0] a1 hs (ix2 0 e) (ix2 0 e) fun a => ?_
    match a with
    | ⟨0, _⟩ => rfl
    | ⟨1, _⟩ => show e.val = 0 + e.val; omega

/-! ## The predicate -/

variable {a0 : FVec Ideal S80000x64 .f32} {a1 : IVec S2x1280000 32} {a2 : IVec S80000 32}
  {a3 : FVec Ideal S3x64x64 .f32} {a4 a5 a6 a7 a8 : FVec Ideal S3x64 .f32} {a9 : FVec Ideal S3x64x64 .f32}
  {a10 : FVec Ideal S3x64 .f32} {a11 : FVec Ideal S64x64 .f32} {a12 : FVec Ideal S64 .f32}
  {a13 : FVec Ideal S64x64 .f32} {a14 : FVec Ideal S64 .f32}

/-- The batch-norm parameters are real numbers and no running variance is negative. -/
theorem bn_real (hpre : fn (F := Ideal) a0 a1 a2 a3 a4 a5 a6 a7 a8 a9 a10 a11 a12 a13 a14 = (fun _ => 1#1)) :
    Cert.Spec.BNReal a5 a6 a7 a8 := by
  have e := congrFun hpre ValueIdx.ix0
  dsimp only [fn, fn_part1, fn_part2, fn_part3, fn_part4] at e
  simp only [andi, IntOp.andi_eq_one] at e
  obtain ⟨⟨⟨⟨⟨⟨⟨⟨⟨⟨⟨⟨⟨⟨-, -⟩, -⟩, h5⟩, h6⟩, h7⟩, h8⟩, -⟩, -⟩, -⟩, -⟩, -⟩, -⟩, hv⟩, -⟩ := e
  intro i
  obtain ⟨g, hg⟩ := real_of_all a5 _ _ _ h5 i
  obtain ⟨b, hb⟩ := real_of_all a6 _ _ _ h6 i
  obtain ⟨u, hu⟩ := real_of_all a7 _ _ _ h7 i
  obtain ⟨v, hv'⟩ := real_of_all a8 _ _ _ h8 i
  refine ⟨g, b, u, v, hg, hb, hu, hv', ?_⟩
  have := nonneg_of_all a8 _ _ _ hv i
  rw [hv'] at this
  exact_mod_cast this

/-- Every edge's source (row 0 of the edge table) is a node: its word, read as a signed integer, lies in [0, 80000). -/
theorem src_in_range (hpre : fn (F := Ideal) a0 a1 a2 a3 a4 a5 a6 a7 a8 a9 a10 a11 a12 a13 a14 = (fun _ => 1#1)) :
    ∀ e : Fin 1280000, 0 ≤ ((a1 : IVec S2x1280000 32) (ix2 0 e)).toInt ∧ (a1 (ix2 0 e)).toInt < 80000 := by
  have e := congrFun hpre ValueIdx.ix0
  dsimp only [fn, fn_part1, fn_part2, fn_part3, fn_part4] at e
  have e15 := (IntOp.andi_eq_one.1 e).2
  intro k
  have hk := Host.reduce_andi_all _ _ _ _ ix0 e15 (ix1 k)
  obtain ⟨h0, h1⟩ := IntOp.andi_eq_one.1 hk
  have h0' := IntOp.cmpi_sge.1 h0
  have h1' := IntOp.cmpi_slt.1 h1
  rw [show broadcastInDim S1280000 ![] _ (constantI S_ 32 0#32) (ix1 k) = 0#32 from rfl, row0_apply] at h0'
  rw [show broadcastInDim S1280000 ![] _ (constantI S_ 32 80000#32) (ix1 k) = 80000#32 from rfl, row0_apply] at h1'
  exact ⟨by simpa using h0', by simpa using h1'⟩

end Cert.PreFacts

end
-- ==== Proof.AggBridge.lean ====
/-
  The neighbour sum is one function in both programs. Each gathers the rows of the feature array along the edges'
  sources (a negative source word wrapped once by the number of nodes, as an index from the end) and adds the gathered
  rows up at the edges' targets into an array of zeros. One program is handed the sources and the targets as two
  vectors; the other cuts rows 0 and 1 out of the [2, 1280000] edge table and flattens each. A slice of one row
  followed by a flattening keeps the column, so the two vectors are those two rows entry by entry, and with them
  equal the two compositions are the same operations on the same operands. The shape records the two programs pass to
  the gather and to the scatter list the same axes and sizes, and their well-formedness fields are proofs.
-/
import proofs.«427193_j25417616458217_1_alg».proof.Proof.KTake0
import proofs.«427193_j25417616458217_1_alg».proof.Proof.KScat0
import proofs.«427193_j25417616458217_1_alg».proof.Proof.RAgg
import Idealize.ShloMosaic.Lib.ValueIdx

noncomputable section

namespace Cert.Proof.AggBridge

open Idealize.ShloMosaic Idealize.ShloMosaic.ValueIdx Cert.ReferenceIdeal.Read

/-- The gather's axis record is the same in both programs. -/
theorem gather_dims_eq :
    Cert.KernelIdeal.gather_S80000x64_S1280000x1_S1280000x64_1_0_n_n_0_1_164
      = Cert.ReferenceIdeal.gather_S80000x64_S1280000x1_S1280000x64_1_0_n_n_0_1_164 := rfl

/-- The scatter's axis record is the same in both programs. -/
theorem scatter_dims_eq :
    Cert.KernelIdeal.scatter_S80000x64_S1280000x1_S1280000x64_1_0_0_1
      = Cert.ReferenceIdeal.scatter_S80000x64_S1280000x1_S1280000x64_1_0_0_1 := rfl

/-- A vector that holds row 0 of the edge table entry by entry is that row sliced out and flattened. -/
theorem src_eq (e : IVec Cert.ReferenceIdeal.S2x1280000 32) (srcK : IVec Cert.ReferenceIdeal.S1280000 32)
    (hs : ∀ i : Fin 1280000, srcK (ix1 i) = e (ix2 0 i)) : srcK = val_main_v1 (F := Ideal) e := by
  funext j
  obtain ⟨i, rfl⟩ : ∃ i : Fin 1280000, j = ix1 i := ⟨j 0, eq_ix1 j⟩
  rw [hs, val_main_v1_apply, val_main_v0_apply]
  refine congrArg e (funext fun a => ?_)
  have hi := i.isLt
  match a with
  | ⟨0, _⟩ => rfl
  | ⟨1, _⟩ => exact Fin.ext (show i.val = i.val % 1280000 by omega)

/-- A vector that holds row 1 of the edge table entry by entry is that row sliced out and flattened. -/
theorem dst_eq (e : IVec Cert.ReferenceIdeal.S2x1280000 32) (dstK : IVec Cert.ReferenceIdeal.S1280000 32)
    (hd : ∀ i : Fin 1280000, dstK (ix1 i) = e (ix2 1 i)) : dstK = val_main_v3 (F := Ideal) e := by
  funext j
  obtain ⟨i, rfl⟩ : ∃ i : Fin 1280000, j = ix1 i := ⟨j 0, eq_ix1 j⟩
  rw [hd, val_main_v3_apply, val_main_v2_apply]
  refine congrArg e (funext fun a => ?_)
  have hi := i.isLt
  match a with
  | ⟨0, _⟩ => rfl
  | ⟨1, _⟩ => exact Fin.ext (show i.val = i.val % 1280000 by omega)

/-- Gathering along the sources and adding up at the targets: the two programs' neighbour sums are one function. -/
theorem agg_eq (h : Vec Ideal Cert.ReferenceIdeal.S80000x64 .f32) (e : IVec Cert.ReferenceIdeal.S2x1280000 32)
    (srcK dstK : IVec Cert.ReferenceIdeal.S1280000 32)
    (hs : ∀ i : Fin 1280000, srcK (ix1 i) = e (ix2 0 i)) (hd : ∀ i : Fin 1280000, dstK (ix1 i) = e (ix2 1 i)) :
    Cert.KernelIdeal.Host.scatterK dstK (Cert.KernelIdeal.Host.gatherK h srcK) = Cert.ReferenceIdeal.Layers.aggR h e := by
  rw [src_eq e srcK hs, dst_eq e dstK hd]
  unfold Cert.KernelIdeal.Host.scatterK Cert.KernelIdeal.Host.gatherK Cert.ReferenceIdeal.Layers.aggR
    val_main_v12 val_main_v11 val_main_v9 val_main_v8 val_main_v7 val_main_v6 val_main_v5 val_main_v4
    val_main_cst val_main_c val_main_c_0
  rw [gather_dims_eq, scatter_dims_eq]

end Cert.Proof.AggBridge

end
-- ==== Proof.lean ====
/-
  The certificate's claim: the three frames, the (empty) idealization ledger, and the equivalence over the reals.

  THE STATEMENT carries two evident-domain conjuncts beside finiteness: every running variance is non-negative (the
  reference divides by the square root of variance plus a positive guard), and every edge's source is a node index in
  [0, 80000) (the reference indexes the feature rows by it).

  THE EQUIVALENCE. Both programs compute three graph-isomorphism layers, a two-layer perceptron and a sum pooling by
  graph id (`Cert.Spec.out`). The kernel program's result buffer is read through the fold of its run (the launch
  theorem called again with that buffer named, then `kernel_value`); the reference's through its generated run
  (`ref_value`). The two differ in three places, none of which changes a value on the stated domain:
   * the batch-norm step is `z * sc + sh` with the scale and shift folded once, against `(z - μ) * sc + β`: one map of
     `z` when μ, β and sc are real, and sc is real because the variance is non-negative (`Cert.Spec.bn_fold`);
   * the neighbour gather fills out-of-range reads with a constant in one program and not in the other: with every source
     in range the fill is never read, and what remains is the same chain of host operations (`agg_eq`);
   * the pooling is a one-hot product accumulated over the row blocks, against a scatter-add: both are the sum over the
     nodes of a graph (`Cert.Spec.pool`).
  THE FRAMES of the two kernel programs are the generated frame certificates; the reference's is its generated run with
  the result dropped. The ledger is empty.
-/
import proofs.«427193_j25417616458217_1_alg».proof.Defs
import proofs.«427193_j25417616458217_1_alg».proof.Proof.Gen.Kernel
import proofs.«427193_j25417616458217_1_alg».proof.Proof.Gen.Kernel.Frame
import proofs.«427193_j25417616458217_1_alg».proof.Proof.Gen.KernelIdeal
import proofs.«427193_j25417616458217_1_alg».proof.Proof.Gen.KernelIdeal.Frame
import proofs.«427193_j25417616458217_1_alg».proof.Proof.Gen.ReferenceIdeal
import proofs.«427193_j25417616458217_1_alg».proof.Proof.Gen.ReferenceIdeal.Run
import proofs.«427193_j25417616458217_1_alg».proof.Proof.Gen.Pre_finite_inputs
import proofs.«427193_j25417616458217_1_alg».proof.Proof.KRun
import proofs.«427193_j25417616458217_1_alg».proof.Proof.KOut
import proofs.«427193_j25417616458217_1_alg».proof.Proof.RValue
import proofs.«427193_j25417616458217_1_alg».proof.Proof.PreFacts
import proofs.«427193_j25417616458217_1_alg».proof.Proof.AggBridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, under the precondition, the reference's result is the kernel
    program's: both are `Cert.Spec.out` of the same arguments over the same neighbour sum. -/
theorem algebraic : Cert.algebraic_KernelIdeal_ReferenceIdeal := by
  intro m ρ m' ρ' hpre hagree
  refine ⟨fun c => Cert.KernelIdeal.Gen.W13 (F := Ideal) m ρ c (Proc.devRef .tc Cert.KernelIdeal.main_v77),
    Cert.KernelIdeal.Named.run_named (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  have hbn := Cert.PreFacts.bn_real (hpre c)
  have hin : Cert.KernelIdeal.Value.SrcInRange m c := Cert.PreFacts.src_in_range (hpre c)
  rw [← h5, ← h6, ← h7, ← h8] at hbn
  refine (Cert.ReferenceIdeal.RefValue.ref_value m' c hbn).trans ?_
  refine Eq.trans ?_ (Cert.KernelIdeal.Value.kernel_value m ρ c hin).symm
  have hagg : (fun h => Cert.ReferenceIdeal.Layers.aggR h (m ((c.tc : Thread Cert.KernelIdeal.nD Cert.KernelIdeal.τ).loc Cert.KernelIdeal.main_arg1)))
      = Cert.KernelIdeal.Value.aggK m ρ c := funext fun h =>
    (Cert.Proof.AggBridge.agg_eq h _ _ _ (Cert.KernelIdeal.Value.srcA_apply m ρ c) (Cert.KernelIdeal.Value.dstA_apply m ρ c)).symm
  rw [h0, h1, h2, h3, h4, h5, h6, h7, h8, h9, h10, h11, h12, h13, h14, hagg]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
